-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x2000000 : Shape := ⟨2, ![2, 2000000]⟩
abbrev S100000 : Shape := ⟨1, ![100000]⟩
abbrev S1024x4 : Shape := ⟨2, ![1024, 4]⟩
abbrev S9x64 : Shape := ⟨2, ![9, 64]⟩
abbrev S64 : Shape := ⟨1, ![64]⟩
abbrev S64x64 : Shape := ⟨2, ![64, 64]⟩
abbrev S68x64 : Shape := ⟨2, ![68, 64]⟩
abbrev S64x1 : Shape := ⟨2, ![64, 1]⟩
abbrev S1 : Shape := ⟨1, ![1]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S68x64 : S_.BroadcastsInDim S68x64 (![] : Fin 0 → Fin S68x64.rank)
  reducesTo_S68x64_S_d0_1 : S68x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S68x64 .f32) (main_arg11 : FVec F S64 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S68x64 .f32 := Host.absf main_arg10
  let main_cst_14 : FVec F S_ .f32 := constant S_ .f32 0x7F800000#32
  let main_v40 : FVec F S68x64 .f32 := broadcastInDim S68x64 ![] bcast_S_S68x64 main_cst_14
  let main_v41 : IVec S68x64 1 := cmpf .olt main_v39 main_v40
  let main_c_15 : IVec S_ 1 := constantI S_ 1 1#1
  let main_v42 : IVec S_ 1 := (fun x v => Host.reduce IntOp.andi x v reducesTo_S68x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S68x64 .f32) (main_arg11 : FVec F S64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x9 .f32) (main_arg1 : IVec S2x2000000 32) (main_arg2 : IVec S100000 32) (main_arg3 : FVec F S1024x4 .f32) (main_arg4 : FVec F S9x64 .f32) (main_arg5 : FVec F S64 .f32) (main_arg6 : FVec F S64x64 .f32) (main_arg7 : FVec F S64 .f32) (main_arg8 : FVec F S64x64 .f32) (main_arg9 : FVec F S64 .f32) (main_arg10 : FVec F S68x64 .f32) (main_arg11 : FVec F S64 .f32) (main_arg12 : FVec F S64x1 .f32) (main_arg13 : FVec F S1 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S1024x4 .f32 := Host.absf main_arg3
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S9x64 .f32 := Host.absf main_arg4
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x9 : Shape := ⟨2, ![100000, 9]⟩
abbrev S2x2000000 : Shape := ⟨2, ![2, 2000000]⟩
abbrev S100000 : Shape := ⟨1, ![100000]⟩
abbrev S1024x4 : Shape := ⟨2, ![1024, 4]⟩
abbrev S9x64 : Shape := ⟨2, ![9, 64]⟩
abbrev S64 : Shape := ⟨1, ![64]⟩
abbrev S64x64 : Shape := ⟨2, ![64, 64]⟩
abbrev S68x64 : Shape := ⟨2, ![68, 64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x1 : Shape := ⟨2, ![100000, 1]⟩
abbrev S100000x64 : Shape := ⟨2, ![100000, 64]⟩
abbrev S4000x9 : Shape := ⟨2, ![4000, 9]⟩
abbrev S4000x1 : Shape := ⟨2, ![4000, 1]⟩
abbrev S4000x64 : Shape := ⟨2, ![4000, 64]⟩
abbrev S2100000x64 : Shape := ⟨2, ![2100000, 64]⟩
abbrev S1x64 : Shape := ⟨2, ![1, 64]⟩
abbrev S1024x64 : Shape := ⟨2, ![1024, 64]⟩
abbrev S1x1024 : Shape := ⟨2, ![1, 1024]⟩
abbrev S800x64 : Shape := ⟨2, ![800, 64]⟩
abbrev S800x1 : Shape := ⟨2, ![800, 1]⟩
abbrev S800x1024 : Shape := ⟨2, ![800, 1024]⟩
abbrev S1024 : Shape := ⟨1, ![1024]⟩
abbrev S1024x1 : Shape := ⟨2, ![1024, 1]⟩
abbrev S1024x68 : Shape := ⟨2, ![1024, 68]⟩
abbrev S1x1 : Shape := ⟨2, ![1, 1]⟩

abbrev nBuf : Space → Nat
  | .hbm => 99
  | .vmem => 38
  | .smem => 0
  | _ => 0

abbrev bufTy : (tb : Table) → Fin (tcTables nBuf tb) → BufTy
  | .hbm, ⟨0, _⟩ => ⟨S100000x9, .f32⟩
  | .hbm, ⟨1, _⟩ => ⟨S2x2000000, .i32⟩
  | .hbm, ⟨2, _⟩ => ⟨S100000, .i32⟩
  | .hbm, ⟨3, _⟩ => ⟨S1024x4, .f32⟩
  | .hbm, ⟨4, _⟩ => ⟨S9x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S68x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S100000, .i32⟩
  | .hbm, ⟨15, _⟩ => ⟨S1x2000000, .i32⟩
  | .hbm, ⟨16, _⟩ => ⟨S2000000, .i32⟩
  | .hbm, ⟨17, _⟩ => ⟨S2100000, .i32⟩
  | .hbm, ⟨18, _⟩ => ⟨S1x2000000, .i32⟩
  | .hbm, ⟨19, _⟩ => ⟨S2000000, .i32⟩
  | .hbm, ⟨20, _⟩ => ⟨S2100000, .i32⟩
  | .hbm, ⟨21, _⟩ => ⟨S_, .f32⟩
  | .hbm, ⟨22, _⟩ => ⟨S2100000, .f32⟩
  | .hbm, ⟨23, _⟩ => ⟨S_, .f32⟩
  | .hbm, ⟨24, _⟩ => ⟨S100000, .f32⟩
  | .hbm, ⟨25, _⟩ => ⟨S2100000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .bf16⟩
  | .hbm, ⟨39, _⟩ => ⟨S_, .i32⟩
  | .hbm, ⟨40, _⟩ => ⟨S2100000, .i32⟩
  | .hbm, ⟨41, _⟩ => ⟨S2100000, .i1⟩
  | .hbm, ⟨42, _⟩ => ⟨S_, .i32⟩
  | .hbm, ⟨43, _⟩ => ⟨S2100000, .i32⟩
  | .hbm, ⟨44, _⟩ => ⟨S2100000, .i32⟩
  | .hbm, ⟨45, _⟩ => ⟨S2100000, .i32⟩
  | .hbm, ⟨46, _⟩ => ⟨S2100000x1, .i32⟩
  | .hbm, ⟨47, _⟩ => ⟨S2100000x64, .bf16⟩
  | .hbm, ⟨48, _⟩ => ⟨S2100000x64, .f32⟩
  | .hbm, ⟨49, _⟩ => ⟨S_, .f32⟩
  | .hbm, ⟨50, _⟩ => ⟨S100000x64, .f32⟩
  | .hbm, ⟨51, _⟩ => ⟨S2100000x1, .i32⟩
  | .hbm, ⟨52, _⟩ => ⟨S100000x64, .f32⟩
  | .hbm, ⟨53, _⟩ => ⟨S1x64, .f32⟩
  | .hbm, ⟨54, _⟩ => ⟨S100000x64, .bf16⟩
  | .hbm, ⟨55, _⟩ => ⟨S_, .i32⟩
  | .hbm, ⟨56, _⟩ => ⟨S2100000, .i32⟩
  | .hbm, ⟨57, _⟩ => ⟨S2100000, .i1⟩
  | .hbm, ⟨58, _⟩ => ⟨S_, .i32⟩
  | .hbm, ⟨59, _⟩ => ⟨S2100000, .i32⟩
  | .hbm, ⟨60, _⟩ => ⟨S2100000, .i32⟩
  | .hbm, ⟨61, _⟩ => ⟨S2100000, .i32⟩
  | .hbm, ⟨62, _⟩ => ⟨S2100000x1, .i32⟩
  | .hbm, ⟨63, _⟩ => ⟨S2100000x64, .bf16⟩
  | .hbm, ⟨64, _⟩ => ⟨S2100000x64, .f32⟩
  | .hbm, ⟨65, _⟩ => ⟨S_, .f32⟩
  | .hbm, ⟨66, _⟩ => ⟨S100000x64, .f32⟩
  | .hbm, ⟨67, _⟩ => ⟨S2100000x1, .i32⟩
  | .hbm, ⟨68, _⟩ => ⟨S100000x64, .f32⟩
  | .hbm, ⟨69, _⟩ => ⟨S1x64, .f32⟩
  | .hbm, ⟨70, _⟩ => ⟨S100000x64, .bf16⟩
  | .hbm, ⟨71, _⟩ => ⟨S_, .i32⟩
  | .hbm, ⟨72, _⟩ => ⟨S2100000, .i32⟩
  | .hbm, ⟨73, _⟩ => ⟨S2100000, .i1⟩
  | .hbm, ⟨74, _⟩ => ⟨S_, .i32⟩
  | .hbm, ⟨75, _⟩ => ⟨S2100000, .i32⟩
  | .hbm, ⟨76, _⟩ => ⟨S2100000, .i32⟩
  | .hbm, ⟨77, _⟩ => ⟨S2100000, .i32⟩
  | .hbm, ⟨78, _⟩ => ⟨S2100000x1, .i32⟩
  | .hbm, ⟨79, _⟩ => ⟨S2100000x64, .bf16⟩
  | .hbm, ⟨80, _⟩ => ⟨S2100000x64, .f32⟩
  | .hbm, ⟨81, _⟩ => ⟨S_, .f32⟩
  | .hbm, ⟨82, _⟩ => ⟨S100000x64, .f32⟩
  | .hbm, ⟨83, _⟩ => ⟨S2100000x1, .i32⟩
  | .hbm, ⟨84, _⟩ => ⟨S100000x64, .f32⟩
  | .hbm, ⟨85, _⟩ => ⟨S1x64, .f32⟩
  | .hbm, ⟨86, _⟩ => ⟨S100000x1, .i32⟩
  | .hbm, ⟨87, _⟩ => ⟨S1024x64, .f32⟩
  | .hbm, ⟨88, _⟩ => ⟨S1x1024, .f32⟩
  | .hbm, ⟨89, _⟩ => ⟨S1024x1, .f32⟩
  | .hbm, ⟨90, _⟩ => ⟨S_, .f32⟩
  | .hbm, ⟨91, _⟩ => ⟨S1024x1, .f32⟩
  | .hbm, ⟨92, _⟩ => ⟨S1024x1, .f32⟩
  | .hbm, ⟨93, _⟩ => ⟨S1024x64, .f32⟩
  | .hbm, ⟨94, _⟩ => ⟨S1024x64, .f32⟩
  | .hbm, ⟨95, _⟩ => ⟨S1024x68, .f32⟩
  | .hbm, ⟨96, _⟩ => ⟨S1x64, .f32⟩
  | .hbm, ⟨97, _⟩ => ⟨S1x1, .f32⟩
  | .hbm, ⟨98, _⟩ => ⟨S1024x1, .f32⟩
  | .local _ .vmem, ⟨0, _⟩ => ⟨S4000x9, .f32⟩
  | .local _ .vmem, ⟨1, _⟩ => ⟨S4000x9, .f32⟩
  | .local _ .vmem, ⟨2, _⟩ => ⟨S9x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S64x64, .f32⟩
  | .local _ .vmem, ⟨21, _⟩ => ⟨S4000x64, .bf16⟩
  | .local _ .vmem, ⟨22, _⟩ => ⟨S4000x64, .bf16⟩
  | .local _ .vmem, ⟨23, _⟩ => ⟨S800x64, .f32⟩
  | .local _ .vmem, ⟨24, _⟩ => ⟨S800x64, .f32⟩
  | .local _ .vmem, ⟨25, _⟩ => ⟨S800x1, .f32⟩
  | .local _ .vmem, ⟨26, _⟩ => ⟨S800x1, .f32⟩
  | .local _ .vmem, ⟨27, _⟩ => ⟨S1x64, .f32⟩
  | .local _ .vmem, ⟨28, _⟩ => ⟨S800x1, .i32⟩
  | .local _ .vmem, ⟨29, _⟩ => ⟨S800x1, .i32⟩
  | .local _ .vmem, ⟨30, _⟩ => ⟨S1024x64, .f32⟩
  | .local _ .vmem, ⟨31, _⟩ => ⟨S1x1024, .f32⟩
  | .local _ .vmem, ⟨32, _⟩ => ⟨S1024x68, .f32⟩
  | .local _ .vmem, ⟨33, _⟩ => ⟨S68x64, .f32⟩
  | .local _ .vmem, ⟨34, _⟩ => ⟨S1x64, .f32⟩
  | .local _ .vmem, ⟨35, _⟩ => ⟨S64x1, .f32⟩
  | .local _ .vmem, ⟨36, _⟩ => ⟨S1x1, .f32⟩
  | .local _ .vmem, ⟨37, _⟩ => ⟨S1024x1, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57_0 : Ref sig .tc := ⟨.hbm, 87, rfl⟩
abbrev main_v57_1 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S800x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S800x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S800x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1024x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x68 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S68x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  shapeCasts_S100000_S100000x1 : S100000.ShapeCasts S100000x1
  inb_S4000x9_S4000x9_0_0 : ∀ a, (![0, 0] : Fin 2 → Nat) a + S4000x9.size a ≤ S4000x9.size a
  h_S4000x9 : 0 < S4000x9.numel
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  inb_S800x64_S800x64_0_0 : ∀ a, (![0, 0] : Fin 2 → Nat) a + S800x64.size a ≤ S800x64.size a
  h_S800x64 : 0 < S800x64.numel
  shapeCasts_S800x64_S800x64 : S800x64.ShapeCasts S800x64
  inb_S800x1_S800x1_0_0 : ∀ a, (![0, 0] : Fin 2 → Nat) a + S800x1.size a ≤ S800x1.size a
  h_S800x1 : 0 < S800x1.numel
  shapeCasts_S800x1_S800x1 : S800x1.ShapeCasts S800x1
  broadcasts_S1x64_S800x64 : S1x64.Broadcasts S800x64
  broadcasts_S800x1_S800x64 : S800x1.Broadcasts S800x64
  iota_S800x1024_d1_w32 : S800x1024.Iotas .tc 32 [1]
  broadcasts_S800x1_S800x1024 : S800x1.Broadcasts S800x1024
  natLt_1_32 : 1 < 32
  shapeCasts_S1024x64_S1024x64 : S1024x64.ShapeCasts S1024x64
  shapeCasts_S1x1024_S1x1024 : S1x1024.ShapeCasts S1x1024
  reduces_S800x1024_S1024 : S800x1024.Reduces [0] S1024
  shapeCasts_S1024_S1x1024 : S1024.ShapeCasts S1x1024
  transposes_S1x1024_S1024x1_1_0 : S1x1024.Transposes [1, 0] S1024x1
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  concatenates_S1024x64_S1024x4_S1024x68_d1 : Shape.Concatenates [S1024x64, S1024x4] S1024x68 1
  shapeCasts_S1_S1x1 : S1.ShapeCasts S1x1
  inb_S1024x68_S1024x68_0_0 : ∀ a, (![0, 0] : Fin 2 → Nat) a + S1024x68.size a ≤ S1024x68.size a
  h_S1024x68 : 0 < S1024x68.numel
  shapeCasts_S1024x68_S1024x68 : S1024x68.ShapeCasts S1024x68
  inb_S68x64_S68x64_0_0 : ∀ a, (![0, 0] : Fin 2 → Nat) a + S68x64.size a ≤ S68x64.size a
  h_S68x64 : 0 < S68x64.numel
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S100000_S2100000x1_S2100000_n_0_0_1_wf : ScatterDims.WF S100000 S2100000x1 S2100000 [] [0] [0] 1
  dot_S4000x9_S9x64_S4000x64_1_0_0_1_n_n_wf : DotDims.WF S4000x9 S9x64 S4000x64 [1] [0] [0] [1] [] []
  gather_S100000x64_S2100000x1_S2100000x64_1_0_n_n_0_1_164_wf : GatherDims.WF S100000x64 S2100000x1 S2100000x64 [1] [0] [] [0] [] 1 ![1, 64]
  scatter_S100000x64_S2100000x1_S2100000x64_1_0_0_1_wf : ScatterDims.WF S100000x64 S2100000x1 S2100000x64 [1] [0] [0] 1
  dot_S4000x64_S64x64_S4000x64_1_0_0_1_n_n_wf : DotDims.WF S4000x64 S64x64 S4000x64 [1] [0] [0] [1] [] []
  dot_S800x1024_S800x64_S1024x64_0_0_1_1_n_n_wf : DotDims.WF S800x1024 S800x64 S1024x64 [0] [0] [1] [1] [] []
  dot_S1024x68_S68x64_S1024x64_1_0_0_1_n_n_wf : DotDims.WF S1024x68 S68x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x9.size a ≤ S100000x9.size a
  hwx0_0 : ∀ i : grid0.Coords, EltTy.bits .f32 = 32 ∨ (Rect.block (s := S100000x9) S4000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .bf16 = 32 ∨ (Rect.block (s := S100000x64) S4000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S800x64.size a ≤ S100000x64.size a
  hwx3_0 : ∀ i : grid3.Coords, EltTy.bits .f32 = 32 ∨ (Rect.block (s := S100000x64) S800x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S800x1.size a ≤ S100000x1.size a
  hwx3_1 : ∀ i : grid3.Coords, EltTy.bits .f32 = 32 ∨ (Rect.block (s := S100000x1) S800x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S800x1.size a ≤ S100000x1.size a
  hwx3_3 : ∀ i : grid3.Coords, EltTy.bits .i32 = 32 ∨ (Rect.block (s := S100000x1) S800x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x64.size a ≤ S1024x64.size a
  hwx3_4 : ∀ i : grid3.Coords, EltTy.bits .f32 = 32 ∨ (Rect.block (s := S1024x64) S1024x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x68.size a ≤ S1024x68.size a
  hwx4_0 : ∀ i : grid4.Coords, EltTy.bits .f32 = 32 ∨ (Rect.block (s := S1024x68) S1024x68.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S68x64.size a ≤ S68x64.size a
  hwx4_1 : ∀ i : grid4.Coords, EltTy.bits .f32 = 32 ∨ (Rect.block (s := S68x64) S68x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x1.size a ≤ S1024x1.size a
  hwx4_5 : ∀ i : grid4.Coords, EltTy.bits .f32 = 32 ∨ (Rect.block (s := S1024x1) S1024x1.size (cc4_transform_5 i) (hinb4_5 i)).WholeWords (EltTy.packing .f32)

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def dot_S4000x9_S9x64_S4000x64_1_0_0_1_n_n : DotDims S4000x9 S9x64 S4000x64 where
  lhsContracting := [1]
  rhsContracting := [0]
  lhsNonContracting := [0]
  rhsNonContracting := [1]
  lhsBatch := []
  rhsBatch := []
  wf := dot_S4000x9_S9x64_S4000x64_1_0_0_1_n_n_wf
def gather_S100000x64_S2100000x1_S2100000x64_1_0_n_n_0_1_164 : GatherDims S100000x64 S2100000x1 S2100000x64 where
  offsetDims := [1]
  collapsedSliceDims := [0]
  operandBatchingDims := []
  startIndicesBatchingDims := []
  startIndexMap := [0]
  indexVectorDim := 1
  sliceSizes := ![1, 64]
  wf := gather_S100000x64_S2100000x1_S2100000x64_1_0_n_n_0_1_164_wf
def scatter_S100000x64_S2100000x1_S2100000x64_1_0_0_1 : ScatterDims S100000x64 S2100000x1 S2100000x64 where
  updateWindowDims := [1]
  insertedWindowDims := [0]
  scatterDimsToOperandDims := [0]
  indexVectorDim := 1
  wf := scatter_S100000x64_S2100000x1_S2100000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S800x1024_S800x64_S1024x64_0_0_1_1_n_n : DotDims S800x1024 S800x64 S1024x64 where
  lhsContracting := [0]
  rhsContracting := [0]
  lhsNonContracting := [1]
  rhsNonContracting := [1]
  lhsBatch := []
  rhsBatch := []
  wf := dot_S800x1024_S800x64_S1024x64_0_0_1_1_n_n_wf
def dot_S1024x68_S68x64_S1024x64_1_0_0_1_n_n : DotDims S1024x68 S68x64 S1024x64 where
  lhsContracting := [1]
  rhsContracting := [0]
  lhsNonContracting := [0]
  rhsNonContracting := [1]
  lhsBatch := []
  rhsBatch := []
  wf := dot_S1024x68_S68x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S4000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S800x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S800x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S800x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57_0) S1024x64.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57_1) S1x1024.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S1024x68.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S68x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S1024x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x9 : Shape := ⟨2, ![100000, 9]⟩
abbrev S2x2000000 : Shape := ⟨2, ![2, 2000000]⟩
abbrev S100000 : Shape := ⟨1, ![100000]⟩
abbrev S1024x4 : Shape := ⟨2, ![1024, 4]⟩
abbrev S9x64 : Shape := ⟨2, ![9, 64]⟩
abbrev S64 : Shape := ⟨1, ![64]⟩
abbrev S64x64 : Shape := ⟨2, ![64, 64]⟩
abbrev S68x64 : Shape := ⟨2, ![68, 64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S100000x64 : Shape := ⟨2, ![100000, 64]⟩
abbrev S2100000x64 : Shape := ⟨2, ![2100000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x68 : Shape := ⟨2, ![1024, 68]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S100000x9, .f32⟩
  | 1 => ⟨S2x2000000, .i32⟩
  | 2 => ⟨S100000, .i32⟩
  | 3 => ⟨S1024x4, .f32⟩
  | 4 => ⟨S9x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S68x64, .f32⟩
  | 11 => ⟨S64, .f32⟩
  | 12 => ⟨S64x1, .f32⟩
  | 13 => ⟨S1, .f32⟩
  | 14 => ⟨S100000, .i32⟩
  | 15 => ⟨S1x2000000, .i32⟩
  | 16 => ⟨S2000000, .i32⟩
  | 17 => ⟨S2100000, .i32⟩
  | 18 => ⟨S1x2000000, .i32⟩
  | 19 => ⟨S2000000, .i32⟩
  | 20 => ⟨S2100000, .i32⟩
  | 21 => ⟨S_, .f32⟩
  | 22 => ⟨S2100000, .f32⟩
  | 23 => ⟨S_, .f32⟩
  | 24 => ⟨S100000, .f32⟩
  | 25 => ⟨S2100000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S2100000, .i32⟩
  | 39 => ⟨S2100000, .i1⟩
  | 40 => ⟨S_, .i32⟩
  | 41 => ⟨S2100000, .i32⟩
  | 42 => ⟨S2100000, .i32⟩
  | 43 => ⟨S2100000, .i32⟩
  | 44 => ⟨S2100000x1, .i32⟩
  | 45 => ⟨S2100000, .f32⟩
  | 46 => ⟨S_, .i32⟩
  | 47 => ⟨S2100000, .i32⟩
  | 48 => ⟨S2100000, .i1⟩
  | 49 => ⟨S_, .i32⟩
  | 50 => ⟨S2100000, .i32⟩
  | 51 => ⟨S2100000, .i32⟩
  | 52 => ⟨S2100000, .i32⟩
  | 53 => ⟨S2100000x1, .i32⟩
  | 54 => ⟨S2100000, .f32⟩
  | 55 => ⟨S2100000, .f32⟩
  | 56 => ⟨S100000x64, .f32⟩
  | 57 => ⟨S_, .i32⟩
  | 58 => ⟨S2100000, .i32⟩
  | 59 => ⟨S2100000, .i1⟩
  | 60 => ⟨S_, .i32⟩
  | 61 => ⟨S2100000, .i32⟩
  | 62 => ⟨S2100000, .i32⟩
  | 63 => ⟨S2100000, .i32⟩
  | 64 => ⟨S2100000x1, .i32⟩
  | 65 => ⟨S2100000x64, .f32⟩
  | 66 => ⟨S2100000x1, .f32⟩
  | 67 => ⟨S2100000x64, .f32⟩
  | 68 => ⟨S2100000x64, .f32⟩
  | 69 => ⟨S_, .f32⟩
  | 70 => ⟨S100000x64, .f32⟩
  | 71 => ⟨S2100000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .i32⟩
  | 81 => ⟨S2100000, .i32⟩
  | 82 => ⟨S2100000, .i1⟩
  | 83 => ⟨S_, .i32⟩
  | 84 => ⟨S2100000, .i32⟩
  | 85 => ⟨S2100000, .i32⟩
  | 86 => ⟨S2100000, .i32⟩
  | 87 => ⟨S2100000x1, .i32⟩
  | 88 => ⟨S2100000x64, .f32⟩
  | 89 => ⟨S2100000x1, .f32⟩
  | 90 => ⟨S2100000x64, .f32⟩
  | 91 => ⟨S2100000x64, .f32⟩
  | 92 => ⟨S_, .f32⟩
  | 93 => ⟨S100000x64, .f32⟩
  | 94 => ⟨S2100000x1, .i32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .i32⟩
  | 104 => ⟨S2100000, .i32⟩
  | 105 => ⟨S2100000, .i1⟩
  | 106 => ⟨S_, .i32⟩
  | 107 => ⟨S2100000, .i32⟩
  | 108 => ⟨S2100000, .i32⟩
  | 109 => ⟨S2100000, .i32⟩
  | 110 => ⟨S2100000x1, .i32⟩
  | 111 => ⟨S2100000x64, .f32⟩
  | 112 => ⟨S2100000x1, .f32⟩
  | 113 => ⟨S2100000x64, .f32⟩
  | 114 => ⟨S2100000x64, .f32⟩
  | 115 => ⟨S_, .f32⟩
  | 116 => ⟨S100000x64, .f32⟩
  | 117 => ⟨S2100000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S1024x64, .f32⟩
  | 127 => ⟨S100000x1, .i32⟩
  | _ => ⟨S100000x9, .f32⟩

abbrev hbmTy0_1 (i : Nat) : BufTy := match i % 128 with
  | 0 => ⟨S1024x64, .f32⟩
  | 1 => ⟨S_, .f32⟩
  | 2 => ⟨S100000, .f32⟩
  | 3 => ⟨S_, .f32⟩
  | 4 => ⟨S1024, .f32⟩
  | 5 => ⟨S100000x1, .i32⟩
  | 6 => ⟨S1024, .f32⟩
  | 7 => ⟨S_, .f32⟩
  | 8 => ⟨S1024, .f32⟩
  | 9 => ⟨S1024, .f32⟩
  | 10 => ⟨S1024x1, .f32⟩
  | 11 => ⟨S1024x64, .f32⟩
  | 12 => ⟨S1024x64, .f32⟩
  | 13 => ⟨S1024x68, .f32⟩
  | 14 => ⟨S1024x64, .f32⟩
  | 15 => ⟨S1x64, .f32⟩
  | 16 => ⟨S1024x64, .f32⟩
  | 17 => ⟨S1024x64, .f32⟩
  | 18 => ⟨S_, .f32⟩
  | 19 => ⟨S1024x64, .f32⟩
  | 20 => ⟨S1024x64, .f32⟩
  | 21 => ⟨S1024x1, .f32⟩
  | 22 => ⟨S1x1, .f32⟩
  | 23 => ⟨S1024x1, .f32⟩
  | 24 => ⟨S1024x1, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_cst : Ref sig .tc := ⟨.hbm, 76, rfl⟩
abbrev main_call1_v0 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_cst : Ref sig .tc := ⟨.hbm, 99, rfl⟩
abbrev main_call2_v0 : Ref sig .tc := ⟨.hbm, 100, rfl⟩
abbrev main_v66 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_c_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call3_cst : Ref sig .tc := ⟨.hbm, 122, rfl⟩
abbrev main_call3_v0 : Ref sig .tc := ⟨.hbm, 123, rfl⟩
abbrev main_v84 : Ref sig .tc := ⟨.hbm, 124, rfl⟩
abbrev main_cst_16 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call4_cst : Ref sig .tc := ⟨.hbm, 146, rfl⟩
abbrev main_call4_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  bcast_S2100000x1_S2100000x64_0_1 : S2100000x1.BroadcastsInDim S2100000x64 (![0, 1] : Fin 2 → Fin S2100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x4_S1024x68_d1 : Shape.Concatenates [S1024x64, S1024x4] S1024x68 1
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S100000x9_S9x64_S100000x64_1_0_0_1_n_n_wf : DotDims.WF S100000x9 S9x64 S100000x64 [1] [0] [0] [1] [] []
  gather_S100000x64_S2100000x1_S2100000x64_1_0_n_n_0_1_164_wf : GatherDims.WF S100000x64 S2100000x1 S2100000x64 [1] [0] [] [0] [] 1 ![1, 64]
  scatter_S100000x64_S2100000x1_S2100000x64_1_0_0_1_wf : ScatterDims.WF S100000x64 S2100000x1 S2100000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x68_S68x64_S1024x64_1_0_0_1_n_n_wf : DotDims.WF S1024x68 S68x64 S1024x64 [1] [0] [0] [1] [] []
  dot_S1024x64_S64x1_S1024x1_1_0_0_1_n_n_wf : DotDims.WF S1024x64 S64x1 S1024x1 [1] [0] [0] [1] [] []

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S2100000x1_S2100000x64_1_0_n_n_0_1_164 : GatherDims S100000x64 S2100000x1 S2100000x64 where
  offsetDims := [1]
  collapsedSliceDims := [0]
  operandBatchingDims := []
  startIndicesBatchingDims := []
  startIndexMap := [0]
  indexVectorDim := 1
  sliceSizes := ![1, 64]
  wf := gather_S100000x64_S2100000x1_S2100000x64_1_0_n_n_0_1_164_wf
def scatter_S100000x64_S2100000x1_S2100000x64_1_0_0_1 : ScatterDims S100000x64 S2100000x1 S2100000x64 where
  updateWindowDims := [1]
  insertedWindowDims := [0]
  scatterDimsToOperandDims := [0]
  indexVectorDim := 1
  wf := scatter_S100000x64_S2100000x1_S2100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x68_S68x64_S1024x64_1_0_0_1_n_n : DotDims S1024x68 S68x64 S1024x64 where
  lhsContracting := [1]
  rhsContracting := [0]
  lhsNonContracting := [0]
  rhsNonContracting := [1]
  lhsBatch := []
  rhsBatch := []
  wf := dot_S1024x68_S68x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Spec.lean ====
/-
  The mathematics both programs compute, over plain index ranges.

  A graph of 100000 nodes has 2100000 directed edges (the given ones and one loop per node), each an index
  word for its source and one for its target; `dinv` is a weight per node.  One convolution layer sends
  node features X through a matrix W, gathers the row of each edge's source, and sums the gathered rows over
  the edges that END at a node.  A target word lands on node v exactly when, read as a signed integer, it is
  v (no wrapping, no clamping); a source word selects the row obtained by adding 100000 to a negative word
  and clamping the result into the node range.

  The two programs place the weights differently.  One scales row n of X W by `dinv n` before the gather
  and the summed row v by `dinv v` after it; the other multiplies each gathered row by
  `dinv (source) * dinv (target)`.  Because `dinv` takes only non-negative real values, multiplication by
  it distributes over any sum of extended reals, and an edge that lands on v has target row v: the two
  layers are one function (`layer_eq`).

  Pooling sums node rows by graph word (again an exact signed match against 0 … 1023), divides by the
  count clipped below at 1, appends four columns of metadata and applies two dense layers.
-/
import Idealize.ShloMosaic.PureOps.Ideal
import Idealize.ShloMosaic.Lib.ValueIdx
import Mathlib.Data.EReal.Operations
import Mathlib.Algebra.BigOperators.Fin
import proofs.«405875_j14018773254871_2_alg».proof.Proof.LibTileSums

noncomputable section

namespace Cert.Gcn.Spec

open Idealize.ShloMosaic

/-- The row a source (or target) word selects in a table of 100000 rows: a negative word has 100000 added,
    and the result, read signed, is clamped into 0 … 99999. -/
def row (w : BitVec 32) : Fin 100000 :=
  ⟨min ((if w.slt 0#32 then w + 100000#32 else w).toInt.toNat) 99999, by omega⟩

/-- A word that reads as the node number v selects row v. -/
theorem row_of_toInt (w : BitVec 32) (v : Fin 100000) (h : w.toInt = (v.val : ℤ)) : row w = v := by
  -- the word reads as a natural number, so it is not below zero
  have hs : w.slt 0#32 = false := by
    unfold BitVec.slt
    rw [h]
    simp
  apply Fin.ext
  show min ((if w.slt 0#32 = true then w + 100000#32 else w).toInt.toNat) 99999 = v.val
  rw [hs, if_neg (by decide), h, Int.toNat_natCast]
  exact Nat.min_eq_left (by have := v.isLt; omega)

/-- X W: row i of X against column c of W. -/
def lin {n k h : ℕ} (X : Fin n → Fin k → EReal) (W : Fin k → Fin h → EReal) : Fin n → Fin h → EReal :=
  fun i c => ∑ j : Fin k, X i j * W j c

section Layer

variable (src dst : Fin 2100000 → BitVec 32) (dinv : Fin 100000 → EReal)

/-- The projection scaled on the source side: row n of X W times `dinv n`. -/
def projK {k : ℕ} (X : Fin 100000 → Fin k → EReal) (W : Fin k → Fin 64 → EReal) : Fin 100000 → Fin 64 → EReal :=
  fun n c => lin X W n c * dinv n

/-- Gather the source rows of Y and sum them over the edges that end at v. -/
def aggK (Y : Fin 100000 → Fin 64 → EReal) : Fin 100000 → Fin 64 → EReal :=
  fun v c => 0 + ∑ e : Fin 2100000, if (dst e).toInt = ((v.val : ℕ) : ℤ) then Y (row (src e)) c else 0

/-- Scale the summed row on the target side, add the bias, clip below at zero. -/
def actK (A : Fin 100000 → Fin 64 → EReal) (b : Fin 64 → EReal) : Fin 100000 → Fin 64 → EReal :=
  fun n c => max (A n c * dinv n + b c) 0

/-- Gather the source rows of Y, weight each by the product of its edge's two weights, and sum over the
    edges that end at v. -/
def aggR (Y : Fin 100000 → Fin 64 → EReal) : Fin 100000 → Fin 64 → EReal :=
  fun v c => 0 + ∑ e : Fin 2100000,
    if (dst e).toInt = ((v.val : ℕ) : ℤ) then Y (row (src e)) c * (dinv (row (src e)) * dinv (row (dst e))) else 0

/-- Add the bias, clip below at zero. -/
def actR (A : Fin 100000 → Fin 64 → EReal) (b : Fin 64 → EReal) : Fin 100000 → Fin 64 → EReal :=
  fun n c => max (A n c + b c) 0

/-- One layer, weights split between the two sides of the gather. -/
def layerK {k : ℕ} (X : Fin 100000 → Fin k → EReal) (W : Fin k → Fin 64 → EReal) (b : Fin 64 → EReal) :
    Fin 100000 → Fin 64 → EReal :=
  actK dinv (aggK src dst (projK dinv X W)) b

/-- One layer, weights multiplied per edge. -/
def layerR {k : ℕ} (X : Fin 100000 → Fin k → EReal) (W : Fin k → Fin 64 → EReal) (b : Fin 64 → EReal) :
    Fin 100000 → Fin 64 → EReal :=
  actR (aggR src dst dinv (lin X W)) b

/-- Multiplication by a non-negative real distributes over a finite sum of extended reals, whatever the
    terms are: a finite non-negative factor either keeps every infinite term's sign or sends every term
    to zero, so the convention `⊤ + ⊥ = ⊥` reads the same on both sides. -/
theorem sum_mul_real {ι : Type*} (s : Finset ι) (f : ι → EReal) (d : ℝ) (hd : 0 ≤ d) :
    (∑ i ∈ s, f i) * (d : EReal) = ∑ i ∈ s, f i * (d : EReal) := by
  classical
  induction s using Finset.induction_on with
  | empty => simp
  | insert a s ha ih =>
    rw [Finset.sum_insert ha, Finset.sum_insert ha,
      EReal.right_distrib_of_nonneg_of_ne_top (EReal.coe_nonneg.2 hd) (EReal.coe_ne_top d), ih]

/-- The two layers are one function when every weight is a non-negative real. -/
theorem layer_eq (hd : ∀ v, ∃ d : ℝ, 0 ≤ d ∧ dinv v = (d : EReal)) {k : ℕ}
    (X : Fin 100000 → Fin k → EReal) (W : Fin k → Fin 64 → EReal) (b : Fin 64 → EReal) :
    layerK src dst dinv X W b = layerR src dst dinv X W b := by
  funext v c
  obtain ⟨d, hd0, hdv⟩ := hd v
  -- the weight of the target node goes inside the sum, and on an edge that ends at v it is the
  -- weight of that edge's target row
  have key : (0 + ∑ e : Fin 2100000, if (dst e).toInt = ((v.val : ℕ) : ℤ)
        then lin X W (row (src e)) c * dinv (row (src e)) else 0) * dinv v
      = 0 + ∑ e : Fin 2100000, if (dst e).toInt = ((v.val : ℕ) : ℤ)
        then lin X W (row (src e)) c * (dinv (row (src e)) * dinv (row (dst e))) else 0 := by
    rw [zero_add, zero_add, hdv, sum_mul_real _ _ d hd0]
    refine Finset.sum_congr rfl fun e _ => ?_
    by_cases he : (dst e).toInt = ((v.val : ℕ) : ℤ)
    · rw [if_pos he, if_pos he, row_of_toInt (dst e) v he, hdv, mul_assoc]
    · rw [if_neg he, if_neg he, zero_mul]
  exact congrArg (fun t => max (t + b c) 0) key

/-- Three layers, weights split. -/
def netK (x : Fin 100000 → Fin 9 → EReal) (W0 : Fin 9 → Fin 64 → EReal) (b0 : Fin 64 → EReal)
    (W1 : Fin 64 → Fin 64 → EReal) (b1 : Fin 64 → EReal) (W2 : Fin 64 → Fin 64 → EReal) (b2 : Fin 64 → EReal) :
    Fin 100000 → Fin 64 → EReal :=
  layerK src dst dinv (layerK src dst dinv (layerK src dst dinv x W0 b0) W1 b1) W2 b2

/-- Three layers, weights per edge. -/
def netR (x : Fin 100000 → Fin 9 → EReal) (W0 : Fin 9 → Fin 64 → EReal) (b0 : Fin 64 → EReal)
    (W1 : Fin 64 → Fin 64 → EReal) (b1 : Fin 64 → EReal) (W2 : Fin 64 → Fin 64 → EReal) (b2 : Fin 64 → EReal) :
    Fin 100000 → Fin 64 → EReal :=
  layerR src dst dinv (layerR src dst dinv (layerR src dst dinv x W0 b0) W1 b1) W2 b2

theorem net_eq (hd : ∀ v, ∃ d : ℝ, 0 ≤ d ∧ dinv v = (d : EReal))
    (x : Fin 100000 → Fin 9 → EReal) (W0 : Fin 9 → Fin 64 → EReal) (b0 : Fin 64 → EReal)
    (W1 : Fin 64 → Fin 64 → EReal) (b1 : Fin 64 → EReal) (W2 : Fin 64 → Fin 64 → EReal) (b2 : Fin 64 → EReal) :
    netK src dst dinv x W0 b0 W1 b1 W2 b2 = netR src dst dinv x W0 b0 W1 b1 W2 b2 := by
  unfold netK netR
  rw [layer_eq src dst dinv hd, layer_eq src dst dinv hd, layer_eq src dst dinv hd]

end Layer

section Pool

variable (batch : Fin 100000 → BitVec 32)

/-- The rows of H summed per graph: node n counts for graph g when its word reads g. -/
def sums (H : Fin 100000 → Fin 64 → EReal) : Fin 1024 → Fin 64 → EReal :=
  fun g c => 0 + ∑ n : Fin 100000, if (batch n).toInt = ((g.val : ℕ) : ℤ) then H n c else 0

/-- The number of nodes per graph, as a sum of ones. -/
def cnt (one : EReal) : Fin 1024 → EReal :=
  fun g => 0 + ∑ n : Fin 100000, if (batch n).toInt = ((g.val : ℕ) : ℤ) then one else 0

/-- The mean per graph, the count clipped below at `one`. -/
def pooled (one : EReal) (H : Fin 100000 → Fin 64 → EReal) : Fin 1024 → Fin 64 → EReal :=
  fun g c => Ideal.div (sums batch H g c) (max (cnt batch one g) one)

end Pool

/-- A sum over 100000 nodes taken tile by tile, 125 tiles of 800. -/
theorem sum_tiles800 (f : Fin 100000 → EReal) :
    ∑ n : Fin 100000, f n
      = ∑ t : Fin 125, ∑ r : Fin 800, f ⟨t.val * 800 + r.val, by have := t.isLt; have := r.isLt; omega⟩ := by
  exact (Cert.LibTileSums.sum_tiles (A := 125) (B := 800) (n := 100000) (by norm_num) f).symm

/-- Multiplying by an indicator: (if p then 1 else 0) * x = if p then x else 0 on the extended reals. -/
theorem ite_one_zero_mul (p : Prop) [Decidable p] (x : EReal) :
    (if p then (1 : EReal) else 0) * x = if p then x else 0 := by
  by_cases h : p
  · rw [if_pos h, if_pos h, one_mul]
  · rw [if_neg h, if_neg h, zero_mul]

/-- The pooled features with four metadata columns appended. -/
def feat (P : Fin 1024 → Fin 64 → EReal) (md : Fin 1024 → Fin 4 → EReal) : Fin 1024 → Fin 68 → EReal :=
  fun g j => if h : j.val < 64 then P g ⟨j.val, h⟩ else md g ⟨j.val - 64, by omega⟩

/-- The two dense layers of the head. -/
def head (Z : Fin 1024 → Fin 68 → EReal) (Wh1 : Fin 68 → Fin 64 → EReal) (bh1 : Fin 64 → EReal)
    (Wh2 : Fin 64 → Fin 1 → EReal) (bh2 : Fin 1 → EReal) : Fin 1024 → Fin 1 → EReal :=
  fun g o => (∑ k : Fin 64, max ((∑ j : Fin 68, Z g j * Wh1 j k) + bh1 k) 0 * Wh2 k o) + bh2 o

end Cert.Gcn.Spec

end
-- ==== Proof.KRegion0.lean ====
/-
  The first projection, as one function of its three arrays.

  The call walks the 100000 node rows in 25 blocks of 4000.  On a block it multiplies the block of x by the
  whole of W (a sum over the 9 input channels), scales row r by the weight of that row, and stores the
  result; changes of float format are the identity on exact values.  Block t of the output therefore is
  block t of ONE array-wide function, and the 25 blocks tile the array.
-/
import proofs.«405875_j14018773254871_2_alg».proof.Proof.Gen.KernelIdeal.Frame
import proofs.«405875_j14018773254871_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- The TensorCore's buffer contents when the call is entered: every statement here holds at any such contents.
variable (V : (c : Dev nD) → (b : Ref sig .tc) → Buf (Elt Ideal) ((c : Thread nD τ).loc b))

/-- Row n of x W, times the weight of row n. -/
def G0 (x : S100000x9.Idx → EReal) (w : S9x64.Idx → EReal) (dv : S100000x1.Idx → EReal) : S100000x64.Idx → EReal :=
  fun i => Spec.projK (fun n => dv (ix2 n (0 : Fin 1))) (fun n k => x (ix2 n k)) (fun k c => w (ix2 k c)) (i 0) (i 1)

/-! ## The block product at an index

The product contracts axis 1 of the left block against axis 0 of the right one; the four facts below say which
coordinate of each operand an output index and a contraction index select. -/

theorem lhs_axis0 (i : S4000x64.Idx) (q : dot_S4000x9_S9x64_S4000x64_1_0_0_1_n_n.contr.Idx) :
    (dot_S4000x9_S9x64_S4000x64_1_0_0_1_n_n.lhsIdx i q 0).val = (i 0).val := by
  unfold DotDims.lhsIdx
  rw [dif_neg (show ¬(0 : Fin S4000x9.rank) ∈ dot_S4000x9_S9x64_S4000x64_1_0_0_1_n_n.lhsBatch by decide),
    dif_pos (show (0 : Fin S4000x9.rank) ∈ dot_S4000x9_S9x64_S4000x64_1_0_0_1_n_n.lhsNonContracting by decide)]
  rfl

theorem lhs_axis1 (i : S4000x64.Idx) (q : dot_S4000x9_S9x64_S4000x64_1_0_0_1_n_n.contr.Idx) :
    (dot_S4000x9_S9x64_S4000x64_1_0_0_1_n_n.lhsIdx i q 1).val = (q ⟨0, by decide⟩).val :=
  dot_S4000x9_S9x64_S4000x64_1_0_0_1_n_n.lhsIdx_val_of_single rfl i q

theorem rhs_axis0 (i : S4000x64.Idx) (q : dot_S4000x9_S9x64_S4000x64_1_0_0_1_n_n.contr.Idx) :
    (dot_S4000x9_S9x64_S4000x64_1_0_0_1_n_n.rhsIdx i q 0).val = (q ⟨0, by decide⟩).val :=
  dot_S4000x9_S9x64_S4000x64_1_0_0_1_n_n.rhsIdx_val_of_single rfl i q

theorem rhs_axis1 (i : S4000x64.Idx) (q : dot_S4000x9_S9x64_S4000x64_1_0_0_1_n_n.contr.Idx) :
    (dot_S4000x9_S9x64_S4000x64_1_0_0_1_n_n.rhsIdx i q 1).val = (i 1).val := by
  unfold DotDims.rhsIdx
  rw [dif_neg (show ¬(1 : Fin S9x64.rank) ∈ dot_S4000x9_S9x64_S4000x64_1_0_0_1_n_n.rhsBatch by decide),
    dif_pos (show (1 : Fin S9x64.rank) ∈ dot_S4000x9_S9x64_S4000x64_1_0_0_1_n_n.rhsNonContracting by decide)]
  rfl

/-- The product of a [4000, 9] block and a [9, 64] block into a zero accumulator, at row p and column q: the sum
    over the 9 channels. -/
theorem blockProduct_apply (a : FVec Ideal S4000x9 .bf16) (b : FVec Ideal S9x64 .bf16) (p : Fin 4000) (q : Fin 64) :
    matmul dot_S4000x9_S9x64_S4000x64_1_0_0_1_n_n none a b (constant (F := Ideal) S4000x64 .f32 0x00000000#32) (ix2 p q)
      = ∑ k : Fin 9, a (ix2 p k) * b (ix2 k q) := by
  simp only [matmul]
  rw [Ideal.matmul_constant_zero_apply,
    ← Equiv.sum_comp (contrEquiv1 dot_S4000x9_S9x64_S4000x64_1_0_0_1_n_n 9 rfl rfl).symm]
  refine Finset.sum_congr rfl fun k _ => ?_
  have hk := contrEquiv1_symm_val dot_S4000x9_S9x64_S4000x64_1_0_0_1_n_n 9 rfl rfl k
  have el : dot_S4000x9_S9x64_S4000x64_1_0_0_1_n_n.lhsIdx (ix2 p q)
      ((contrEquiv1 dot_S4000x9_S9x64_S4000x64_1_0_0_1_n_n 9 rfl rfl).symm k) = ix2 p k :=
    funext fun ax => Fin.ext (by
      match ax with
      | ⟨0, _⟩ => exact lhs_axis0 _ _
      | ⟨1, _⟩ => exact (lhs_axis1 _ _).trans hk)
  have er : dot_S4000x9_S9x64_S4000x64_1_0_0_1_n_n.rhsIdx (ix2 p q)
      ((contrEquiv1 dot_S4000x9_S9x64_S4000x64_1_0_0_1_n_n 9 rfl rfl).symm k) = ix2 k q :=
    funext fun ax => Fin.ext (by
      match ax with
      | ⟨0, _⟩ => exact (rhs_axis0 _ _).trans hk
      | ⟨1, _⟩ => exact rhs_axis1 _ _)
  rw [el, er]

/-- A [4000, 1] column broadcast along 64 columns reads, at (p, q), the column's row p. -/
theorem columnBroadcast_apply (v : FVec Ideal S4000x1 .f32) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ =>
    show p.val = if (4000 : Nat) = 1 then 0 else p.val
    rw [if_neg (by decide)]
  | ⟨1, _⟩ => rfl

/-- The stored block at row p, column q: row p of the x block against column q of W, times the weight of row p. -/
theorem payload_apply (x0 : Vec Ideal S4000x9 .f32) (x1 : Vec Ideal S9x64 .f32) (x2 : Vec Ideal S4000x1 .f32)
    (p : Fin 4000) (q : Fin 64) :
    k0_pay1 (F := Ideal) x0 x1 x2 (ix2 p q) = (∑ k : Fin 9, x0 (ix2 p k) * x1 (ix2 k q)) * x2 (ix2 p (0 : Fin 1)) := by
  unfold k0_pay1
  rw [truncf_apply, mulf_apply, blockProduct_apply, columnBroadcast_apply, shapeCast_self]
  rfl

/-! ## From blocks to the array -/

theorem G0_apply (x : S100000x9.Idx → EReal) (w : S9x64.Idx → EReal) (dv : S100000x1.Idx → EReal) (n : Fin 100000) (c : Fin 64) :
    G0 x w dv (ix2 n c) = (∑ k : Fin 9, x (ix2 n k) * w (ix2 k c)) * dv (ix2 n (0 : Fin 1)) := rfl

theorem hz : (![0, 0] : Fin 2 → Nat) = fun _ => 0 := funext fun a => by fin_cases a <;> rfl

/-- The index maps over the 25 grid points: the blocks of x, of the weights and of the output are the
    t-th row blocks of their arrays, and W is one block. -/
theorem idx_facts : ∀ t : Fin cfg0.N, t.val < 25
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every row block is some grid point's. -/
theorem idx_onto : ∀ b : Fin 25, ∃ t : Fin cfg0.N, t.val = b.val :=
  (by decide +kernel : ∀ b : Fin 25, ∃ t : Fin grid0.N, t.val = b.val)

/-- Block t of x holds rows 4000 t … 4000 t + 3999 of x. -/
theorem xBlock_apply (c : Dev nD) (t : Fin cfg0.N) (p : Fin 4000) (k : Fin 9) (n : Fin 100000)
    (hn : n.val = t.val * 4000 + p.val) :
    (iblk0 V c 0 t : Vec Ideal S4000x9 .f32) (ix2 p k) = (V c main_arg0 : S100000x9.Idx → EReal) (ix2 n k) := by
  obtain ⟨-, e0, e1, -⟩ := idx_facts t
  show (V c main_arg0 : S100000x9.Idx → EReal) (((cfg0.win 0).blk t).view.emb (ix2 p k)) = _
  have h : ((cfg0.win 0).blk t).view.emb (ix2 p k) = ix2 n k := by
    funext a; apply Fin.ext
    match a with
    | ⟨0, _⟩ => show win0_0.index t (0 : Fin 2) * 4000 + 1 * p.val = n.val; omega
    | ⟨1, _⟩ => show win0_0.index t (1 : Fin 2) * 9 + 1 * k.val = k.val; omega
  rw [h]

/-- The one block of W is W. -/
theorem wBlock_apply (c : Dev nD) (t : Fin cfg0.N) (k : Fin 9) (q : Fin 64) :
    (iblk0 V c 1 t : Vec Ideal S9x64 .f32) (ix2 k q) = (V c main_arg4 : S9x64.Idx → EReal) (ix2 k q) := by
  obtain ⟨-, -, -, e0, e1, -⟩ := idx_facts t
  show (V c main_arg4 : S9x64.Idx → EReal) (((cfg0.win 1).blk t).view.emb (ix2 k q)) = _
  have h : ((cfg0.win 1).blk t).view.emb (ix2 k q) = ix2 k q := by
    funext a; apply Fin.ext
    match a with
    | ⟨0, _⟩ => show win0_1.index t (0 : Fin 2) * 9 + 1 * k.val = k.val; omega
    | ⟨1, _⟩ => show win0_1.index t (1 : Fin 2) * 64 + 1 * q.val = q.val; omega
  rw [h]

/-- Block t of the weights holds the weights of rows 4000 t … 4000 t + 3999. -/
theorem dBlock_apply (c : Dev nD) (t : Fin cfg0.N) (p : Fin 4000) (n : Fin 100000)
    (hn : n.val = t.val * 4000 + p.val) :
    (iblk0 V c 2 t : Vec Ideal S4000x1 .f32) (ix2 p (0 : Fin 1)) = (V c main_v16 : S100000x1.Idx → EReal) (ix2 n (0 : Fin 1)) := by
  obtain ⟨-, -, -, -, -, e0, e1, -⟩ := idx_facts t
  show (V c main_v16 : S100000x1.Idx → EReal) (((cfg0.win 2).blk t).view.emb (ix2 p (0 : Fin 1))) = _
  have h : ((cfg0.win 2).blk t).view.emb (ix2 p (0 : Fin 1)) = ix2 n (0 : Fin 1) := by
    funext a; apply Fin.ext
    match a with
    | ⟨0, _⟩ => show win0_2.index t (0 : Fin 2) * 4000 + 1 * p.val = n.val; omega
    | ⟨1, _⟩ => show win0_2.index t (1 : Fin 2) * 1 + 1 * 0 = 0; omega
  rw [h]

/-- What grid point t writes back is block t of `G0` of the three arrays as the call found them. -/
theorem flushed_eq (c : Dev nD) (t : Fin cfg0.N) :
    (dat0 (F := Ideal) V c).flushed 3 t
      = ((cfg0.win 3).blk t).view.read (Elt Ideal) (G0 (V c main_arg0) (V c main_arg4) (V c main_v16)) := by
  show (cfg0.win 3).cut (grid0.coords t) ((dat0 V c).after 3 t) = _
  rw [after0_3]
  unfold out0_3
  rw [View.canon_unit_zero hz]
  simp only [View.ld_unit_zero (S := S4000x9) hz, View.ld_unit_zero (S := S9x64) hz, View.ld_unit_zero (S := S4000x1) hz]
  refine funext fun (j : S4000x64.Idx) => ?_
  obtain ⟨p, q, rfl⟩ : ∃ (p : Fin 4000) (q : Fin 64), j = ix2 p q := ⟨j 0, j 1, eq_ix2 j⟩
  obtain ⟨ht, -, -, -, -, -, -, e0, e1⟩ := idx_facts t
  have hp := p.isLt
  have hn : t.val * 4000 + p.val < 100000 := by omega
  show k0_pay1 (F := Ideal) (iblk0 V c 0 t) (iblk0 V c 1 t) (iblk0 V c 2 t) (ix2 p q)
    = G0 (V c main_arg0) (V c main_arg4) (V c main_v16) (((cfg0.win 3).blk t).view.emb (ix2 p q))
  have hemb : ((cfg0.win 3).blk t).view.emb (ix2 p q) = ix2 (⟨t.val * 4000 + p.val, hn⟩ : Fin 100000) q := by
    funext a; apply Fin.ext
    match a with
    | ⟨0, _⟩ => show win0_3.index t (0 : Fin 2) * 4000 + 1 * p.val = t.val * 4000 + p.val; omega
    | ⟨1, _⟩ => show win0_3.index t (1 : Fin 2) * 64 + 1 * q.val = q.val; omega
  rw [hemb, G0_apply]
  refine (payload_apply (iblk0 V c 0 t) (iblk0 V c 1 t) (iblk0 V c 2 t) p q).trans ?_
  rw [dBlock_apply V c t p ⟨t.val * 4000 + p.val, hn⟩ rfl]
  refine congrArg (· * _) (Finset.sum_congr rfl fun k _ => ?_)
  rw [xBlock_apply V c t p k ⟨t.val * 4000 + p.val, hn⟩ rfl, wBlock_apply V c t k q]

/-- An index of the output array is in point t's block exactly when each coordinate is in the block's range on its axis. -/
theorem mem_blk (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v17).slice (win0_3.rect t)).set ↔ _
  rw [View.set_slice_whole, Rect.mem_set_unit]
  exact Iff.rfl

/-- The 25 row blocks tile the array: row r lies in block r / 4000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 4000, by omega⟩
  have ht' : t.val = (i 0).val / 4000 := ht
  obtain ⟨-, -, -, -, -, -, -, e0, e1⟩ := idx_facts t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 64 ≤ (i 1).val ∧ (i 1).val < win0_3.index t (1 : Fin 2) * 64 + 64
    omega

/-- After the call the output array holds `G0` of the three input arrays as the call found them. -/
theorem value0 (c : Dev nD) :
    (dat0 (F := Ideal) V c).arrAt 3 cfg0.N = G0 (V c main_arg0) (V c main_arg4) (V c main_v16) :=
  (dat0 V c).arrAt_eq_of_cover 3 (G0 (V c main_arg0) (V c main_arg4) (V c main_v16))
    (fun t _ => flushed_eq V c t) covered

end Cert.Gcn.K0

end
-- ==== Proof.KRegion1.lean ====
/-
  A fused layer step, as one function of its four arrays.

  The call walks the 100000 node rows in 25 blocks of 4000.  On a block it scales row r of the summed
  messages by the weight of that row, adds the bias row, clips below at zero, multiplies by the whole of W
  (a sum over the 64 channels) and scales row r by its weight again; changes of float format are the
  identity on exact values.  Block t of the output is block t of ONE array-wide function, and the 25 blocks
  tile the array.
-/
import proofs.«405875_j14018773254871_2_alg».proof.Proof.Gen.KernelIdeal.Frame
import proofs.«405875_j14018773254871_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- The TensorCore's buffer contents when the call is entered: every statement here holds at any such contents.
variable (V : (c : Dev nD) → (b : Ref sig .tc) → Buf (Elt Ideal) ((c : Thread nD τ).loc b))

/-- Row n of (max (A · dinv + b) 0) W, times the weight of row n. -/
def G1 (a : S100000x64.Idx → EReal) (dv : S100000x1.Idx → EReal) (b : S1x64.Idx → EReal) (w : S64x64.Idx → EReal) :
    S100000x64.Idx → EReal :=
  fun i => Spec.projK (fun n => dv (ix2 n (0 : Fin 1)))
    (Spec.actK (fun n => dv (ix2 n (0 : Fin 1))) (fun n k => a (ix2 n k)) (fun k => b (ix2 (0 : Fin 1) k)))
    (fun k c => w (ix2 k c)) (i 0) (i 1)

/-! ## Reading the block operations at an index -/

/-- The zero offsets of a whole-block access. -/
theorem zero_offsets : (![0, 0] : Fin 2 → Nat) = fun _ => 0 := funext fun a => by
  match a with
  | ⟨0, _⟩ => rfl
  | ⟨1, _⟩ => rfl

/-- A column broadcast along the rows reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the output's row … -/
theorem lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … its column the contraction position; -/
theorem lhs_col (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- the right operand's row is the contraction position … -/
theorem rhs_row (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- … and its column the output's column. -/
theorem rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The block product into a zero accumulator, at (p, q): row p of the left block against column q of the right,
    summed over the 64 channels. -/
theorem product_apply (L : FVec Ideal S4000x64 .bf16) (R : FVec Ideal S64x64 .bf16) (p : Fin 4000) (q : Fin 64) :
    FloatOps.matmul dot_S4000x64_S64x64_S4000x64_1_0_0_1_n_n none L R (constant (F := Ideal) S4000x64 .f32 0x00000000#32) (ix2 p q)
      = ∑ k : Fin 64, L (ix2 p k) * R (ix2 k q) := by
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_col _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The body's stored block at (p, q), from the four loaded blocks: the casts and format changes are the identity on
    exact values, the two broadcasts read row p of the node-weight column and the one bias row. -/
theorem payload_apply (xa : Vec Ideal S4000x64 .f32) (xd : Vec Ideal S4000x1 .f32) (xb : Vec Ideal S1x64 .f32)
    (xw : Vec Ideal S64x64 .f32) (p : Fin 4000) (q : Fin 64) :
    k1_pay1 (F := Ideal) xa xd xb xw (ix2 p q)
      = (∑ k : Fin 64, max (xa (ix2 p k) * xd (ix2 p (0 : Fin 1)) + xb (ix2 (0 : Fin 1) k)) 0 * xw (ix2 k q))
          * xd (ix2 p (0 : Fin 1)) := by
  unfold k1_pay1
  simp only [shapeCast_self]
  rw [truncf_apply, mulf_apply]
  simp only [matmul]
  rw [product_apply, broadcastTo_a1_ab_apply]
  refine congrArg (· * xd (ix2 p (0 : Fin 1))) (Finset.sum_congr rfl fun k _ => ?_)
  rw [truncf_apply, truncf_apply, maximumf_apply, addf_apply, mulf_apply, broadcastTo_a1_ab_apply,
    broadcastTo_1b_ab_apply, broadcast_apply]
  show max _ (Ideal.ofBits .f32 0x00000000#32) * _ = _
  rw [Ideal.ofBits_zero_f32]

/-- `G1` at (n, c), written out. -/
theorem G1_apply (a : S100000x64.Idx → EReal) (dv : S100000x1.Idx → EReal) (b : S1x64.Idx → EReal) (w : S64x64.Idx → EReal)
    (n : Fin 100000) (cc : Fin 64) :
    G1 a dv b w (ix2 n cc)
      = (∑ k : Fin 64, max (a (ix2 n k) * dv (ix2 n (0 : Fin 1)) + b (ix2 (0 : Fin 1) k)) 0 * w (ix2 k cc))
          * dv (ix2 n (0 : Fin 1)) := by
  unfold G1 Spec.projK Spec.lin Spec.actK
  rfl

/-- The body's stored block at (p, q) is `G1` at (n, c) once the four blocks read, at the entries the sum uses, what the
    four arrays hold in row n and column c. -/
theorem point_eq (a : S100000x64.Idx → EReal) (dv : S100000x1.Idx → EReal) (b : S1x64.Idx → EReal) (w : S64x64.Idx → EReal)
    (xa : Vec Ideal S4000x64 .f32) (xd : Vec Ideal S4000x1 .f32) (xb : Vec Ideal S1x64 .f32) (xw : Vec Ideal S64x64 .f32)
    (p : Fin 4000) (q : Fin 64) (n : Fin 100000) (cc : Fin 64)
    (ha : ∀ k : Fin 64, xa (ix2 p k) = a (ix2 n k))
    (hd : xd (ix2 p (0 : Fin 1)) = dv (ix2 n (0 : Fin 1)))
    (hb : ∀ k : Fin 64, xb (ix2 (0 : Fin 1) k) = b (ix2 (0 : Fin 1) k))
    (hw : ∀ k : Fin 64, xw (ix2 k q) = w (ix2 k cc)) :
    k1_pay1 (F := Ideal) xa xd xb xw (ix2 p q) = G1 a dv b w (ix2 n cc) := by
  rw [payload_apply, G1_apply, hd]
  refine congrArg (· * dv (ix2 n (0 : Fin 1))) (Finset.sum_congr rfl fun k _ => ?_)
  rw [ha k, hb k, hw k]

/-! ## From blocks to the array -/

/-- The printed index maps over the 25 grid points: the three row-blocked windows are at block row t, column block 0;
    the bias row and the matrix are whole. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 4000 t + p of the array. -/
abbrev rowOf (t : Fin cfg1.N) (p : Fin 4000) : Fin 100000 :=
  ⟨t.val * 4000 + p.val, by have ht : t.val < 25 := t.isLt; have := p.isLt; omega⟩

/-- Where the output block at point t lies in its array. -/
theorem out_coord (t : Fin cfg1.N) (p : Fin 4000) (q : Fin 64) :
    ((cfg1.win 4).blk t).view.emb (ix2 p q) = ix2 (rowOf t p) q := by
  obtain ⟨-, -, -, -, -, -, -, -, erow, ecol⟩ := index_facts t
  funext a; apply Fin.ext
  match a with
  | ⟨0, _⟩ => show win1_4.index t (0 : Fin 2) * 4000 + 1 * p.val = t.val * 4000 + p.val; rw [erow]; omega
  | ⟨1, _⟩ => show win1_4.index t (1 : Fin 2) * 64 + 1 * q.val = q.val; rw [ecol]; omega

/-- Where the summed-messages block at point t lies in its array. -/
theorem a_coord (t : Fin cfg1.N) (p : Fin 4000) (k : Fin 64) :
    ((cfg1.win 0).blk t).view.emb (ix2 p k) = ix2 (rowOf t p) k := by
  obtain ⟨erow, ecol, -⟩ := index_facts t
  funext a; apply Fin.ext
  match a with
  | ⟨0, _⟩ => show win1_0.index t (0 : Fin 2) * 4000 + 1 * p.val = t.val * 4000 + p.val; rw [erow]; omega
  | ⟨1, _⟩ => show win1_0.index t (1 : Fin 2) * 64 + 1 * k.val = k.val; rw [ecol]; omega

/-- Where the block of the node-weight column (one weight per row) at point t lies in its array. -/
theorem d_coord (t : Fin cfg1.N) (p : Fin 4000) :
    ((cfg1.win 1).blk t).view.emb (ix2 p (0 : Fin 1)) = ix2 (rowOf t p) (0 : Fin 1) := by
  obtain ⟨-, -, erow, ecol, -⟩ := index_facts t
  funext a; apply Fin.ext
  match a with
  | ⟨0, _⟩ => show win1_1.index t (0 : Fin 2) * 4000 + 1 * p.val = t.val * 4000 + p.val; rw [erow]; omega
  | ⟨1, _⟩ => show win1_1.index t (1 : Fin 2) * 1 + 1 * 0 = 0; rw [ecol]

/-- The bias row's block is the whole row. -/
theorem b_coord (t : Fin cfg1.N) (k : Fin 64) :
    ((cfg1.win 2).blk t).view.emb (ix2 (0 : Fin 1) k) = ix2 (0 : Fin 1) k := by
  obtain ⟨-, -, -, -, erow, ecol, -⟩ := index_facts t
  funext a; apply Fin.ext
  match a with
  | ⟨0, _⟩ => show win1_2.index t (0 : Fin 2) * 1 + 1 * 0 = 0; rw [erow]
  | ⟨1, _⟩ => show win1_2.index t (1 : Fin 2) * 64 + 1 * k.val = k.val; rw [ecol]; omega

/-- The matrix's block is the whole matrix. -/
theorem w_coord (t : Fin cfg1.N) (k : Fin 64) (q : Fin 64) :
    ((cfg1.win 3).blk t).view.emb (ix2 k q) = ix2 k q := by
  obtain ⟨-, -, -, -, -, -, erow, ecol, -⟩ := index_facts t
  funext a; apply Fin.ext
  match a with
  | ⟨0, _⟩ => show win1_3.index t (0 : Fin 2) * 64 + 1 * k.val = k.val; rw [erow]; omega
  | ⟨1, _⟩ => show win1_3.index t (1 : Fin 2) * 64 + 1 * q.val = q.val; rw [ecol]; omega

/-- What point t writes back is block t of `G1` of the four arrays as the call found them. -/
theorem flushed_eq (c : Dev nD) (t : Fin cfg1.N) :
    (dat1 (F := Ideal) V c).flushed 4 t
      = ((cfg1.win 4).blk t).view.read (Elt Ideal) (G1 (V c main_v28) (V c main_v16) (V c main_v29) (V c main_arg6)) := by
  show (cfg1.win 4).cut (grid1.coords t) ((dat1 (F := Ideal) V c).after 4 t) = _
  rw [after1_4]
  unfold out1_4
  rw [View.canon_unit_zero zero_offsets]
  simp only [View.ld_unit_zero (S := S4000x64) zero_offsets, View.ld_unit_zero (S := S4000x1) zero_offsets,
    View.ld_unit_zero (S := S1x64) zero_offsets, View.ld_unit_zero (S := S64x64) zero_offsets]
  funext j
  obtain ⟨p, q, rfl⟩ : ∃ (p : Fin 4000) (q : Fin 64), j = ix2 p q := ⟨j 0, j 1, eq_ix2 j⟩
  show k1_pay1 (F := Ideal) (iblk1 V c 0 t) (iblk1 V c 1 t) (iblk1 V c 2 t) (iblk1 V c 3 t) (ix2 p q)
    = G1 (V c main_v28) (V c main_v16) (V c main_v29) (V c main_arg6) (((cfg1.win 4).blk t).view.emb (ix2 p q))
  rw [out_coord]
  refine point_eq _ _ _ _ _ _ _ _ p q (rowOf t p) q (fun k => ?_) ?_ (fun k => ?_) (fun k => ?_)
  · show V c main_v28 (((cfg1.win 0).blk t).view.emb (ix2 p k)) = _
    rw [a_coord]
  · show V c main_v16 (((cfg1.win 1).blk t).view.emb (ix2 p (0 : Fin 1))) = _
    rw [d_coord]
  · show V c main_v29 (((cfg1.win 2).blk t).view.emb (ix2 (0 : Fin 1) k)) = _
    rw [b_coord]
  · show V c main_arg6 (((cfg1.win 3).blk t).view.emb (ix2 k q)) = _
    rw [w_coord]

/-- An index of the array is in point t's block iff each coordinate is in the block's range on its axis. -/
theorem mem_blk (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v30).slice (win1_4.rect t)).set ↔ _
  rw [View.set_slice_whole, Rect.mem_set_unit]
  exact Iff.rfl

/-- The 25 blocks tile the array: row r is in the block of point r / 4000. -/
theorem cover (i : S100000x64.Idx) :
    ∃ t : Fin cfg1.N, (cfg1.win 4).flush t = true ∧ i ∈ ((cfg1.win 4).blk t).view.set := by
  have hrow : (i 0).val < 100000 := (i 0).isLt
  have hcol : (i 1).val < 64 := (i 1).isLt
  have hlt : (i 0).val / 4000 < 25 := by omega
  obtain ⟨-, -, -, -, -, -, -, -, erow, ecol⟩ := index_facts ⟨(i 0).val / 4000, hlt⟩
  have erow' : win1_4.index ⟨(i 0).val / 4000, hlt⟩ (0 : Fin 2) = (i 0).val / 4000 := erow
  refine ⟨⟨(i 0).val / 4000, hlt⟩, flush1_4 _, ?_⟩
  rw [mem_blk]
  intro a
  match a with
  | ⟨0, _⟩ =>
    show win1_4.index ⟨(i 0).val / 4000, hlt⟩ (0 : Fin 2) * 4000 ≤ (i 0).val
      ∧ (i 0).val < win1_4.index ⟨(i 0).val / 4000, hlt⟩ (0 : Fin 2) * 4000 + 4000
    rw [erow']; omega
  | ⟨1, _⟩ =>
    show win1_4.index ⟨(i 0).val / 4000, hlt⟩ (1 : Fin 2) * 64 ≤ (i 1).val
      ∧ (i 1).val < win1_4.index ⟨(i 0).val / 4000, hlt⟩ (1 : Fin 2) * 64 + 64
    rw [ecol]; omega

/-- After the call the output array holds `G1` of the four input arrays as the call found them. -/
theorem value1 (c : Dev nD) :
    (dat1 (F := Ideal) V c).arrAt 4 cfg1.N = G1 (V c main_v28) (V c main_v16) (V c main_v29) (V c main_arg6) := by
  exact (dat1 (F := Ideal) V c).arrAt_eq_of_cover 4 (G1 (V c main_v28) (V c main_v16) (V c main_v29) (V c main_arg6))
    (fun t _ => flushed_eq V c t) cover

end Cert.Gcn.K1

end
-- ==== Proof.KRegion2.lean ====
/-
  A fused layer step, as one function of its four arrays.

  The call walks the 100000 node rows in 25 blocks of 4000.  On a block it scales row r of the summed
  messages by the weight of that row, adds the bias row, clips below at zero, multiplies by the whole of W
  (a sum over the 64 channels) and scales row r by its weight again; changes of float format are the
  identity on exact values.  Block t of the output is block t of ONE array-wide function, and the 25 blocks
  tile the array.
-/
import proofs.«405875_j14018773254871_2_alg».proof.Proof.Gen.KernelIdeal.Frame
import proofs.«405875_j14018773254871_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- The TensorCore's buffer contents when the call is entered: every statement here holds at any such contents.
variable (V : (c : Dev nD) → (b : Ref sig .tc) → Buf (Elt Ideal) ((c : Thread nD τ).loc b))

/-- Row n of (max (A · dinv + b) 0) W, times the weight of row n. -/
def G2 (a : S100000x64.Idx → EReal) (dv : S100000x1.Idx → EReal) (b : S1x64.Idx → EReal) (w : S64x64.Idx → EReal) :
    S100000x64.Idx → EReal :=
  fun i => Spec.projK (fun n => dv (ix2 n (0 : Fin 1)))
    (Spec.actK (fun n => dv (ix2 n (0 : Fin 1))) (fun n k => a (ix2 n k)) (fun k => b (ix2 (0 : Fin 1) k)))
    (fun k c => w (ix2 k c)) (i 0) (i 1)

/-! ## Reading the block operations at an index -/

/-- The zero offsets of a whole-block access. -/
theorem zero_offsets : (![0, 0] : Fin 2 → Nat) = fun _ => 0 := funext fun a => by
  match a with
  | ⟨0, _⟩ => rfl
  | ⟨1, _⟩ => rfl

/-- A column broadcast along the rows reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the output's row … -/
theorem lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- … its column the contraction position; -/
theorem lhs_col (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- the right operand's row is the contraction position … -/
theorem rhs_row (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- … and its column the output's column. -/
theorem rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The block product into a zero accumulator, at (p, q): row p of the left block against column q of the right,
    summed over the 64 channels. -/
theorem product_apply (L : FVec Ideal S4000x64 .bf16) (R : FVec Ideal S64x64 .bf16) (p : Fin 4000) (q : Fin 64) :
    FloatOps.matmul dot_S4000x64_S64x64_S4000x64_1_0_0_1_n_n none L R (constant (F := Ideal) S4000x64 .f32 0x00000000#32) (ix2 p q)
      = ∑ k : Fin 64, L (ix2 p k) * R (ix2 k q) := by
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_row _ _
    | ⟨1, _⟩ => exact (lhs_col _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The body's stored block at (p, q), from the four loaded blocks: the casts and format changes are the identity on
    exact values, the two broadcasts read row p of the node-weight column and the one bias row. -/
theorem payload_apply (xa : Vec Ideal S4000x64 .f32) (xd : Vec Ideal S4000x1 .f32) (xb : Vec Ideal S1x64 .f32)
    (xw : Vec Ideal S64x64 .f32) (p : Fin 4000) (q : Fin 64) :
    k2_pay1 (F := Ideal) xa xd xb xw (ix2 p q)
      = (∑ k : Fin 64, max (xa (ix2 p k) * xd (ix2 p (0 : Fin 1)) + xb (ix2 (0 : Fin 1) k)) 0 * xw (ix2 k q))
          * xd (ix2 p (0 : Fin 1)) := by
  unfold k2_pay1
  simp only [shapeCast_self]
  rw [truncf_apply, mulf_apply]
  simp only [matmul]
  rw [product_apply, broadcastTo_a1_ab_apply]
  refine congrArg (· * xd (ix2 p (0 : Fin 1))) (Finset.sum_congr rfl fun k _ => ?_)
  rw [truncf_apply, truncf_apply, maximumf_apply, addf_apply, mulf_apply, broadcastTo_a1_ab_apply,
    broadcastTo_1b_ab_apply, broadcast_apply]
  show max _ (Ideal.ofBits .f32 0x00000000#32) * _ = _
  rw [Ideal.ofBits_zero_f32]

/-- `G2` at (n, c), written out. -/
theorem G2_apply (a : S100000x64.Idx → EReal) (dv : S100000x1.Idx → EReal) (b : S1x64.Idx → EReal) (w : S64x64.Idx → EReal)
    (n : Fin 100000) (cc : Fin 64) :
    G2 a dv b w (ix2 n cc)
      = (∑ k : Fin 64, max (a (ix2 n k) * dv (ix2 n (0 : Fin 1)) + b (ix2 (0 : Fin 1) k)) 0 * w (ix2 k cc))
          * dv (ix2 n (0 : Fin 1)) := by
  unfold G2 Spec.projK Spec.lin Spec.actK
  rfl

/-- The body's stored block at (p, q) is `G2` at (n, c) once the four blocks read, at the entries the sum uses, what the
    four arrays hold in row n and column c. -/
theorem point_eq (a : S100000x64.Idx → EReal) (dv : S100000x1.Idx → EReal) (b : S1x64.Idx → EReal) (w : S64x64.Idx → EReal)
    (xa : Vec Ideal S4000x64 .f32) (xd : Vec Ideal S4000x1 .f32) (xb : Vec Ideal S1x64 .f32) (xw : Vec Ideal S64x64 .f32)
    (p : Fin 4000) (q : Fin 64) (n : Fin 100000) (cc : Fin 64)
    (ha : ∀ k : Fin 64, xa (ix2 p k) = a (ix2 n k))
    (hd : xd (ix2 p (0 : Fin 1)) = dv (ix2 n (0 : Fin 1)))
    (hb : ∀ k : Fin 64, xb (ix2 (0 : Fin 1) k) = b (ix2 (0 : Fin 1) k))
    (hw : ∀ k : Fin 64, xw (ix2 k q) = w (ix2 k cc)) :
    k2_pay1 (F := Ideal) xa xd xb xw (ix2 p q) = G2 a dv b w (ix2 n cc) := by
  rw [payload_apply, G2_apply, hd]
  refine congrArg (· * dv (ix2 n (0 : Fin 1))) (Finset.sum_congr rfl fun k _ => ?_)
  rw [ha k, hb k, hw k]

/-! ## From blocks to the array -/

/-- The printed index maps over the 25 grid points: the three row-blocked windows are at block row t, column block 0;
    the bias row and the matrix are whole. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t is row 4000 t + p of the array. -/
abbrev rowOf (t : Fin cfg2.N) (p : Fin 4000) : Fin 100000 :=
  ⟨t.val * 4000 + p.val, by have ht : t.val < 25 := t.isLt; have := p.isLt; omega⟩

/-- Where the output block at point t lies in its array. -/
theorem out_coord (t : Fin cfg2.N) (p : Fin 4000) (q : Fin 64) :
    ((cfg2.win 4).blk t).view.emb (ix2 p q) = ix2 (rowOf t p) q := by
  obtain ⟨-, -, -, -, -, -, -, -, erow, ecol⟩ := index_facts t
  funext a; apply Fin.ext
  match a with
  | ⟨0, _⟩ => show win2_4.index t (0 : Fin 2) * 4000 + 1 * p.val = t.val * 4000 + p.val; rw [erow]; omega
  | ⟨1, _⟩ => show win2_4.index t (1 : Fin 2) * 64 + 1 * q.val = q.val; rw [ecol]; omega

/-- Where the summed-messages block at point t lies in its array. -/
theorem a_coord (t : Fin cfg2.N) (p : Fin 4000) (k : Fin 64) :
    ((cfg2.win 0).blk t).view.emb (ix2 p k) = ix2 (rowOf t p) k := by
  obtain ⟨erow, ecol, -⟩ := index_facts t
  funext a; apply Fin.ext
  match a with
  | ⟨0, _⟩ => show win2_0.index t (0 : Fin 2) * 4000 + 1 * p.val = t.val * 4000 + p.val; rw [erow]; omega
  | ⟨1, _⟩ => show win2_0.index t (1 : Fin 2) * 64 + 1 * k.val = k.val; rw [ecol]; omega

/-- Where the block of the node-weight column (one weight per row) at point t lies in its array. -/
theorem d_coord (t : Fin cfg2.N) (p : Fin 4000) :
    ((cfg2.win 1).blk t).view.emb (ix2 p (0 : Fin 1)) = ix2 (rowOf t p) (0 : Fin 1) := by
  obtain ⟨-, -, erow, ecol, -⟩ := index_facts t
  funext a; apply Fin.ext
  match a with
  | ⟨0, _⟩ => show win2_1.index t (0 : Fin 2) * 4000 + 1 * p.val = t.val * 4000 + p.val; rw [erow]; omega
  | ⟨1, _⟩ => show win2_1.index t (1 : Fin 2) * 1 + 1 * 0 = 0; rw [ecol]

/-- The bias row's block is the whole row. -/
theorem b_coord (t : Fin cfg2.N) (k : Fin 64) :
    ((cfg2.win 2).blk t).view.emb (ix2 (0 : Fin 1) k) = ix2 (0 : Fin 1) k := by
  obtain ⟨-, -, -, -, erow, ecol, -⟩ := index_facts t
  funext a; apply Fin.ext
  match a with
  | ⟨0, _⟩ => show win2_2.index t (0 : Fin 2) * 1 + 1 * 0 = 0; rw [erow]
  | ⟨1, _⟩ => show win2_2.index t (1 : Fin 2) * 64 + 1 * k.val = k.val; rw [ecol]; omega

/-- The matrix's block is the whole matrix. -/
theorem w_coord (t : Fin cfg2.N) (k : Fin 64) (q : Fin 64) :
    ((cfg2.win 3).blk t).view.emb (ix2 k q) = ix2 k q := by
  obtain ⟨-, -, -, -, -, -, erow, ecol, -⟩ := index_facts t
  funext a; apply Fin.ext
  match a with
  | ⟨0, _⟩ => show win2_3.index t (0 : Fin 2) * 64 + 1 * k.val = k.val; rw [erow]; omega
  | ⟨1, _⟩ => show win2_3.index t (1 : Fin 2) * 64 + 1 * q.val = q.val; rw [ecol]; omega

/-- What point t writes back is block t of `G2` of the four arrays as the call found them. -/
theorem flushed_eq (c : Dev nD) (t : Fin cfg2.N) :
    (dat2 (F := Ideal) V c).flushed 4 t
      = ((cfg2.win 4).blk t).view.read (Elt Ideal) (G2 (V c main_v41) (V c main_v16) (V c main_v42) (V c main_arg8)) := by
  show (cfg2.win 4).cut (grid2.coords t) ((dat2 (F := Ideal) V c).after 4 t) = _
  rw [after2_4]
  unfold out2_4
  rw [View.canon_unit_zero zero_offsets]
  simp only [View.ld_unit_zero (S := S4000x64) zero_offsets, View.ld_unit_zero (S := S4000x1) zero_offsets,
    View.ld_unit_zero (S := S1x64) zero_offsets, View.ld_unit_zero (S := S64x64) zero_offsets]
  funext j
  obtain ⟨p, q, rfl⟩ : ∃ (p : Fin 4000) (q : Fin 64), j = ix2 p q := ⟨j 0, j 1, eq_ix2 j⟩
  show k2_pay1 (F := Ideal) (iblk2 V c 0 t) (iblk2 V c 1 t) (iblk2 V c 2 t) (iblk2 V c 3 t) (ix2 p q)
    = G2 (V c main_v41) (V c main_v16) (V c main_v42) (V c main_arg8) (((cfg2.win 4).blk t).view.emb (ix2 p q))
  rw [out_coord]
  refine point_eq _ _ _ _ _ _ _ _ p q (rowOf t p) q (fun k => ?_) ?_ (fun k => ?_) (fun k => ?_)
  · show V c main_v41 (((cfg2.win 0).blk t).view.emb (ix2 p k)) = _
    rw [a_coord]
  · show V c main_v16 (((cfg2.win 1).blk t).view.emb (ix2 p (0 : Fin 1))) = _
    rw [d_coord]
  · show V c main_v42 (((cfg2.win 2).blk t).view.emb (ix2 (0 : Fin 1) k)) = _
    rw [b_coord]
  · show V c main_arg8 (((cfg2.win 3).blk t).view.emb (ix2 k q)) = _
    rw [w_coord]

/-- An index of the array is in point t's block iff each coordinate is in the block's range on its axis. -/
theorem mem_blk (t : Fin cfg2.N) (i : S100000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v43).slice (win2_4.rect t)).set ↔ _
  rw [View.set_slice_whole, Rect.mem_set_unit]
  exact Iff.rfl

/-- The 25 blocks tile the array: row r is in the block of point r / 4000. -/
theorem cover (i : S100000x64.Idx) :
    ∃ t : Fin cfg2.N, (cfg2.win 4).flush t = true ∧ i ∈ ((cfg2.win 4).blk t).view.set := by
  have hrow : (i 0).val < 100000 := (i 0).isLt
  have hcol : (i 1).val < 64 := (i 1).isLt
  have hlt : (i 0).val / 4000 < 25 := by omega
  obtain ⟨-, -, -, -, -, -, -, -, erow, ecol⟩ := index_facts ⟨(i 0).val / 4000, hlt⟩
  have erow' : win2_4.index ⟨(i 0).val / 4000, hlt⟩ (0 : Fin 2) = (i 0).val / 4000 := erow
  refine ⟨⟨(i 0).val / 4000, hlt⟩, flush2_4 _, ?_⟩
  rw [mem_blk]
  intro a
  match a with
  | ⟨0, _⟩ =>
    show win2_4.index ⟨(i 0).val / 4000, hlt⟩ (0 : Fin 2) * 4000 ≤ (i 0).val
      ∧ (i 0).val < win2_4.index ⟨(i 0).val / 4000, hlt⟩ (0 : Fin 2) * 4000 + 4000
    rw [erow']; omega
  | ⟨1, _⟩ =>
    show win2_4.index ⟨(i 0).val / 4000, hlt⟩ (1 : Fin 2) * 64 ≤ (i 1).val
      ∧ (i 1).val < win2_4.index ⟨(i 0).val / 4000, hlt⟩ (1 : Fin 2) * 64 + 64
    rw [ecol]; omega

/-- After the call the output array holds `G2` of the four input arrays as the call found them. -/
theorem value2 (c : Dev nD) :
    (dat2 (F := Ideal) V c).arrAt 4 cfg2.N = G2 (V c main_v41) (V c main_v16) (V c main_v42) (V c main_arg8) := by
  exact (dat2 (F := Ideal) V c).arrAt_eq_of_cover 4 (G2 (V c main_v41) (V c main_v16) (V c main_v42) (V c main_arg8))
    (fun t _ => flushed_eq V c t) cover

end Cert.Gcn.K2

end
-- ==== Proof.KRegion3Pay.lean ====
/-
  The pooling call's first update, read at one element.

  With the graph words of a block of 800 nodes compared against 0 … 1023, the 0/1 matrix has a one at (r, g)
  exactly when node r's word reads g.  The update adds to entry (g, ch) of what the output held the sum,
  over the block's nodes whose word reads g, of the node's activation (summed message times row weight, plus
  bias, clipped below at zero) in channel ch.
-/
import proofs.«405875_j14018773254871_2_alg».proof.Proof.Gen.KernelIdeal.Skeleton
import proofs.«405875_j14018773254871_2_alg».proof.Proof.Spec
import proofs.«405875_j14018773254871_2_alg».proof.Proof.LibTileSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K3

open Cert.KernelIdeal Cert.KernelIdeal.Gen Cert.Gcn
open Idealize.ShloMosaic Idealize.ShloMosaic.TcCoe Idealize.ShloMosaic.ValueIdx

/-! ## The 0/1 matrix at an entry -/

/-- A 32-bit word is the word of a number below 1024 exactly when it reads, signed, as that number. -/
theorem word_eq_iff (w : BitVec 32) (g : ℕ) (hg : g < 1024) : w = BitVec.ofNat 32 g ↔ w.toInt = (g : ℤ) := by
  have hw := w.isLt
  rw [BitVec.toInt_eq_toNat_cond]
  constructor
  · intro h; subst h; rw [BitVec.toNat_ofNat]; split <;> omega
  · intro h; apply BitVec.eq_of_toNat_eq; rw [BitVec.toNat_ofNat]; split at h <;> omega

/-- The comparison of a word with the word of g, widened and read as a number: one when the word reads g, else zero. -/
theorem indicator_word (w : BitVec 32) (g : ℕ) (hg : g < 1024) :
    FloatOps.sitofp (F := Ideal) .f32 ((IntOp.cmpi .eq w (BitVec.ofNat 32 g)).setWidth 32)
      = if w.toInt = (g : ℤ) then (1 : EReal) else 0 := by
  show ((((IntOp.cmpi .eq w (BitVec.ofNat 32 g)).setWidth 32).toInt : ℝ) : EReal) = _
  by_cases h : w = BitVec.ofNat 32 g
  · rw [if_pos ((word_eq_iff w g hg).mp h)]
    have e : ((IntOp.cmpi .eq w (BitVec.ofNat 32 g)).setWidth 32).toInt = 1 := by
      unfold IntOp.cmpi; rw [h, beq_self_eq_true]; rfl
    rw [e]; norm_num
  · rw [if_neg (fun h' => h ((word_eq_iff w g hg).mpr h'))]
    have e : ((IntOp.cmpi .eq w (BitVec.ofNat 32 g)).setWidth 32).toInt = 0 := by
      unfold IntOp.cmpi; rw [beq_eq_false_iff_ne.mpr h]; rfl
    rw [e]; norm_num

/-- The column of graph words spread over the 1024 columns. -/
theorem words_spread_apply (x : S800x1.Idx → BitVec 32) (h : S800x1.Broadcasts S800x1024) (r : Fin 800) (g : Fin 1024) :
    broadcastTo S800x1024 x h (ix2 r g) = x (ix2 r (0 : Fin 1)) :=
  broadcastTo_apply x h (ix2 r g) (ix2 r (0 : Fin 1)) (fun a => match a with
    | ⟨0, _⟩ => by show r.val = if (800 : Nat) = 1 then 0 else r.val; rw [if_neg (by decide)]
    | ⟨1, _⟩ => by show (0 : Nat) = if (1 : Nat) = 1 then 0 else _; rw [if_pos rfl])

/-- The 0/1 matrix at (r, g): one when node r's word reads g, else zero. -/
theorem onehot_apply (v16 : Vec Ideal S800x1 .i32) (r : Fin 800) (g : Fin 1024) :
    k3_pay3 (F := Ideal) v16 (ix2 r g)
      = if (v16 (ix2 r (0 : Fin 1))).toInt = ((g.val : ℕ) : ℤ) then (1 : EReal) else 0 := by
  unfold k3_pay3
  rw [sitofp_apply, extui_apply]
  show FloatOps.sitofp (F := Ideal) .f32 ((IntOp.cmpi .eq (broadcastTo S800x1024 (shapeCast S800x1 v16 shapeCasts_S800x1_S800x1) broadcasts_S800x1_S800x1024 (ix2 r g)) (iota .tc S800x1024 32 [1] iota_S800x1024_d1_w32 (ix2 r g))).setWidth 32) = _
  rw [words_spread_apply, shapeCast_self, iota_single_apply]
  exact indicator_word _ g.val g.isLt

/-! ## The pooling product at an entry -/

/-- Pooling product, left operand: the row is the summation index. -/
theorem lhs_pool_0 (i : S1024x64.Idx) (q : dot_S800x1024_S800x64_S1024x64_0_0_1_1_n_n.contr.Idx) :
    (dot_S800x1024_S800x64_S1024x64_0_0_1_1_n_n.lhsIdx i q 0).val = (q ⟨0, by decide⟩).val :=
  dot_S800x1024_S800x64_S1024x64_0_0_1_1_n_n.lhsIdx_val_of_single rfl i q
/-- Pooling product, left operand: the column is the output's row. -/
theorem lhs_pool_1 (i : S1024x64.Idx) (q : dot_S800x1024_S800x64_S1024x64_0_0_1_1_n_n.contr.Idx) :
    (dot_S800x1024_S800x64_S1024x64_0_0_1_1_n_n.lhsIdx i q 1).val = (i 0).val := by
  unfold DotDims.lhsIdx
  rw [dif_neg (show ¬(1 : Fin S800x1024.rank) ∈ dot_S800x1024_S800x64_S1024x64_0_0_1_1_n_n.lhsBatch by decide), dif_pos (show (1 : Fin S800x1024.rank) ∈ dot_S800x1024_S800x64_S1024x64_0_0_1_1_n_n.lhsNonContracting by decide)]
  rfl
/-- Pooling product, right operand: the row is the summation index. -/
theorem rhs_pool_0 (i : S1024x64.Idx) (q : dot_S800x1024_S800x64_S1024x64_0_0_1_1_n_n.contr.Idx) :
    (dot_S800x1024_S800x64_S1024x64_0_0_1_1_n_n.rhsIdx i q 0).val = (q ⟨0, by decide⟩).val :=
  dot_S800x1024_S800x64_S1024x64_0_0_1_1_n_n.rhsIdx_val_of_single rfl i q
/-- Pooling product, right operand: the column is the output's column. -/
theorem rhs_pool_1 (i : S1024x64.Idx) (q : dot_S800x1024_S800x64_S1024x64_0_0_1_1_n_n.contr.Idx) :
    (dot_S800x1024_S800x64_S1024x64_0_0_1_1_n_n.rhsIdx i q 1).val = (i 1).val := by
  unfold DotDims.rhsIdx
  rw [dif_neg (show ¬(1 : Fin S800x64.rank) ∈ dot_S800x1024_S800x64_S1024x64_0_0_1_1_n_n.rhsBatch by decide), dif_pos (show (1 : Fin S800x64.rank) ∈ dot_S800x1024_S800x64_S1024x64_0_0_1_1_n_n.rhsNonContracting by decide)]
  rfl

/-- The pooling product into a zero accumulator, read at (g, ch): the sum over the block's 800 nodes. -/
theorem pool_product_apply {φ₁ φ₂ : FTy} (prec : Option ContractPrecision) (a : FVec Ideal S800x1024 φ₁) (b : FVec Ideal S800x64 φ₂)
    (g : Fin 1024) (ch : Fin 64) :
    matmul dot_S800x1024_S800x64_S1024x64_0_0_1_1_n_n prec a b (constant (F := Ideal) S1024x64 .f32 0x00000000#32) (ix2 g ch)
      = ∑ r : Fin 800, a (ix2 r g) * b (ix2 r ch) := by
  show FloatOps.matmul dot_S800x1024_S800x64_S1024x64_0_0_1_1_n_n prec a b (constant (F := Ideal) S1024x64 .f32 0x00000000#32) (ix2 g ch) = _
  rw [Ideal.matmul_constant_zero_apply, ← Equiv.sum_comp (ValueIdx.contrEquiv1 dot_S800x1024_S800x64_S1024x64_0_0_1_1_n_n 800 rfl rfl).symm]
  refine Finset.sum_congr rfl fun r _ => ?_
  have hr := ValueIdx.contrEquiv1_symm_val dot_S800x1024_S800x64_S1024x64_0_0_1_1_n_n 800 rfl rfl r
  have el : dot_S800x1024_S800x64_S1024x64_0_0_1_1_n_n.lhsIdx (ix2 g ch) ((ValueIdx.contrEquiv1 dot_S800x1024_S800x64_S1024x64_0_0_1_1_n_n 800 rfl rfl).symm r) = ix2 r g := funext fun a => Fin.ext (by
    match a with
    | ⟨0, _⟩ => exact (lhs_pool_0 _ _).trans hr
    | ⟨1, _⟩ => exact lhs_pool_1 _ _)
  have er : dot_S800x1024_S800x64_S1024x64_0_0_1_1_n_n.rhsIdx (ix2 g ch) ((ValueIdx.contrEquiv1 dot_S800x1024_S800x64_S1024x64_0_0_1_1_n_n 800 rfl rfl).symm r) = ix2 r ch := funext fun a => Fin.ext (by
    match a with
    | ⟨0, _⟩ => exact (rhs_pool_0 _ _).trans hr
    | ⟨1, _⟩ => exact rhs_pool_1 _ _)
  rw [el, er]

/-! ## The activation at an entry -/

/-- The bias row spread over the 800 rows. -/
theorem bias_spread_apply (x : S1x64.Idx → EReal) (h : S1x64.Broadcasts S800x64) (r : Fin 800) (ch : Fin 64) :
    broadcastTo S800x64 x h (ix2 r ch) = x (ix2 (0 : Fin 1) ch) :=
  broadcastTo_apply x h (ix2 r ch) (ix2 (0 : Fin 1) ch) (fun a => match a with
    | ⟨0, _⟩ => by show (0 : Nat) = if (1 : Nat) = 1 then 0 else _; rw [if_pos rfl]
    | ⟨1, _⟩ => by show ch.val = if (64 : Nat) = 1 then 0 else ch.val; rw [if_neg (by decide)])

/-- The column of row weights spread over the 64 channels. -/
theorem weight_spread_apply (x : S800x1.Idx → EReal) (h : S800x1.Broadcasts S800x64) (r : Fin 800) (ch : Fin 64) :
    broadcastTo S800x64 x h (ix2 r ch) = x (ix2 r (0 : Fin 1)) :=
  broadcastTo_apply x h (ix2 r ch) (ix2 r (0 : Fin 1)) (fun a => match a with
    | ⟨0, _⟩ => by show r.val = if (800 : Nat) = 1 then 0 else r.val; rw [if_neg (by decide)]
    | ⟨1, _⟩ => by show (0 : Nat) = if (1 : Nat) = 1 then 0 else _; rw [if_pos rfl])

/-- The first update at (g, ch): what the output held, plus the activations of the block's nodes of graph g. -/
theorem pay4_apply (v3 : Vec Ideal S800x64 .f32) (v5 : Vec Ideal S800x1 .f32) (v7 : Vec Ideal S1x64 .f32)
    (v16 : Vec Ideal S800x1 .i32) (v23 : Vec Ideal S1024x64 .f32) (g : Fin 1024) (ch : Fin 64) :
    k3_pay4 (F := Ideal) v3 v5 v7 v16 v23 (ix2 g ch)
      = v23 (ix2 g ch) + ∑ r : Fin 800,
          (if (v16 (ix2 r (0 : Fin 1))).toInt = ((g.val : ℕ) : ℤ)
            then max (v3 (ix2 r ch) * v5 (ix2 r (0 : Fin 1)) + v7 (ix2 (0 : Fin 1) ch)) 0 else 0) := by
  unfold k3_pay4
  rw [addf_apply, shapeCast_self]
  refine congrArg (v23 (ix2 g ch) + ·) ?_
  refine (pool_product_apply _ _ _ g ch).trans ?_
  refine Finset.sum_congr rfl fun r _ => ?_
  rw [onehot_apply, Spec.ite_one_zero_mul]
  refine if_congr Iff.rfl ?_ rfl
  rw [maximumf_apply, addf_apply, mulf_apply, broadcast_apply, bias_spread_apply, weight_spread_apply]
  simp only [shapeCast_self]
  exact congrArg (max _) Ideal.ofBits_zero_f32

end Cert.Gcn.K3

end
-- ==== Proof.KRegion3Final.lean ====
/-
  The pooling call's outputs are written back once, after the last point.

  Both output windows have a constant index map: their block is the whole array, kept in place across the
  125 points and written back only after the last.  So each output array ends at what the last point leaves
  in its buffer.
-/
import proofs.«405875_j14018773254871_2_alg».proof.Proof.Gen.KernelIdeal.Frame
import Idealize.ShloMosaic.PureOps.Ideal
import Idealize.ShloMosaic.Lib.Pipeline.Value
import Idealize.ShloMosaic.Lib.ValueIdx

set_option maxRecDepth 16384

noncomputable section

namespace Cert.Gcn.K3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- The TensorCore's buffer contents when the call is entered: every statement here holds at any such contents.
variable (V : (c : Dev nD) → (b : Ref sig .tc) → Buf (Elt Ideal) ((c : Thread nD τ).loc b))

/-- The last of the 125 points. -/
abbrev lastPt : Fin cfg3.N := ⟨124, by have h := N_3; show 124 < grid3.N; omega⟩

/-- The first output's index map is constant: block (0, 0) at every point. -/
theorem idx4 (t : Fin cfg3.N) : win3_4.index t (0 : Fin 2) = 0 ∧ win3_4.index t (1 : Fin 2) = 0 := ⟨rfl, rfl⟩

/-- An index of the first output array is in point t's block iff each coordinate is in the block's range on
    its axis. -/
theorem mem_blk4 (t : Fin cfg3.N) (i : S1024x64.Idx) :
    i ∈ ((cfg3.win 4).blk t).view.set ↔ ∀ a : Fin 2, win3_4.index t a * S1024x64.size a ≤ (i a).val
      ∧ (i a).val < win3_4.index t a * S1024x64.size a + S1024x64.size a := by
  show i ∈ ((View.whole main_v57_0).slice (win3_4.rect t)).set ↔ _
  rw [View.set_slice_whole, Rect.mem_set_unit]
  exact Iff.rfl

/-- The first output array ends at what the last point leaves in its buffer. -/
theorem arr4_of_last (c : Dev nD) (G : S1024x64.Idx → EReal)
    (hlast : ∀ t : Fin cfg3.N, t.val % 125 = 124 → (outsAt3 (F := Ideal) V c t.val t.isLt).1 = G) :
    (dat3 (F := Ideal) V c).arrAt 4 cfg3.N = G := by
  refine (dat3 (F := Ideal) V c).arrAt_eq_of_cover 4 G (fun t hf => ?_) (fun i => ?_)
  · -- what a flushing point writes back is its buffer, and its block is the whole array
    show (cfg3.win 4).cut (grid3.coords t) ((dat3 (F := Ideal) V c).after 4 t) = _
    rw [after3_4, hlast t ((flush3_4 t).mp hf)]
    funext j
    rw [View.read_apply]
    obtain ⟨e0, e1⟩ := idx4 t
    refine congrArg G (funext fun a => Fin.ext ?_)
    match a with
    | ⟨0, _⟩ => show (j 0).val = win3_4.index t (0 : Fin 2) * 1024 + 1 * (j 0).val; omega
    | ⟨1, _⟩ => show (j 1).val = win3_4.index t (1 : Fin 2) * 64 + 1 * (j 1).val; omega
  · -- every index lies in the last point's block
    refine ⟨lastPt, (flush3_4 lastPt).mpr rfl, ?_⟩
    obtain ⟨e0, e1⟩ := idx4 lastPt
    rw [mem_blk4]
    intro a
    match a with
    | ⟨0, _⟩ =>
      show win3_4.index lastPt (0 : Fin 2) * 1024 ≤ (i 0).val ∧ (i 0).val < win3_4.index lastPt (0 : Fin 2) * 1024 + 1024
      have hi : (i 0).val < 1024 := (i 0).isLt
      omega
    | ⟨1, _⟩ =>
      show win3_4.index lastPt (1 : Fin 2) * 64 ≤ (i 1).val ∧ (i 1).val < win3_4.index lastPt (1 : Fin 2) * 64 + 64
      have hi : (i 1).val < 64 := (i 1).isLt
      omega

/-- The second output's index map is constant: block (0, 0) at every point. -/
theorem idx5 (t : Fin cfg3.N) : win3_5.index t (0 : Fin 2) = 0 ∧ win3_5.index t (1 : Fin 2) = 0 := ⟨rfl, rfl⟩

/-- An index of the second output array is in point t's block iff each coordinate is in the block's range on
    its axis. -/
theorem mem_blk5 (t : Fin cfg3.N) (i : S1x1024.Idx) :
    i ∈ ((cfg3.win 5).blk t).view.set ↔ ∀ a : Fin 2, win3_5.index t a * S1x1024.size a ≤ (i a).val
      ∧ (i a).val < win3_5.index t a * S1x1024.size a + S1x1024.size a := by
  show i ∈ ((View.whole main_v57_1).slice (win3_5.rect t)).set ↔ _
  rw [View.set_slice_whole, Rect.mem_set_unit]
  exact Iff.rfl

/-- The second output array ends at what the last point leaves in its buffer. -/
theorem arr5_of_last (c : Dev nD) (G : S1x1024.Idx → EReal)
    (hlast : ∀ t : Fin cfg3.N, t.val % 125 = 124 → (outsAt3 (F := Ideal) V c t.val t.isLt).2 = G) :
    (dat3 (F := Ideal) V c).arrAt 5 cfg3.N = G := by
  refine (dat3 (F := Ideal) V c).arrAt_eq_of_cover 5 G (fun t hf => ?_) (fun i => ?_)
  · -- what a flushing point writes back is its buffer, and its block is the whole array
    show (cfg3.win 5).cut (grid3.coords t) ((dat3 (F := Ideal) V c).after 5 t) = _
    rw [after3_5, hlast t ((flush3_5 t).mp hf)]
    funext j
    rw [View.read_apply]
    obtain ⟨e0, e1⟩ := idx5 t
    refine congrArg G (funext fun a => Fin.ext ?_)
    match a with
    | ⟨0, _⟩ => show (j 0).val = win3_5.index t (0 : Fin 2) * 1 + 1 * (j 0).val; omega
    | ⟨1, _⟩ => show (j 1).val = win3_5.index t (1 : Fin 2) * 1024 + 1 * (j 1).val; omega
  · -- every index lies in the last point's block
    refine ⟨lastPt, (flush3_5 lastPt).mpr rfl, ?_⟩
    obtain ⟨e0, e1⟩ := idx5 lastPt
    rw [mem_blk5]
    intro a
    match a with
    | ⟨0, _⟩ =>
      show win3_5.index lastPt (0 : Fin 2) * 1 ≤ (i 0).val ∧ (i 0).val < win3_5.index lastPt (0 : Fin 2) * 1 + 1
      have hi : (i 0).val < 1 := (i 0).isLt
      omega
    | ⟨1, _⟩ =>
      show win3_5.index lastPt (1 : Fin 2) * 1024 ≤ (i 1).val ∧ (i 1).val < win3_5.index lastPt (1 : Fin 2) * 1024 + 1024
      have hi : (i 1).val < 1024 := (i 1).isLt
      omega

end Cert.Gcn.K3

end
-- ==== Proof.KRegion3.lean ====
/-
  The pooling call, as two functions of its four arrays.

  The call walks the 100000 node rows in 125 blocks of 800, both outputs staying in place across the walk.
  At the first block it zeroes both outputs.  On every block it forms the activations (summed messages
  scaled by the row weight, plus bias, clipped below at zero), compares each node's graph word with
  0 … 1023 to get a 0/1 matrix, and adds to the first output that matrix transposed times the activations
  and to the second the matrix's column sums.  After the last block the first output holds, per graph, the
  sum of the activations of the nodes whose word reads that graph, and the second the number of such
  nodes: sums over all 100000 nodes taken 800 at a time.
-/
import proofs.«405875_j14018773254871_2_alg».proof.Proof.Gen.KernelIdeal.Frame
import proofs.«405875_j14018773254871_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405875_j14018773254871_2_alg».proof.Proof.LibTileSums
import proofs.«405875_j14018773254871_2_alg».proof.Proof.KRegion3Pay
import proofs.«405875_j14018773254871_2_alg».proof.Proof.KRegion3Final
set_option maxRecDepth 16384

noncomputable section

namespace Cert.Gcn.K3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- The TensorCore's buffer contents when the call is entered: every statement here holds at any such contents.
variable (V : (c : Dev nD) → (b : Ref sig .tc) → Buf (Elt Ideal) ((c : Thread nD τ).loc b))

/-- The graph words as a function of the node. -/
abbrev words (bt : S100000x1.Idx → BitVec 32) : Fin 100000 → BitVec 32 := fun n => bt (ix2 n (0 : Fin 1))

/-- Per graph and channel, the summed activations. -/
def G3s (a : S100000x64.Idx → EReal) (dv : S100000x1.Idx → EReal) (b : S1x64.Idx → EReal) (bt : S100000x1.Idx → BitVec 32) :
    S1024x64.Idx → EReal :=
  fun i => Spec.sums (words bt)
    (Spec.actK (fun n => dv (ix2 n (0 : Fin 1))) (fun n k => a (ix2 n k)) (fun k => b (ix2 (0 : Fin 1) k))) (i 0) (i 1)

/-- Per graph, the number of its nodes, as a sum of ones. -/
def G3c (bt : S100000x1.Idx → BitVec 32) : S1x1024.Idx → EReal :=
  fun i => Spec.cnt (words bt) 1 (i 1)

namespace Sums

/-! ## What one block leaves in the first output -/

section Pieces
variable {F : FTy → Type} [FloatOps F]

theorem hz : (![0, 0] : Fin 2 → Nat) = fun _ => 0 := funext fun a => by fin_cases a <;> rfl

/-- On a later block the first output becomes the update of what it held. -/
theorem piece_B_4 (c : Dev nD) (i : grid3.Coords) (arg1 : Memref sig .tc .vmem S800x64 .f32) (harg1 : arg1.IsWhole) (arg2 : Memref sig .tc .vmem S800x1 .f32) (harg2 : arg2.IsWhole) (arg3 : Memref sig .tc .vmem S1x64 .f32) (harg3 : arg3.IsWhole) (arg4 : Memref sig .tc .vmem S800x1 .i32) (harg4 : arg4.IsWhole) (arg5 : Memref sig .tc .vmem S1024x64 .f32) (harg5 : arg5.IsWhole) (arg6 : Memref sig .tc .vmem S1x1024 .f32) (harg6 : arg6.IsWhole) (hc0 : ¬cond3_0 i)
    (x0 : Vec F S800x64 .f32) (x1 : Vec F S800x1 .f32) (x2 : Vec F S1x64 .f32) (x3 : Vec F S800x1 .i32) (p4 : Vec F S1024x64 .f32) (p5 : Vec F S1x1024 .f32) :
    out3_B_4 c i arg1 harg1 arg2 harg2 arg3 harg3 arg4 harg4 arg5 harg5 arg6 harg6 hc0 x0 x1 x2 x3 p4 p5 = k3_pay4 x0 x1 x2 x3 p4 := by
  unfold out3_B_4
  rw [View.read_writes_eq_canon _ _ _ (cover3_B_4 c i arg1 harg1 arg2 harg2 arg3 harg3 arg4 harg4 arg5 harg5 arg6 harg6 hc0 x0 x1 x2 x3 p4 p5)]
  unfold kernelRun3_B
  dsimp only
  sl_unfold_words
  rw [View.canon_unit_zero hz]
  simp only [View.readAt_eq_ld, harg1.read_unread, harg2.read_unread, harg3.read_unread, harg4.read_unread, harg5.read_unread,
    View.ld_unit_zero (S := S800x64) hz, View.ld_unit_zero (S := S800x1) hz, View.ld_unit_zero (S := S1x64) hz,
    View.ld_unit_zero (S := S1024x64) hz]

/-- On the first block the first output becomes the update of the zero array. -/
theorem piece_A_4 (c : Dev nD) (i : grid3.Coords) (arg1 : Memref sig .tc .vmem S800x64 .f32) (harg1 : arg1.IsWhole) (arg2 : Memref sig .tc .vmem S800x1 .f32) (harg2 : arg2.IsWhole) (arg3 : Memref sig .tc .vmem S1x64 .f32) (harg3 : arg3.IsWhole) (arg4 : Memref sig .tc .vmem S800x1 .i32) (harg4 : arg4.IsWhole) (arg5 : Memref sig .tc .vmem S1024x64 .f32) (harg5 : arg5.IsWhole) (arg6 : Memref sig .tc .vmem S1x1024 .f32) (harg6 : arg6.IsWhole) (hc0 : cond3_0 i)
    (x0 : Vec F S800x64 .f32) (x1 : Vec F S800x1 .f32) (x2 : Vec F S1x64 .f32) (x3 : Vec F S800x1 .i32) :
    out3_A_4 c i arg1 harg1 arg2 harg2 arg3 harg3 arg4 harg4 arg5 harg5 arg6 harg6 hc0 x0 x1 x2 x3 = k3_pay4 x0 x1 x2 x3 (k3_pay1 (F := F)) := by
  unfold out3_A_4
  rw [View.read_writes_eq_canon _ _ _ (cover3_A_4 c i arg1 harg1 arg2 harg2 arg3 harg3 arg4 harg4 arg5 harg5 arg6 harg6 hc0 x0 x1 x2 x3)]
  unfold kernelRun3_A
  dsimp only
  sl_unfold_words
  rw [View.canon_cons_unit_zero (S := S1024x64) hz]
  simp only [View.readAt_eq_ld, harg1.read_unread, harg2.read_unread, harg3.read_unread, harg4.read_unread,
    View.readCov_unit_zero (S := S1024x64) _ hz,
    View.ld_unit_zero (S := S800x64) hz, View.ld_unit_zero (S := S800x1) hz, View.ld_unit_zero (S := S1x64) hz,
    View.ld_unit_zero (S := S1024x64) hz]

end Pieces

/-! ## The zero array -/

/-- The zero array reads 0 everywhere. -/
theorem pay1_apply (j : S1024x64.Idx) : k3_pay1 (F := Ideal) j = 0 := by
  show Ideal.ofBits .f32 0x00000000#32 = 0
  exact Ideal.ofBits_zero_f32

/-! ## The four arrays and their blocks -/

section Blocks

/-- The four arrays the call reads, as it finds them. -/
abbrev aArr (c : Dev nD) : Vec Ideal S100000x64 .f32 := V c main_v54
abbrev dArr (c : Dev nD) : Vec Ideal S100000x1 .f32 := V c main_v16
abbrev bArr (c : Dev nD) : Vec Ideal S1x64 .f32 := V c main_v55
abbrev wArr (c : Dev nD) : Vec Ideal S100000x1 .i32 := V c main_v56

/-- Their blocks at a grid point. -/
abbrev aBlk (c : Dev nD) (t : Fin cfg3.N) : Vec Ideal S800x64 .f32 := iblk3 V c 0 t
abbrev dBlk (c : Dev nD) (t : Fin cfg3.N) : Vec Ideal S800x1 .f32 := iblk3 V c 1 t
abbrev bBlk (c : Dev nD) (t : Fin cfg3.N) : Vec Ideal S1x64 .f32 := iblk3 V c 2 t
abbrev wBlk (c : Dev nD) (t : Fin cfg3.N) : Vec Ideal S800x1 .i32 := iblk3 V c 3 t

/-- Row `r` of block `t` is node `800 t + r`. -/
abbrev node (t : Fin cfg3.N) (r : Fin 800) : Fin 100000 :=
  ⟨t.val * 800 + r.val, by have := lt_of_lt_of_eq t.isLt (show cfg3.N = 125 from N_3); have := r.isLt; omega⟩

/-- The block index of each window at each grid point: the three row-blocked inputs move with the point, the bias and
    the first output stay at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 :=
  (by decide +kernel : ∀ t : Fin grid3.N, _)

theorem aBlk_apply (c : Dev nD) (t : Fin cfg3.N) (r : Fin 800) (ch : Fin 64) :
    aBlk V c t (ix2 r ch) = aArr V c (ix2 (node t r) ch) := by
  obtain ⟨e0, e1, -⟩ := idx_facts t
  show ((cfg3.win 0).blk t).view.read (Elt Ideal) (V c (Pipeline.arrRef spec3 0)) (ix2 r ch) = aArr V c (ix2 (node t r) ch)
  rw [View.read_apply]
  show aArr V c (((cfg3.win 0).blk t).view.emb (ix2 r ch)) = aArr V c (ix2 (node t r) ch)
  refine congrArg (aArr V c) (funext fun a => Fin.ext ?_)
  match a with
  | ⟨0, _⟩ => show win3_0.index t (0 : Fin 2) * 800 + 1 * r.val = t.val * 800 + r.val; rw [e0]; omega
  | ⟨1, _⟩ => show win3_0.index t (1 : Fin 2) * 64 + 1 * ch.val = ch.val; rw [e1]; omega

theorem dBlk_apply (c : Dev nD) (t : Fin cfg3.N) (r : Fin 800) :
    dBlk V c t (ix2 r (0 : Fin 1)) = dArr V c (ix2 (node t r) (0 : Fin 1)) := by
  obtain ⟨-, -, e0, e1, -⟩ := idx_facts t
  show ((cfg3.win 1).blk t).view.read (Elt Ideal) (V c (Pipeline.arrRef spec3 1)) (ix2 r (0 : Fin 1)) = dArr V c (ix2 (node t r) (0 : Fin 1))
  rw [View.read_apply]
  show dArr V c (((cfg3.win 1).blk t).view.emb (ix2 r (0 : Fin 1))) = dArr V c (ix2 (node t r) (0 : Fin 1))
  refine congrArg (dArr V c) (funext fun a => Fin.ext ?_)
  match a with
  | ⟨0, _⟩ => show win3_1.index t (0 : Fin 2) * 800 + 1 * r.val = t.val * 800 + r.val; rw [e0]; omega
  | ⟨1, _⟩ => show win3_1.index t (1 : Fin 2) * 1 + 1 * 0 = 0; rw [e1]

theorem bBlk_apply (c : Dev nD) (t : Fin cfg3.N) (ch : Fin 64) :
    bBlk V c t (ix2 (0 : Fin 1) ch) = bArr V c (ix2 (0 : Fin 1) ch) := by
  obtain ⟨-, -, -, -, e0, e1, -⟩ := idx_facts t
  show ((cfg3.win 2).blk t).view.read (Elt Ideal) (V c (Pipeline.arrRef spec3 2)) (ix2 (0 : Fin 1) ch) = bArr V c (ix2 (0 : Fin 1) ch)
  rw [View.read_apply]
  show bArr V c (((cfg3.win 2).blk t).view.emb (ix2 (0 : Fin 1) ch)) = bArr V c (ix2 (0 : Fin 1) ch)
  refine congrArg (bArr V c) (funext fun a => Fin.ext ?_)
  match a with
  | ⟨0, _⟩ => show win3_2.index t (0 : Fin 2) * 1 + 1 * 0 = 0; rw [e0]
  | ⟨1, _⟩ => show win3_2.index t (1 : Fin 2) * 64 + 1 * ch.val = ch.val; rw [e1]; omega

theorem wBlk_apply (c : Dev nD) (t : Fin cfg3.N) (r : Fin 800) :
    wBlk V c t (ix2 r (0 : Fin 1)) = wArr V c (ix2 (node t r) (0 : Fin 1)) := by
  obtain ⟨-, -, -, -, -, -, e0, e1, -⟩ := idx_facts t
  show ((cfg3.win 3).blk t).view.read (Elt Ideal) (V c (Pipeline.arrRef spec3 3)) (ix2 r (0 : Fin 1)) = wArr V c (ix2 (node t r) (0 : Fin 1))
  rw [View.read_apply]
  show wArr V c (((cfg3.win 3).blk t).view.emb (ix2 r (0 : Fin 1))) = wArr V c (ix2 (node t r) (0 : Fin 1))
  refine congrArg (wArr V c) (funext fun a => Fin.ext ?_)
  match a with
  | ⟨0, _⟩ => show win3_3.index t (0 : Fin 2) * 800 + 1 * r.val = t.val * 800 + r.val; rw [e0]; omega
  | ⟨1, _⟩ => show win3_3.index t (1 : Fin 2) * 1 + 1 * 0 = 0; rw [e1]

end Blocks

/-! ## One block's contribution, and the running sum -/

section Steps

-- what the outputs hold after a point is used through its two case equations only
attribute [local irreducible] outsAt3

/-- What block `t` adds at `(g, ch)`: the activations of its rows whose word reads `g`. -/
def blockSum (c : Dev nD) (g : Fin 1024) (ch : Fin 64) (t : Fin cfg3.N) : EReal :=
  ∑ r : Fin 800, if (wArr V c (ix2 (node t r) (0 : Fin 1))).toInt = ((g.val : ℕ) : ℤ)
    then max (aArr V c (ix2 (node t r) ch) * dArr V c (ix2 (node t r) (0 : Fin 1)) + bArr V c (ix2 (0 : Fin 1) ch)) 0 else 0

/-- The update over the blocks of point `t`, whatever the output held, read at `(g, ch)`. -/
theorem pay4_blocks (c : Dev nD) (t : Fin cfg3.N) (p : Vec Ideal S1024x64 .f32) (g : Fin 1024) (ch : Fin 64) :
    k3_pay4 (F := Ideal) (aBlk V c t) (dBlk V c t) (bBlk V c t) (wBlk V c t) p (ix2 g ch) = p (ix2 g ch) + blockSum V c g ch t := by
  refine (pay4_apply (aBlk V c t) (dBlk V c t) (bBlk V c t) (wBlk V c t) p g ch).trans ?_
  refine congrArg (p (ix2 g ch) + ·) (Finset.sum_congr rfl fun r _ => ?_)
  rw [aBlk_apply, dBlk_apply, bBlk_apply, wBlk_apply]

/-- The contents after a point depend on the point's number only. -/
theorem outs_congr (c : Dev nD) {u v : ℕ} (e : u = v) (hu : u < cfg3.N) (hv : v < cfg3.N) :
    outsAt3 V c u hu = outsAt3 V c v hv := by
  subst e; rfl

/-- At the first point the first output ends holding the first block's contribution. -/
theorem step_A (c : Dev nD) (t : Fin cfg3.N) (h0 : t.val % 125 = 0) (g : Fin 1024) (ch : Fin 64) :
    (outsAt3 V c t.val t.isLt).1 (ix2 g ch) = 0 + blockSum V c g ch t := by
  rw [outsAt3_A V c t h0]
  dsimp only
  refine (congrFun (piece_A_4 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0)
    (aBlk V c t) (dBlk V c t) (bBlk V c t) (wBlk V c t)) (ix2 g ch)).trans ?_
  refine (pay4_blocks V c t (k3_pay1 (F := Ideal)) g ch).trans ?_
  rw [pay1_apply]

/-- At every later point it adds that point's block to what the point before left. -/
theorem step_B (c : Dev nD) (t : Fin cfg3.N) (h0 : ¬t.val % 125 = 0) (n : ℕ) (hn : n < cfg3.N) (e : t.val - 1 = n)
    (g : Fin 1024) (ch : Fin 64) :
    (outsAt3 V c t.val t.isLt).1 (ix2 g ch) = (outsAt3 V c n hn).1 (ix2 g ch) + blockSum V c g ch t := by
  subst e
  rw [outsAt3_B V c t h0]
  dsimp only
  refine (congrFun (piece_B_4 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h))
    (aBlk V c t) (dBlk V c t) (bBlk V c t) (wBlk V c t)
    (outsAt3 V c (t.val - 1) (Nat.lt_of_le_of_lt (Nat.sub_le _ _) t.isLt)).1
    (outsAt3 V c (t.val - 1) (Nat.lt_of_le_of_lt (Nat.sub_le _ _) t.isLt)).2) (ix2 g ch)).trans ?_
  exact pay4_blocks V c t _ g ch

end Steps

/-! ## All 125 blocks -/

section Sum

attribute [local irreducible] outsAt3

/-- Point `k`'s contribution as a function of every natural number: 0 past the grid. -/
def addend (c : Dev nD) (g : Fin 1024) (ch : Fin 64) (k : ℕ) : EReal :=
  if hk : k < cfg3.N then blockSum V c g ch ⟨k, hk⟩ else 0

theorem addend_of_lt (c : Dev nD) (g : Fin 1024) (ch : Fin 64) (k : ℕ) (hk : k < cfg3.N) :
    addend V c g ch k = blockSum V c g ch ⟨k, hk⟩ := dif_pos hk

/-- After point `n` the first output holds the contributions of points 0 … n. -/
theorem run_sum (c : Dev nD) (g : Fin 1024) (ch : Fin 64) : ∀ (n : ℕ) (hn : n < cfg3.N),
    (outsAt3 V c n hn).1 (ix2 g ch) = ∑ k ∈ Finset.range (n + 1), addend V c g ch k
  | 0, hn => by
    rw [Finset.sum_range_one, addend_of_lt V c g ch 0 hn]
    exact (step_A V c ⟨0, hn⟩ rfl g ch).trans (zero_add _)
  | n + 1, hn => by
    have hN : cfg3.N = 125 := N_3
    rw [Finset.sum_range_succ, ← run_sum c g ch n (Nat.lt_of_succ_lt hn), addend_of_lt V c g ch (n + 1) hn]
    exact step_B V c ⟨n + 1, hn⟩ (by show ¬(n + 1) % 125 = 0; omega) n (Nat.lt_of_succ_lt hn) (by show n + 1 - 1 = n; omega) g ch

/-- After the last point: the sum over all 100000 nodes. -/
theorem last_eq (c : Dev nD) (t : Fin cfg3.N) (h124 : t.val = 124) (j : S1024x64.Idx) :
    (outsAt3 V c t.val t.isLt).1 j = G3s (V c main_v54) (V c main_v16) (V c main_v55) (V c main_v56) j := by
  have hN : cfg3.N = 125 := N_3
  have hl : 124 < cfg3.N := by omega
  obtain ⟨g, ch, rfl⟩ : ∃ (g : Fin 1024) (ch : Fin 64), j = ix2 g ch := ⟨j 0, j 1, eq_ix2 j⟩
  rw [outs_congr V c h124 t.isLt hl, run_sum V c g ch 124 hl, Finset.sum_range]
  unfold G3s Spec.sums
  rw [zero_add, Spec.sum_tiles800]
  refine Finset.sum_congr rfl fun k _ => ?_
  rw [addend_of_lt V c g ch k.val (by have := k.isLt; omega)]
  unfold blockSum
  refine Finset.sum_congr rfl fun r _ => ?_
  rfl

end Sum

end Sums

open Sums
/-- After the call the first output array holds `G3s` of the four input arrays as the call found them. -/
theorem value3s (c : Dev nD) :
    (dat3 (F := Ideal) V c).arrAt 4 cfg3.N = G3s (V c main_v54) (V c main_v16) (V c main_v55) (V c main_v56) := by
  refine arr4_of_last V c _ fun t h => funext fun j => ?_
  have hN : t.val < 125 := lt_of_lt_of_eq t.isLt (show cfg3.N = 125 from N_3)
  exact last_eq V c t (by omega) j

end Cert.Gcn.K3

end
-- ==== Proof.KRegion3c.lean ====
/-
  The pooling call's second output: the number of nodes per graph.

  The call walks the 100000 node rows in 125 blocks of 800, the count row staying in place across the walk.
  At the first block it zeroes the row; on every block it compares each node's graph word with 0 … 1023 to
  get a 0/1 matrix and adds the matrix's column sums to the row.  After the last block entry g holds the
  number of nodes whose word reads g, as a sum of ones over all 100000 nodes taken 800 at a time.
-/
import proofs.«405875_j14018773254871_2_alg».proof.Proof.KRegion3

set_option maxRecDepth 16384

noncomputable section

namespace Cert.Gcn.K3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

-- The TensorCore's buffer contents when the call is entered: every statement here holds at any such contents.
variable (V : (c : Dev nD) → (b : Ref sig .tc) → Buf (Elt Ideal) ((c : Thread nD τ).loc b))

namespace Count

theorem hz : (![0, 0] : Fin 2 → Nat) = fun _ => 0 := funext fun a => by fin_cases a <;> rfl

/-! ## What each case leaves in the count row -/

/-- Away from the first block the row ends at the update of what it held. -/
theorem out_B5 {F : FTy → Type} [FloatOps F] (c : Dev nD) (i : grid3.Coords) (a1 : Memref sig .tc .vmem S800x64 .f32) (h1 : a1.IsWhole) (a2 : Memref sig .tc .vmem S800x1 .f32) (h2 : a2.IsWhole) (a3 : Memref sig .tc .vmem S1x64 .f32) (h3 : a3.IsWhole) (a4 : Memref sig .tc .vmem S800x1 .i32) (h4 : a4.IsWhole) (a5 : Memref sig .tc .vmem S1024x64 .f32) (h5 : a5.IsWhole) (a6 : Memref sig .tc .vmem S1x1024 .f32) (h6 : a6.IsWhole) (hc : ¬cond3_0 i)
    (x0 : Vec F S800x64 .f32) (x1 : Vec F S800x1 .f32) (x2 : Vec F S1x64 .f32) (x3 : Vec F S800x1 .i32)
    (p4 : Vec F S1024x64 .f32) (p5 : Vec F S1x1024 .f32) :
    out3_B_5 c i a1 h1 a2 h2 a3 h3 a4 h4 a5 h5 a6 h6 hc x0 x1 x2 x3 p4 p5 = k3_pay5 x3 p5 := by
  unfold out3_B_5
  rw [View.read_writes_eq_canon _ _ _ (cover3_B_5 c i a1 h1 a2 h2 a3 h3 a4 h4 a5 h5 a6 h6 hc x0 x1 x2 x3 p4 p5)]
  unfold kernelRun3_B
  dsimp only
  sl_unfold_words
  rw [View.canon_unit_zero hz]
  simp only [View.readAt_eq_ld, h4.read_unread, h6.read_unread, View.ld_unit_zero (S := S800x1) hz,
    View.ld_unit_zero (S := S1x1024) hz]

/-- At the first block the row is zeroed, read back, and ends at the update of the zero row. -/
theorem out_A5 {F : FTy → Type} [FloatOps F] (c : Dev nD) (i : grid3.Coords) (a1 : Memref sig .tc .vmem S800x64 .f32) (h1 : a1.IsWhole) (a2 : Memref sig .tc .vmem S800x1 .f32) (h2 : a2.IsWhole) (a3 : Memref sig .tc .vmem S1x64 .f32) (h3 : a3.IsWhole) (a4 : Memref sig .tc .vmem S800x1 .i32) (h4 : a4.IsWhole) (a5 : Memref sig .tc .vmem S1024x64 .f32) (h5 : a5.IsWhole) (a6 : Memref sig .tc .vmem S1x1024 .f32) (h6 : a6.IsWhole) (hc : cond3_0 i)
    (x0 : Vec F S800x64 .f32) (x1 : Vec F S800x1 .f32) (x2 : Vec F S1x64 .f32) (x3 : Vec F S800x1 .i32) :
    out3_A_5 c i a1 h1 a2 h2 a3 h3 a4 h4 a5 h5 a6 h6 hc x0 x1 x2 x3 = k3_pay5 x3 (k3_pay2 (F := F)) := by
  unfold out3_A_5
  rw [View.read_writes_eq_canon _ _ _ (cover3_A_5 c i a1 h1 a2 h2 a3 h3 a4 h4 a5 h5 a6 h6 hc x0 x1 x2 x3)]
  unfold kernelRun3_A
  dsimp only
  sl_unfold_words
  rw [View.canon_cons_unit_zero (S := S1x1024) hz, View.readCov_unit_zero (S := S1x1024) _ hz]
  simp only [View.readAt_eq_ld, h4.read_unread, View.ld_unit_zero (S := S800x1) hz]

/-! ## The update at an entry -/

/-- The comparison's bit, widened and converted, is 1 when the two words are equal and 0 otherwise. -/
theorem indicator_word (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · have e : ((BitVec.ofBool true).setWidth 32).toInt = 1 := by decide
    rw [if_pos h, show (a == b) = true from beq_iff_eq.mpr h, e, Int.cast_one, EReal.coe_one]
  · have e : ((BitVec.ofBool false).setWidth 32).toInt = 0 := by decide
    rw [if_neg h, show (a == b) = false from beq_eq_false_iff_ne.mpr h, e, Int.cast_zero, EReal.coe_zero]

/-- Entry (r, g) of the 0/1 matrix: does node r's word equal the word of g. -/
theorem pay3_apply (v16 : Vec Ideal S800x1 .i32) (r : Fin 800) (g : Fin 1024) :
    k3_pay3 (F := Ideal) v16 (ix2 r g) = if v16 (ix2 r (0 : Fin 1)) = BitVec.ofNat 32 g.val then (1 : EReal) else 0 := by
  have e1 : iota .tc S800x1024 32 [1] Facts₀.iota_S800x1024_d1_w32 (ix2 r g) = BitVec.ofNat 32 g.val :=
    iota_single_apply .tc S800x1024 32 1 _ (ix2 r g)
  have e2 : broadcastTo S800x1024 (shapeCast S800x1 v16 Facts₀.shapeCasts_S800x1_S800x1) Facts₀.broadcasts_S800x1_S800x1024 (ix2 r g)
      = v16 (ix2 r (0 : Fin 1)) := by
    rw [shapeCast_self]
    refine broadcastTo_apply _ _ _ (ix2 r (0 : Fin 1)) fun a => ?_
    match a with
    | ⟨0, _⟩ => rfl
    | ⟨1, _⟩ => rfl
  unfold k3_pay3
  show FloatOps.sitofp (F := Ideal) .f32 ((IntOp.cmpi .eq
      (broadcastTo S800x1024 (shapeCast S800x1 v16 _) _ (ix2 r g)) (iota .tc S800x1024 32 [1] _ (ix2 r g))).setWidth 32) = _
  rw [e1, e2]
  exact indicator_word _ _

/-- The update at entry g: what the row held plus the number of the block's nodes whose word is g's. -/
theorem pay5_apply (v16 : Vec Ideal S800x1 .i32) (v28 : Vec Ideal S1x1024 .f32) (g : Fin 1024) :
    k3_pay5 (F := Ideal) v16 v28 (ix2 (0 : Fin 1) g)
      = v28 (ix2 (0 : Fin 1) g) + ∑ r : Fin 800, if v16 (ix2 r (0 : Fin 1)) = BitVec.ofNat 32 g.val then (1 : EReal) else 0 := by
  unfold k3_pay5
  show (shapeCast S1x1024 v28 _ (ix2 (0 : Fin 1) g) : EReal)
      + shapeCast S1x1024 (multiReduction (F := Ideal) .add [0] S1024 (k3_pay3 v16) 0x00000000#32 _ _ _) _ (ix2 (0 : Fin 1) g) = _
  rw [shapeCast_self]
  refine congrArg (fun z : EReal => v28 (ix2 (0 : Fin 1) g) + z) ?_
  refine (shapeCast_a_1a_apply _ _ (0 : Fin 1) g).trans ?_
  refine (Ideal.multiReduction_add_single _ _ _ _ _ (ix1 g)).trans ?_
  refine Finset.sum_congr rfl fun r _ => ?_
  refine Eq.trans (congrArg (k3_pay3 (F := Ideal) v16) ?_) (pay3_apply v16 r g)
  funext a
  match a with
  | ⟨0, _⟩ => rfl
  | ⟨1, _⟩ => rfl

/-- The zero row at an entry. -/
theorem pay2_apply (j : S1x1024.Idx) : k3_pay2 (F := Ideal) j = 0 := Ideal.ofBits_zero_f32

/-! ## The blocks of the word array -/

/-- The word block's index map: block t starts at row 800 t, column 0. -/
theorem idx3 : ∀ t : Fin cfg3.N, win3_3.index t (0 : Fin 2) = t.val ∧ win3_3.index t (1 : Fin 2) = 0 :=
  (by decide +kernel : ∀ t : Fin grid3.N, _)

/-- A word equals the word of g < 1024 exactly when it reads g as a signed integer. -/
theorem word_eq_iff (w : BitVec 32) (g : Fin 1024) : w = BitVec.ofNat 32 g.val ↔ w.toInt = ((g.val : ℕ) : ℤ) := by
  rw [Cert.LibTileSums.eq_ofNat_iff w (by have := g.isLt; omega)]
  have e := BitVec.toInt_eq_toNat_cond w
  have h1 := w.isLt
  have h2 := g.isLt
  constructor <;> intro h <;> omega

/-! ## The walk over the blocks -/

/-- The number of block k's nodes whose word reads g (nothing past the last block). -/
def tile (bt : S100000x1.Idx → BitVec 32) (g : Fin 1024) (k : ℕ) : EReal :=
  if hk : k < 125 then
    ∑ r : Fin 800, if (words bt ⟨k * 800 + r.val, by have := r.isLt; omega⟩).toInt = ((g.val : ℕ) : ℤ) then (1 : EReal) else 0
  else 0

/-- Row r of block t of the word array is row 800 t + r of the array. -/
theorem wblk_apply (c : Dev nD) (t : Fin cfg3.N) (r : Fin 800) (hr : t.val * 800 + r.val < 100000) :
    (iblk3 V c 3 t : Vec Ideal S800x1 .i32) (ix2 r (0 : Fin 1))
      = V c main_v56 (ix2 (⟨t.val * 800 + r.val, hr⟩ : Fin 100000) (0 : Fin 1)) := by
  obtain ⟨e0, e1⟩ := idx3 t
  unfold iblk3
  rw [View.read_apply]
  show V c main_v56 _ = V c main_v56 _
  congr 1
  funext a
  apply Fin.ext
  match a with
  | ⟨0, _⟩ => show win3_3.index t (0 : Fin 2) * 800 + 1 * r.val = t.val * 800 + r.val; rw [e0]; omega
  | ⟨1, _⟩ => show win3_3.index t (1 : Fin 2) * 1 + 1 * 0 = 0; rw [e1]

/-- The block's count at g, over the array's own rows. -/
theorem tile_eq (c : Dev nD) (t : Fin cfg3.N) (g : Fin 1024) :
    (∑ r : Fin 800, if (iblk3 V c 3 t : Vec Ideal S800x1 .i32) (ix2 r (0 : Fin 1)) = BitVec.ofNat 32 g.val then (1 : EReal) else 0)
      = tile (V c main_v56) g t.val := by
  have hN : t.val < 125 := lt_of_lt_of_eq t.isLt (show cfg3.N = 125 from N_3)
  unfold tile
  rw [dif_pos hN]
  refine Finset.sum_congr rfl fun r _ => ?_
  rw [wblk_apply V c t r (by have := r.isLt; omega)]
  exact if_congr (word_eq_iff _ g) rfl rfl

/-- After block n entry g of the row holds the counts of blocks 0 … n added up in order. -/
theorem outs_inv (c : Dev nD) (g : Fin 1024) : ∀ (n : ℕ) (hn : n < cfg3.N),
    (outsAt3 (F := Ideal) V c n hn).2 (ix2 (0 : Fin 1) g) = Cert.LibTileSums.accum (tile (V c main_v56) g) n
  | 0, hn => by
    rw [outsAt3_A V c ⟨0, hn⟩ rfl]
    dsimp only
    refine (congrFun (out_A5 (F := Ideal) c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr rfl) (iblk3 V c 0 ⟨0, hn⟩) (iblk3 V c 1 ⟨0, hn⟩) (iblk3 V c 2 ⟨0, hn⟩) (iblk3 V c 3 ⟨0, hn⟩)) (ix2 (0 : Fin 1) g)).trans ?_
    refine (pay5_apply (iblk3 V c 3 ⟨0, hn⟩) (k3_pay2 (F := Ideal)) g).trans ?_
    rw [pay2_apply, tile_eq V c ⟨0, hn⟩ g]
    rfl
  | n + 1, hn => by
    have hN : cfg3.N = 125 := N_3
    have hB : ¬(⟨n + 1, hn⟩ : Fin cfg3.N).val % 125 = 0 := by dsimp only; omega
    rw [outsAt3_B V c ⟨n + 1, hn⟩ hB]
    dsimp only
    refine (congrFun (out_B5 (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => hB ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 V c n (Nat.lt_of_succ_lt hn)).1 (outsAt3 V c n (Nat.lt_of_succ_lt hn)).2) (ix2 (0 : Fin 1) g)).trans ?_
    refine (pay5_apply (iblk3 V c 3 ⟨n + 1, hn⟩) (outsAt3 V c n (Nat.lt_of_succ_lt hn)).2 g).trans ?_
    rw [outs_inv c g n, tile_eq V c ⟨n + 1, hn⟩ g]
    rfl

/-- The last block is block 124. -/
theorem h124 : 124 < cfg3.N := lt_of_lt_of_eq (by decide) (show cfg3.N = 125 from N_3).symm

/-- After the last block the row holds the count of every graph. -/
theorem result_eq (c : Dev nD) (t : Fin cfg3.N) (ht : t.val = 124) :
    (outsAt3 (F := Ideal) V c t.val t.isLt).2 = G3c (V c main_v56) := by
  funext j
  obtain ⟨p, q, rfl⟩ : ∃ (p : Fin 1) (q : Fin 1024), j = ix2 p q := ⟨j 0, j 1, eq_ix2 j⟩
  obtain rfl : p = 0 := Subsingleton.elim _ _
  rw [outs_inv V c q t.val t.isLt, ht, Cert.LibTileSums.accum_eq_sum]
  show _ = Spec.cnt (words (V c main_v56)) 1 q
  unfold Spec.cnt
  rw [zero_add, Spec.sum_tiles800]
  refine Finset.sum_congr rfl fun k _ => ?_
  unfold tile
  rw [dif_pos k.isLt]

/-! ## From the row to the array -/

/-- The output's block at the last point is the whole array: writing a row back through it writes the row. -/
theorem cut_read (t : Fin cfg3.N) (ht : t.val = 124) (f : Vec Ideal S1x1024 .f32) :
    (cfg3.win 5).cut (grid3.coords t) f = ((cfg3.win 5).blk t).view.read (Elt Ideal) f := by
  obtain rfl : t = ⟨124, h124⟩ := Fin.ext ht
  have hz' : (fun a => win3_5.index ⟨124, h124⟩ a * main_v57_1.ty.shape.size a) = fun _ => 0 :=
    funext fun a => by fin_cases a <;> decide +kernel
  exact (Memref.read_access_unit_zero (Elt Ideal) main_v57_1 hz' (fun a => by rw [congrFun hz' a]; simp) f).symm

/-- Only the last point writes the row back. -/
theorem last_of_flush (t : Fin cfg3.N) (hf : (cfg3.win 5).flush t = true) : t.val = 124 := by
  have hN : cfg3.N = 125 := N_3
  have h1 := (flush3_5 t).mp hf
  have h2 := t.isLt
  omega

/-- The one write-back, after the last block, writes the whole row. -/
theorem flushed_of (c : Dev nD) (G : Vec Ideal S1x1024 .f32)
    (hG : ∀ t : Fin cfg3.N, t.val = 124 → (outsAt3 (F := Ideal) V c t.val t.isLt).2 = G)
    (t : Fin cfg3.N) (hf : (cfg3.win 5).flush t = true) :
    (dat3 (F := Ideal) V c).flushed 5 t = ((cfg3.win 5).blk t).view.read (Elt Ideal) G := by
  have ht : t.val = 124 := last_of_flush t hf
  show (cfg3.win 5).cut (grid3.coords t) ((dat3 V c).after 5 t) = _
  rw [after3_5, hG t ht]
  exact cut_read t ht G
/-- Every entry of the array lies in the block the last point writes back. -/
theorem cover (i : S1x1024.Idx) :
    ∃ t : Fin cfg3.N, (cfg3.win 5).flush t = true ∧ i ∈ ((cfg3.win 5).blk t).view.set := by
  refine ⟨⟨124, h124⟩, (flush3_5 ⟨124, h124⟩).mpr rfl, ?_⟩
  show i ∈ ((View.whole main_v57_1).slice (win3_5.rect ⟨124, h124⟩)).set
  rw [View.set_slice_whole, Rect.mem_set_unit]
  intro a
  have h0 : (i 0 : Nat) < 1 := (i 0).isLt
  have h1 : (i 1 : Nat) < 1024 := (i 1).isLt
  match a with
  | ⟨0, _⟩ =>
    show win3_5.index ⟨124, h124⟩ 0 * win3_5.size 0 ≤ (i 0 : Nat)
      ∧ (i 0 : Nat) < win3_5.index ⟨124, h124⟩ 0 * win3_5.size 0 + win3_5.xsize (grid3.coords ⟨124, h124⟩) 0
    rw [show win3_5.index ⟨124, h124⟩ 0 * win3_5.size 0 = 0 from by decide +kernel,
      show win3_5.xsize (grid3.coords ⟨124, h124⟩) 0 = 1 from by decide +kernel]
    omega
  | ⟨1, _⟩ =>
    show win3_5.index ⟨124, h124⟩ 1 * win3_5.size 1 ≤ (i 1 : Nat)
      ∧ (i 1 : Nat) < win3_5.index ⟨124, h124⟩ 1 * win3_5.size 1 + win3_5.xsize (grid3.coords ⟨124, h124⟩) 1
    rw [show win3_5.index ⟨124, h124⟩ 1 * win3_5.size 1 = 0 from by decide +kernel,
      show win3_5.xsize (grid3.coords ⟨124, h124⟩) 1 = 1024 from by decide +kernel]
    omega

/-- So the array ends holding whatever function the row holds after the last block. -/
theorem arr_of (c : Dev nD) (G : Vec Ideal S1x1024 .f32)
    (hG : ∀ t : Fin cfg3.N, t.val = 124 → (outsAt3 (F := Ideal) V c t.val t.isLt).2 = G) :
    (dat3 (F := Ideal) V c).arrAt 5 cfg3.N = G :=
  (dat3 V c).arrAt_eq_of_cover 5 G (flushed_of V c G hG) cover

end Count

/-- After the call the second output array holds `G3c` of the graph words. -/
theorem value3c (c : Dev nD) :
    (dat3 (F := Ideal) V c).arrAt 5 cfg3.N = G3c (V c main_v56) := by
  exact Count.arr_of V c (G3c (V c main_v56)) (Count.result_eq V c)

end Cert.Gcn.K3

end
-- ==== Proof.KRegion4.lean ====
/-
  The head, as one function of its five arrays.

  One block covers everything.  The call multiplies the 1024 feature rows by the first weight matrix (a sum
  over 68 columns), adds the bias row, clips below at zero, multiplies by the second weight matrix (a sum
  over 64) and adds the last bias; changes of float format are the identity on exact values.
-/
import proofs.«405875_j14018773254871_2_alg».proof.Proof.Gen.KernelIdeal.Frame
import proofs.«405875_j14018773254871_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The two products at an index -/

/-- First product, left operand: the row is the output's row. -/
theorem lhs_first_0 (i : S1024x64.Idx) (q : dot_S1024x68_S68x64_S1024x64_1_0_0_1_n_n.contr.Idx) :
    (dot_S1024x68_S68x64_S1024x64_1_0_0_1_n_n.lhsIdx i q 0).val = (i 0).val := by
  unfold DotDims.lhsIdx
  rw [dif_neg (show ¬(0 : Fin S1024x68.rank) ∈ dot_S1024x68_S68x64_S1024x64_1_0_0_1_n_n.lhsBatch by decide), dif_pos (show (0 : Fin S1024x68.rank) ∈ dot_S1024x68_S68x64_S1024x64_1_0_0_1_n_n.lhsNonContracting by decide)]
  rfl
/-- First product, left operand: the column is the summation index. -/
theorem lhs_first_1 (i : S1024x64.Idx) (q : dot_S1024x68_S68x64_S1024x64_1_0_0_1_n_n.contr.Idx) :
    (dot_S1024x68_S68x64_S1024x64_1_0_0_1_n_n.lhsIdx i q 1).val = (q ⟨0, by decide⟩).val :=
  dot_S1024x68_S68x64_S1024x64_1_0_0_1_n_n.lhsIdx_val_of_single rfl i q
/-- First product, right operand: the row is the summation index. -/
theorem rhs_first_0 (i : S1024x64.Idx) (q : dot_S1024x68_S68x64_S1024x64_1_0_0_1_n_n.contr.Idx) :
    (dot_S1024x68_S68x64_S1024x64_1_0_0_1_n_n.rhsIdx i q 0).val = (q ⟨0, by decide⟩).val :=
  dot_S1024x68_S68x64_S1024x64_1_0_0_1_n_n.rhsIdx_val_of_single rfl i q
/-- First product, right operand: the column is the output's column. -/
theorem rhs_first_1 (i : S1024x64.Idx) (q : dot_S1024x68_S68x64_S1024x64_1_0_0_1_n_n.contr.Idx) :
    (dot_S1024x68_S68x64_S1024x64_1_0_0_1_n_n.rhsIdx i q 1).val = (i 1).val := by
  unfold DotDims.rhsIdx
  rw [dif_neg (show ¬(1 : Fin S68x64.rank) ∈ dot_S1024x68_S68x64_S1024x64_1_0_0_1_n_n.rhsBatch by decide), dif_pos (show (1 : Fin S68x64.rank) ∈ dot_S1024x68_S68x64_S1024x64_1_0_0_1_n_n.rhsNonContracting by decide)]
  rfl

/-- The first product into a zero accumulator, read at row g and column k: the sum over the 68 columns of the features. -/
theorem first_product_apply {φ₁ φ₂ : FTy} (a : FVec Ideal S1024x68 φ₁) (b : FVec Ideal S68x64 φ₂) (g : Fin 1024) (k : Fin 64) :
    matmul dot_S1024x68_S68x64_S1024x64_1_0_0_1_n_n none a b (constant (F := Ideal) S1024x64 .f32 0x00000000#32) (ix2 g k)
      = ∑ j : Fin 68, a (ix2 g j) * b (ix2 j k) := by
  show FloatOps.matmul dot_S1024x68_S68x64_S1024x64_1_0_0_1_n_n none a b (constant (F := Ideal) S1024x64 .f32 0x00000000#32) (ix2 g k) = _
  rw [Ideal.matmul_constant_zero_apply, ← Equiv.sum_comp (ValueIdx.contrEquiv1 dot_S1024x68_S68x64_S1024x64_1_0_0_1_n_n 68 rfl rfl).symm]
  refine Finset.sum_congr rfl fun j _ => ?_
  have hj := ValueIdx.contrEquiv1_symm_val dot_S1024x68_S68x64_S1024x64_1_0_0_1_n_n 68 rfl rfl j
  have el : dot_S1024x68_S68x64_S1024x64_1_0_0_1_n_n.lhsIdx (ix2 g k) ((ValueIdx.contrEquiv1 dot_S1024x68_S68x64_S1024x64_1_0_0_1_n_n 68 rfl rfl).symm j) = ix2 g j := funext fun a => Fin.ext (by
    match a with
    | ⟨0, _⟩ => exact lhs_first_0 _ _
    | ⟨1, _⟩ => exact (lhs_first_1 _ _).trans hj)
  have er : dot_S1024x68_S68x64_S1024x64_1_0_0_1_n_n.rhsIdx (ix2 g k) ((ValueIdx.contrEquiv1 dot_S1024x68_S68x64_S1024x64_1_0_0_1_n_n 68 rfl rfl).symm j) = ix2 j k := funext fun a => Fin.ext (by
    match a with
    | ⟨0, _⟩ => exact (rhs_first_0 _ _).trans hj
    | ⟨1, _⟩ => exact rhs_first_1 _ _)
  rw [el, er]

/-- Second product, left operand: the row is the output's row. -/
theorem lhs_second_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
/-- Second product, left operand: the column is the summation index. -/
theorem lhs_second_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
/-- Second product, right operand: the row is the summation index. -/
theorem rhs_second_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
/-- Second product, right operand: the column is the output's column. -/
theorem rhs_second_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- The second product into a zero accumulator, read at row g and column o: the sum over the 64 hidden units. -/
theorem second_product_apply {φ₁ φ₂ : FTy} (a : FVec Ideal S1024x64 φ₁) (b : FVec Ideal S64x1 φ₂) (g : Fin 1024) (o : Fin 1) :
    matmul dot_S1024x64_S64x1_S1024x1_1_0_0_1_n_n none a b (constant (F := Ideal) S1024x1 .f32 0x00000000#32) (ix2 g o)
      = ∑ k : Fin 64, a (ix2 g k) * b (ix2 k o) := by
  show FloatOps.matmul dot_S1024x64_S64x1_S1024x1_1_0_0_1_n_n none a b (constant (F := Ideal) S1024x1 .f32 0x00000000#32) (ix2 g o) = _
  rw [Ideal.matmul_constant_zero_apply, ← Equiv.sum_comp (ValueIdx.contrEquiv1 dot_S1024x64_S64x1_S1024x1_1_0_0_1_n_n 64 rfl rfl).symm]
  refine Finset.sum_congr rfl fun k _ => ?_
  have hk := ValueIdx.contrEquiv1_symm_val dot_S1024x64_S64x1_S1024x1_1_0_0_1_n_n 64 rfl rfl k
  have el : dot_S1024x64_S64x1_S1024x1_1_0_0_1_n_n.lhsIdx (ix2 g o) ((ValueIdx.contrEquiv1 dot_S1024x64_S64x1_S1024x1_1_0_0_1_n_n 64 rfl rfl).symm k) = ix2 g k := funext fun a => Fin.ext (by
    match a with
    | ⟨0, _⟩ => exact lhs_second_0 _ _
    | ⟨1, _⟩ => exact (lhs_second_1 _ _).trans hk)
  have er : dot_S1024x64_S64x1_S1024x1_1_0_0_1_n_n.rhsIdx (ix2 g o) ((ValueIdx.contrEquiv1 dot_S1024x64_S64x1_S1024x1_1_0_0_1_n_n 64 rfl rfl).symm k) = ix2 k o := funext fun a => Fin.ext (by
    match a with
    | ⟨0, _⟩ => exact (rhs_second_0 _ _).trans hk
    | ⟨1, _⟩ => exact rhs_second_1 _ _)
  rw [el, er]

/-! ## The two biases at an index -/

/-- The first bias row spread over the 1024 rows. -/
theorem first_bias_apply (x : S1x64.Idx → EReal) (h : S1x64.Broadcasts S1024x64) (g : Fin 1024) (k : Fin 64) :
    broadcastTo S1024x64 x h (ix2 g k) = x (ix2 (0 : Fin 1) k) :=
  broadcastTo_apply x h (ix2 g k) (ix2 (0 : Fin 1) k) (fun a => match a with
    | ⟨0, _⟩ => by show (0 : Nat) = if (1 : Nat) = 1 then 0 else _; rw [if_pos rfl]
    | ⟨1, _⟩ => by show k.val = if (64 : Nat) = 1 then 0 else k.val; rw [if_neg (by decide)])

/-- The last bias, one number, spread over the 1024 rows. -/
theorem second_bias_apply (x : S1x1.Idx → EReal) (h : S1x1.Broadcasts S1024x1) (g : Fin 1024) (o : Fin 1) :
    broadcastTo S1024x1 x h (ix2 g o) = x (ix2 (0 : Fin 1) o) :=
  broadcastTo_apply x h (ix2 g o) (ix2 (0 : Fin 1) o) (fun a => match a with
    | ⟨0, _⟩ => by show (0 : Nat) = if (1 : Nat) = 1 then 0 else _; rw [if_pos rfl]
    | ⟨1, _⟩ => by show o.val = if (1 : Nat) = 1 then 0 else _; rw [if_pos rfl]; exact Fin.val_eq_zero o)

/-! ## The body's result at an index -/

/-- What the body stores, read at row g and column o. -/
theorem payload_apply (x0 : Vec Ideal S1024x68 .f32) (x1 : Vec Ideal S68x64 .f32) (x2 : Vec Ideal S1x64 .f32)
    (x3 : Vec Ideal S64x1 .f32) (x4 : Vec Ideal S1x1 .f32) (g : Fin 1024) (o : Fin 1) :
    k4_pay1 (F := Ideal) x0 x1 x2 x3 x4 (ix2 g o)
      = (∑ k : Fin 64, max ((∑ j : Fin 68, x0 (ix2 g j) * x1 (ix2 j k)) + x2 (ix2 (0 : Fin 1) k)) 0 * x3 (ix2 k o))
          + x4 (ix2 (0 : Fin 1) o) := by
  unfold k4_pay1
  rw [addf_apply]
  refine congrArg₂ (· + ·) ?_ ?_
  · refine (second_product_apply _ _ g o).trans ?_
    refine Finset.sum_congr rfl fun k _ => ?_
    rw [truncf_apply, truncf_apply, maximumf_apply, addf_apply, broadcast_apply]
    rw [first_product_apply, first_bias_apply]
    simp only [shapeCast_self]
    refine congrArg₂ (· * ·) (congrArg₂ max (congrArg₂ (· + ·) (Finset.sum_congr rfl fun j _ => ?_) rfl) Ideal.ofBits_zero_f32) rfl
    rw [truncf_apply, truncf_apply]
  · rw [second_bias_apply]
    simp only [shapeCast_self]

-- The TensorCore's buffer contents when the call is entered: every statement here holds at any such contents.
variable (V : (c : Dev nD) → (b : Ref sig .tc) → Buf (Elt Ideal) ((c : Thread nD τ).loc b))

/-- The two dense layers applied to the feature rows. -/
def G4 (z : S1024x68.Idx → EReal) (w1 : S68x64.Idx → EReal) (b1 : S1x64.Idx → EReal) (w2 : S64x1.Idx → EReal)
    (b2 : S1x1.Idx → EReal) : S1024x1.Idx → EReal :=
  fun i => Spec.head (fun g j => z (ix2 g j)) (fun j k => w1 (ix2 j k)) (fun k => b1 (ix2 (0 : Fin 1) k))
    (fun k o => w2 (ix2 k o)) (fun o => b2 (ix2 (0 : Fin 1) o)) (i 0) (i 1)

/-! ## One grid point: every block is its whole array -/

theorem zero_offsets : (![0, 0] : Fin 2 → Nat) = fun _ => 0 :=
  funext fun a => match a with | ⟨0, _⟩ => rfl | ⟨1, _⟩ => rfl

/-- Every window's block index is zero on both axes at the one grid point. -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The block of the feature rows is the whole array. -/
theorem features_block (c : Dev nD) (t : Fin cfg4.N) :
    (iblk4 (F := Ideal) V c 0 t : S1024x68.Idx → EReal) = V c main_v63 := by
  obtain ⟨e0, e1, -⟩ := index_zero t
  funext y
  show V c main_v63 (((cfg4.win 0).blk t).view.emb y) = V c main_v63 y
  refine congrArg (V c main_v63) (funext fun a => Fin.ext ?_)
  match a with
  | ⟨0, _⟩ => show win4_0.index t (0 : Fin 2) * 1024 + 1 * (y 0).val = (y 0).val; omega
  | ⟨1, _⟩ => show win4_0.index t (1 : Fin 2) * 68 + 1 * (y 1).val = (y 1).val; omega

/-- The block of the first weight matrix is the whole array. -/
theorem first_weights_block (c : Dev nD) (t : Fin cfg4.N) :
    (iblk4 (F := Ideal) V c 1 t : S68x64.Idx → EReal) = V c main_arg10 := by
  obtain ⟨-, -, e0, e1, -⟩ := index_zero t
  funext y
  show V c main_arg10 (((cfg4.win 1).blk t).view.emb y) = V c main_arg10 y
  refine congrArg (V c main_arg10) (funext fun a => Fin.ext ?_)
  match a with
  | ⟨0, _⟩ => show win4_1.index t (0 : Fin 2) * 68 + 1 * (y 0).val = (y 0).val; omega
  | ⟨1, _⟩ => show win4_1.index t (1 : Fin 2) * 64 + 1 * (y 1).val = (y 1).val; omega

/-- The block of the first bias row is the whole array. -/
theorem first_bias_block (c : Dev nD) (t : Fin cfg4.N) :
    (iblk4 (F := Ideal) V c 2 t : S1x64.Idx → EReal) = V c main_v64 := by
  obtain ⟨-, -, -, -, e0, e1, -⟩ := index_zero t
  funext y
  show V c main_v64 (((cfg4.win 2).blk t).view.emb y) = V c main_v64 y
  refine congrArg (V c main_v64) (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- The block of the second weight matrix is the whole array. -/
theorem second_weights_block (c : Dev nD) (t : Fin cfg4.N) :
    (iblk4 (F := Ideal) V c 3 t : S64x1.Idx → EReal) = V c main_arg12 := by
  obtain ⟨-, -, -, -, -, -, e0, e1, -⟩ := index_zero t
  funext y
  show V c main_arg12 (((cfg4.win 3).blk t).view.emb y) = V c main_arg12 y
  refine congrArg (V c main_arg12) (funext fun a => Fin.ext ?_)
  match a with
  | ⟨0, _⟩ => show win4_3.index t (0 : Fin 2) * 64 + 1 * (y 0).val = (y 0).val; omega
  | ⟨1, _⟩ => show win4_3.index t (1 : Fin 2) * 1 + 1 * (y 1).val = (y 1).val; omega

/-- The block of the last bias is the whole array. -/
theorem second_bias_block (c : Dev nD) (t : Fin cfg4.N) :
    (iblk4 (F := Ideal) V c 4 t : S1x1.Idx → EReal) = V c main_v65 := by
  obtain ⟨-, -, -, -, -, -, -, -, e0, e1, -⟩ := index_zero t
  funext y
  show V c main_v65 (((cfg4.win 4).blk t).view.emb y) = V c main_v65 y
  refine congrArg (V c main_v65) (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- The two layers of the five arrays, read at row g and column o. -/
theorem G4_apply (z : S1024x68.Idx → EReal) (w1 : S68x64.Idx → EReal) (b1 : S1x64.Idx → EReal) (w2 : S64x1.Idx → EReal)
    (b2 : S1x1.Idx → EReal) (g : Fin 1024) (o : Fin 1) :
    G4 z w1 b1 w2 b2 (ix2 g o)
      = (∑ k : Fin 64, max ((∑ j : Fin 68, z (ix2 g j) * w1 (ix2 j k)) + b1 (ix2 (0 : Fin 1) k)) 0 * w2 (ix2 k o))
          + b2 (ix2 (0 : Fin 1) o) := rfl

/-- What the body stores is the two layers of the blocks it loaded, index by index. -/
theorem payload_eq_G4 (x0 : Vec Ideal S1024x68 .f32) (x1 : Vec Ideal S68x64 .f32) (x2 : Vec Ideal S1x64 .f32)
    (x3 : Vec Ideal S64x1 .f32) (x4 : Vec Ideal S1x1 .f32) :
    (k4_pay1 (F := Ideal) x0 x1 x2 x3 x4 : S1024x1.Idx → EReal) = G4 x0 x1 x2 x3 x4 := by
  funext y
  obtain ⟨g, o, rfl⟩ : ∃ (g : Fin 1024) (o : Fin 1), y = ix2 g o := ⟨y 0, y 1, eq_ix2 y⟩
  rw [payload_apply, G4_apply]

/-- What the one grid point writes back is the block of G4 of the five arrays. -/
theorem flushed_eq (c : Dev nD) (t : Fin cfg4.N) :
    (dat4 (F := Ideal) V c).flushed 5 t
      = ((cfg4.win 5).blk t).view.read (Elt Ideal)
          (G4 (V c main_v63) (V c main_arg10) (V c main_v64) (V c main_arg12) (V c main_v65)) := by
  show (cfg4.win 5).cut (grid4.coords t) ((dat4 (F := Ideal) V c).after 5 t) = _
  rw [after4_5]
  unfold out4_5
  rw [View.canon_unit_zero zero_offsets]
  simp only [View.ld_unit_zero (S := S1024x68) zero_offsets, View.ld_unit_zero (S := S68x64) zero_offsets,
    View.ld_unit_zero (S := S1x64) zero_offsets, View.ld_unit_zero (S := S64x1) zero_offsets,
    View.ld_unit_zero (S := S1x1) zero_offsets]
  rw [features_block V c t, first_weights_block V c t, first_bias_block V c t, second_weights_block V c t,
    second_bias_block V c t]
  obtain ⟨-, -, -, -, -, -, -, -, -, -, e0, e1⟩ := index_zero t
  funext y
  show k4_pay1 (F := Ideal) (V c main_v63) (V c main_arg10) (V c main_v64) (V c main_arg12) (V c main_v65) y
    = G4 (V c main_v63) (V c main_arg10) (V c main_v64) (V c main_arg12) (V c main_v65) (((cfg4.win 5).blk t).view.emb y)
  have hy : ((cfg4.win 5).blk t).view.emb y = y := funext fun a => Fin.ext (by
    match a with
    | ⟨0, _⟩ => show win4_5.index t (0 : Fin 2) * 1024 + 1 * (y 0).val = (y 0).val; omega
    | ⟨1, _⟩ => show win4_5.index t (1 : Fin 2) * 1 + 1 * (y 1).val = (y 1).val; omega)
  rw [hy]
  exact congrFun (payload_eq_G4 _ _ _ _ _) y

/-- An index of the output array is in the point's block iff each coordinate is in the block's range. -/
theorem mem_blk (t : Fin cfg4.N) (i : S1024x1.Idx) :
    i ∈ ((cfg4.win 5).blk t).view.set ↔ ∀ a : Fin 2, win4_5.index t a * S1024x1.size a ≤ (i a).val ∧ (i a).val < win4_5.index t a * S1024x1.size a + S1024x1.size a := by
  show i ∈ ((View.whole main_v66).slice (win4_5.rect t)).set ↔ _
  rw [View.set_slice_whole, Rect.mem_set_unit]
  exact Iff.rfl

/-- Every index of the output array is in the one point's block. -/
theorem covered (i : S1024x1.Idx) :
    ∃ t : Fin cfg4.N, (cfg4.win 5).flush t = true ∧ i ∈ ((cfg4.win 5).blk t).view.set := by
  obtain ⟨-, -, -, -, -, -, -, -, -, -, e0, e1⟩ := index_zero t4_0
  refine ⟨t4_0, flush4_5 t4_0, ?_⟩
  rw [mem_blk]
  intro a
  have h0 : (i 0).val < 1024 := (i 0).isLt
  have h1 : (i 1).val < 1 := (i 1).isLt
  match a with
  | ⟨0, _⟩ => show win4_5.index t4_0 (0 : Fin 2) * 1024 ≤ (i 0).val ∧ (i 0).val < win4_5.index t4_0 (0 : Fin 2) * 1024 + 1024; omega
  | ⟨1, _⟩ => show win4_5.index t4_0 (1 : Fin 2) * 1 ≤ (i 1).val ∧ (i 1).val < win4_5.index t4_0 (1 : Fin 2) * 1 + 1; omega

/-- After the call the output array holds `G4` of the five input arrays as the call found them. -/
theorem value4 (c : Dev nD) :
    (dat4 (F := Ideal) V c).arrAt 5 cfg4.N
      = G4 (V c main_v63) (V c main_arg10) (V c main_v64) (V c main_arg12) (V c main_v65) :=
  (dat4 (F := Ideal) V c).arrAt_eq_of_cover 5 _ (fun t _ => flushed_eq V c t) covered

end Cert.Gcn.K4

end
-- ==== Proof.KChainKeep.lean ====
/-
  What the later stretches and calls read of the earlier ones.

  A buffer that no host operation of a stretch writes, and that is no array of a call, holds after the stretch
  or the call what it held before.  The edge lists and the weight column are written once, before the first
  call, and read by every later stretch and call; each argument is written by nothing.  So at every boundary
  where one of them is read it still holds its first contents.
-/
import proofs.«405875_j14018773254871_2_alg».proof.Proof.Gen.KernelIdeal.Frame
import Idealize.ShloMosaic.PureOps.Ideal
import Idealize.ShloMosaic.Lib.StableHlo.Run

set_option maxRecDepth 16384

noncomputable section

namespace Cert.Gcn.KChain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- A buffer that no operation of a host stretch writes holds after the stretch what it held before: each
    operation writes one buffer, a reference other than the one read. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_W3_main_arg0 : W3 m ρ c (Proc.devRef .tc main_arg0) = m ((c.tc : Thread nD τ).loc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c.tc : Thread nD τ).loc main_arg0) := rfl

theorem keep_W3_main_arg4 : W3 m ρ c (Proc.devRef .tc main_arg4) = m ((c.tc : Thread nD τ).loc main_arg4) :=
  calc W3 m ρ c (Proc.devRef .tc main_arg4)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c.tc : Thread nD τ).loc main_arg4) := rfl

theorem keep_W4_main_v3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_W4_main_v6 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_W4_main_arg5 : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c.tc : Thread nD τ).loc main_arg5) := rfl

theorem keep_W5_main_v16 : W5 m ρ c (Proc.devRef .tc main_v16) = W3 m ρ c (Proc.devRef .tc main_v16) :=
  calc W5 m ρ c (Proc.devRef .tc main_v16)
    _ = W4 m ρ c (Proc.devRef .tc main_v16) := by host_keep hostOps1
    _ = W3 m ρ c (Proc.devRef .tc main_v16) := (W4_arr m ρ c 2).trans (((dat0 (V3 m ρ) c).arrAt_in 2 rfl _).trans (A_eq0 (V3 m ρ) c 2))

theorem keep_W5_main_arg6 : W5 m ρ c (Proc.devRef .tc main_arg6) = m ((c.tc : Thread nD τ).loc main_arg6) :=
  calc W5 m ρ c (Proc.devRef .tc main_arg6)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c.tc : Thread nD τ).loc main_arg6) := rfl

theorem keep_W6_main_v3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)

theorem keep_W6_main_v6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

theorem keep_W6_main_arg7 : W6 m ρ c (Proc.devRef .tc main_arg7) = m ((c.tc : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c.tc : Thread nD τ).loc main_arg7) := rfl

theorem keep_W7_main_v16 : W7 m ρ c (Proc.devRef .tc main_v16) = W3 m ρ c (Proc.devRef .tc main_v16) :=
  calc W7 m ρ c (Proc.devRef .tc main_v16)
    _ = W6 m ρ c (Proc.devRef .tc main_v16) := by host_keep hostOps2
    _ = W5 m ρ c (Proc.devRef .tc main_v16) := (W6_arr m ρ c 1).trans (((dat1 (V5 m ρ) c).arrAt_in 1 rfl _).trans (A_eq1 (V5 m ρ) c 1))
    _ = W4 m ρ c (Proc.devRef .tc main_v16) := by host_keep hostOps1
    _ = W3 m ρ c (Proc.devRef .tc main_v16) := (W4_arr m ρ c 2).trans (((dat0 (V3 m ρ) c).arrAt_in 2 rfl _).trans (A_eq0 (V3 m ρ) c 2))

theorem keep_W7_main_arg8 : W7 m ρ c (Proc.devRef .tc main_arg8) = m ((c.tc : Thread nD τ).loc main_arg8) :=
  calc W7 m ρ c (Proc.devRef .tc main_arg8)
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = m ((c.tc : Thread nD τ).loc main_arg8) := rfl

theorem keep_W8_main_v3 : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keep hostOps2
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)

theorem keep_W8_main_v6 : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

theorem keep_W8_main_arg9 : W8 m ρ c (Proc.devRef .tc main_arg9) = m ((c.tc : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = m ((c.tc : Thread nD τ).loc main_arg9) := rfl

theorem keep_W8_main_arg2 : W8 m ρ c (Proc.devRef .tc main_arg2) = m ((c.tc : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_keep hostOps2
    _ = W5 m ρ c (Proc.devRef .tc main_arg2) := W6_of_ne m ρ c main_arg2 (by decide)
    _ = W4 m ρ c (Proc.devRef .tc main_arg2) := by host_keep hostOps1
    _ = W3 m ρ c (Proc.devRef .tc main_arg2) := W4_of_ne m ρ c main_arg2 (by decide)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c.tc : Thread nD τ).loc main_arg2) := rfl

theorem keep_W9_main_v16 : W9 m ρ c (Proc.devRef .tc main_v16) = W3 m ρ c (Proc.devRef .tc main_v16) :=
  calc W9 m ρ c (Proc.devRef .tc main_v16)
    _ = W8 m ρ c (Proc.devRef .tc main_v16) := by host_keep hostOps3
    _ = W7 m ρ c (Proc.devRef .tc main_v16) := (W8_arr m ρ c 1).trans (((dat2 (V7 m ρ) c).arrAt_in 1 rfl _).trans (A_eq2 (V7 m ρ) c 1))
    _ = W6 m ρ c (Proc.devRef .tc main_v16) := by host_keep hostOps2
    _ = W5 m ρ c (Proc.devRef .tc main_v16) := (W6_arr m ρ c 1).trans (((dat1 (V5 m ρ) c).arrAt_in 1 rfl _).trans (A_eq1 (V5 m ρ) c 1))
    _ = W4 m ρ c (Proc.devRef .tc main_v16) := by host_keep hostOps1
    _ = W3 m ρ c (Proc.devRef .tc main_v16) := (W4_arr m ρ c 2).trans (((dat0 (V3 m ρ) c).arrAt_in 2 rfl _).trans (A_eq0 (V3 m ρ) c 2))

theorem keep_W10_main_arg3 : W10 m ρ c (Proc.devRef .tc main_arg3) = m ((c.tc : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := by host_keep hostOps3
    _ = W7 m ρ c (Proc.devRef .tc main_arg3) := W8_of_ne m ρ c main_arg3 (by decide)
    _ = W6 m ρ c (Proc.devRef .tc main_arg3) := by host_keep hostOps2
    _ = W5 m ρ c (Proc.devRef .tc main_arg3) := W6_of_ne m ρ c main_arg3 (by decide)
    _ = W4 m ρ c (Proc.devRef .tc main_arg3) := by host_keep hostOps1
    _ = W3 m ρ c (Proc.devRef .tc main_arg3) := W4_of_ne m ρ c main_arg3 (by decide)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c.tc : Thread nD τ).loc main_arg3) := rfl

theorem keep_W10_main_arg11 : W10 m ρ c (Proc.devRef .tc main_arg11) = m ((c.tc : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := by host_keep hostOps3
    _ = W7 m ρ c (Proc.devRef .tc main_arg11) := W8_of_ne m ρ c main_arg11 (by decide)
    _ = W6 m ρ c (Proc.devRef .tc main_arg11) := by host_keep hostOps2
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = m ((c.tc : Thread nD τ).loc main_arg11) := rfl

theorem keep_W10_main_arg13 : W10 m ρ c (Proc.devRef .tc main_arg13) = m ((c.tc : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := by host_keep hostOps3
    _ = W7 m ρ c (Proc.devRef .tc main_arg13) := W8_of_ne m ρ c main_arg13 (by decide)
    _ = W6 m ρ c (Proc.devRef .tc main_arg13) := by host_keep hostOps2
    _ = W5 m ρ c (Proc.devRef .tc main_arg13) := W6_of_ne m ρ c main_arg13 (by decide)
    _ = W4 m ρ c (Proc.devRef .tc main_arg13) := by host_keep hostOps1
    _ = W3 m ρ c (Proc.devRef .tc main_arg13) := W4_of_ne m ρ c main_arg13 (by decide)
    _ = W2 m ρ c (Proc.devRef .tc main_arg13) := by host_keep hostOps0_2
    _ = W1 m ρ c (Proc.devRef .tc main_arg13) := by host_keep hostOps0_1
    _ = W0 m ρ c (Proc.devRef .tc main_arg13) := by host_keep hostOps0
    _ = m ((c.tc : Thread nD τ).loc main_arg13) := rfl

theorem keep_W11_main_arg10 : W11 m ρ c (Proc.devRef .tc main_arg10) = m ((c.tc : Thread nD τ).loc main_arg10) :=
  calc W11 m ρ c (Proc.devRef .tc main_arg10)
    _ = W10 m ρ c (Proc.devRef .tc main_arg10) := by host_keep hostOps4
    _ = W9 m ρ c (Proc.devRef .tc main_arg10) := W10_of_ne m ρ c main_arg10 (by decide)
    _ = W8 m ρ c (Proc.devRef .tc main_arg10) := by host_keep hostOps3
    _ = W7 m ρ c (Proc.devRef .tc main_arg10) := W8_of_ne m ρ c main_arg10 (by decide)
    _ = W6 m ρ c (Proc.devRef .tc main_arg10) := by host_keep hostOps2
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0
    _ = m ((c.tc : Thread nD τ).loc main_arg10) := rfl

theorem keep_W11_main_arg12 : W11 m ρ c (Proc.devRef .tc main_arg12) = m ((c.tc : Thread nD τ).loc main_arg12) :=
  calc W11 m ρ c (Proc.devRef .tc main_arg12)
    _ = W10 m ρ c (Proc.devRef .tc main_arg12) := by host_keep hostOps4
    _ = W9 m ρ c (Proc.devRef .tc main_arg12) := W10_of_ne m ρ c main_arg12 (by decide)
    _ = W8 m ρ c (Proc.devRef .tc main_arg12) := by host_keep hostOps3
    _ = W7 m ρ c (Proc.devRef .tc main_arg12) := W8_of_ne m ρ c main_arg12 (by decide)
    _ = W6 m ρ c (Proc.devRef .tc main_arg12) := by host_keep hostOps2
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0
    _ = m ((c.tc : Thread nD τ).loc main_arg12) := rfl

end Cert.Gcn.KChain

end
-- ==== Proof.KChain.lean ====
/-
  The kernel program's result, named.

  Between the five calls the program runs on the host: it builds the edge lists (the given source and
  target rows, each followed by one loop edge per node), counts each node's incoming edges, turns the counts
  into the node weights (count ^ (-1/2) where the count is positive, else 0), and after each of the first
  three calls gathers the projected rows by source and sums them by target.  After the fourth call it
  divides the pooled sums by the clipped counts and appends the metadata columns.  Each of these stretches is
  a fixed function of the arrays it reads, so the contents of the result buffer after the last call is one
  nested expression in the argument arrays: `KOut`.
-/
import proofs.«405875_j14018773254871_2_alg».proof.Proof.KRegion0
import proofs.«405875_j14018773254871_2_alg».proof.Proof.KRegion1
import proofs.«405875_j14018773254871_2_alg».proof.Proof.KRegion2
import proofs.«405875_j14018773254871_2_alg».proof.Proof.KRegion3
import proofs.«405875_j14018773254871_2_alg».proof.Proof.KRegion3c
import proofs.«405875_j14018773254871_2_alg».proof.Proof.KRegion4
import proofs.«405875_j14018773254871_2_alg».proof.Proof.KChainKeep
import Idealize.ShloMosaic.Lib.StableHlo.Run

set_option maxRecDepth 16384

noncomputable section

namespace Cert.Gcn.KChain

open Cert.KernelIdeal Cert.KernelIdeal.Gen Cert.Gcn
open Idealize.ShloMosaic Idealize.ShloMosaic.TcCoe Idealize.ShloMosaic.StableHlo Idealize.SL.Sem

/-! ## The host stretches as functions of the arrays they read -/

/-- The source words: row 0 of the edge index, then the node numbers 0 … 99999. -/
def srcW (ei : IVec S2x2000000 32) : IVec S2100000 32 :=
  concatenate S2100000 0
    [⟨S2000000, shapeCast S2000000 (extractStridedSlice S1x2000000 ![0, 0] ei slices_S2x2000000_S1x2000000_0_0)
        shapeCasts_S1x2000000_S2000000⟩,
     ⟨S100000, iotaInDim S100000 32 0⟩] concatenates_S2000000_S100000_S2100000_d0

/-- The target words: row 1 of the edge index, then the node numbers 0 … 99999. -/
def dstW (ei : IVec S2x2000000 32) : IVec S2100000 32 :=
  concatenate S2100000 0
    [⟨S2000000, shapeCast S2000000 (extractStridedSlice S1x2000000 ![1, 0] ei slices_S2x2000000_S1x2000000_1_0)
        shapeCasts_S1x2000000_S2000000⟩,
     ⟨S100000, iotaInDim S100000 32 0⟩] concatenates_S2000000_S100000_S2100000_d0

/-- The number of edges that end at each node, as a sum of ones. -/
def degW (ei : IVec S2x2000000 32) : FVec Ideal S100000 .f32 :=
  Host.scatterAdd scatter_S100000_S2100000x1_S2100000_n_0_0_1
    (broadcastInDim S100000 ![] bcast_S_S100000 (constant (F := Ideal) S_ .f32 0x00000000#32))
    (broadcastInDim S2100000x1 ![0] bcast_S2100000_S2100000x1_0 (dstW ei))
    (broadcastInDim S2100000 ![] bcast_S_S2100000 (constant (F := Ideal) S_ .f32 0x3F800000#32))

/-- The node weights: count ^ (-1/2) where the count is positive, else 0. -/
def dinvW (ei : IVec S2x2000000 32) : FVec Ideal S100000 .f32 :=
  select (cmpf .ogt (degW ei) (broadcastInDim S100000 ![] bcast_S_S100000 (constant (F := Ideal) S_ .f32 0x00000000#32)))
    (Host.powf (degW ei) (broadcastInDim S100000 ![] bcast_S_S100000 (constant (F := Ideal) S_ .f32 0xBF000000#32)))
    (broadcastInDim S100000 ![] bcast_S_S100000 (constant (F := Ideal) S_ .f32 0x00000000#32))

/-- The weights as a column. -/
def dvW (ei : IVec S2x2000000 32) : FVec Ideal S100000x1 .f32 :=
  shapeCast S100000x1 (dinvW ei) shapeCasts_S100000_S100000x1

/-- Gather the rows of y by source (a negative word has 100000 added) and sum them by target. -/
def aggW (ei : IVec S2x2000000 32) (y : FVec Ideal S100000x64 .bf16) : FVec Ideal S100000x64 .f32 :=
  Host.scatterAdd scatter_S100000x64_S2100000x1_S2100000x64_1_0_0_1
    (broadcastInDim S100000x64 ![] bcast_S_S100000x64 (constant (F := Ideal) S_ .f32 0x00000000#32))
    (broadcastInDim S2100000x1 ![0] bcast_S2100000_S2100000x1_0 (dstW ei))
    (extf .f32
      (Host.gather gather_S100000x64_S2100000x1_S2100000x64_1_0_n_n_0_1_164 y
        (broadcastInDim S2100000x1 ![0] bcast_S2100000_S2100000x1_0
          (select (cmpi .slt (srcW ei) (broadcastInDim S2100000 ![] bcast_S_S2100000 (constantI S_ 32 0#32)))
            (addi (srcW ei) (broadcastInDim S2100000 ![] bcast_S_S2100000 (constantI S_ 32 100000#32)))
            (srcW ei))))
      bitsLt_bf16_f32)

/-- A bias vector as a one-row array. -/
def rowvec (b : FVec Ideal S64 .f32) : FVec Ideal S1x64 .f32 := shapeCast S1x64 b shapeCasts_S64_S1x64

/-- The graph words as a column. -/
def colI (bt : IVec S100000 32) : IVec S100000x1 32 := shapeCast S100000x1 bt shapeCasts_S100000_S100000x1

/-- The pooled means (sums over counts clipped below at 1) with the metadata columns appended. -/
def featW (sums : FVec Ideal S1024x64 .f32) (counts : FVec Ideal S1x1024 .f32) (md : FVec Ideal S1024x4 .f32) :
    FVec Ideal S1024x68 .f32 :=
  concatenate S1024x68 1
    [⟨S1024x64, Host.divf sums
        (broadcastInDim S1024x64 ![0, 1] bcast_S1024x1_S1024x64_0_1
          (maximumf (transpose S1024x1 [1, 0] counts transposes_S1x1024_S1024x1_1_0)
            (broadcastInDim S1024x1 ![] bcast_S_S1024x1 (constant (F := Ideal) S_ .f32 0x3F800000#32))))⟩,
     ⟨S1024x4, md⟩] concatenates_S1024x64_S1024x4_S1024x68_d1

/-! ## The result -/

/-- The result buffer's contents after the last call, as one expression in the argument arrays. -/
def KOut (m : (ℓ : Loc nD τ sig) → Buf (Elt Ideal) ℓ) (c : Dev nD) : FVec Ideal S1024x1 .f32 :=
  let ei : IVec S2x2000000 32 := m ((c.tc : Thread nD τ).loc main_arg1)
  let dv := dvW ei
  let a0 := aggW ei (K0.G0 (m ((c.tc : Thread nD τ).loc main_arg0)) (m ((c.tc : Thread nD τ).loc main_arg4)) dv)
  let a1 := aggW ei (K1.G1 a0 dv (rowvec (m ((c.tc : Thread nD τ).loc main_arg5))) (m ((c.tc : Thread nD τ).loc main_arg6)))
  let a2 := aggW ei (K2.G2 a1 dv (rowvec (m ((c.tc : Thread nD τ).loc main_arg7))) (m ((c.tc : Thread nD τ).loc main_arg8)))
  let bt := colI (m ((c.tc : Thread nD τ).loc main_arg2))
  K4.G4
    (featW (K3.G3s a2 dv (rowvec (m ((c.tc : Thread nD τ).loc main_arg9))) bt) (K3.G3c bt)
      (m ((c.tc : Thread nD τ).loc main_arg3)))
    (m ((c.tc : Thread nD τ).loc main_arg10)) (rowvec (m ((c.tc : Thread nD τ).loc main_arg11)))
    (m ((c.tc : Thread nD τ).loc main_arg12))
    (shapeCast S1x1 (m ((c.tc : Thread nD τ).loc main_arg13)) shapeCasts_S1_S1x1)

section Chain

variable (m : (ℓ : Loc nD τ sig) → Buf (Elt Ideal) ℓ) (ρ : Dev nD → PrngReg) (c : Dev nD)

/-! ## What each host stretch leaves in the buffers the next call reads -/

/-- `aggW` at any source and target words. -/
def aggAt (src dst : IVec S2100000 32) (y : FVec Ideal S100000x64 .bf16) : FVec Ideal S100000x64 .f32 :=
  Host.scatterAdd scatter_S100000x64_S2100000x1_S2100000x64_1_0_0_1
    (broadcastInDim S100000x64 ![] bcast_S_S100000x64 (constant (F := Ideal) S_ .f32 0x00000000#32))
    (broadcastInDim S2100000x1 ![0] bcast_S2100000_S2100000x1_0 dst)
    (extf .f32
      (Host.gather gather_S100000x64_S2100000x1_S2100000x64_1_0_n_n_0_1_164 y
        (broadcastInDim S2100000x1 ![0] bcast_S2100000_S2100000x1_0
          (select (cmpi .slt src (broadcastInDim S2100000 ![] bcast_S_S2100000 (constantI S_ 32 0#32)))
            (addi src (broadcastInDim S2100000 ![] bcast_S_S2100000 (constantI S_ 32 100000#32)))
            src)))
      bitsLt_bf16_f32)

theorem aggW_eq (ei : IVec S2x2000000 32) (y : FVec Ideal S100000x64 .bf16) : aggW ei y = aggAt (srcW ei) (dstW ei) y := rfl

set_option maxHeartbeats 2000000 in
/-- The first stretch leaves the source words in their buffer. -/
theorem W3_v3 : W3 m ρ c (Proc.devRef .tc main_v3) = srcW (m ((c.tc : Thread nD τ).loc main_arg1)) := by
  show StableHlo.after hostOps0_2 (StableHlo.after hostOps0_1 (StableHlo.after hostOps0 (W0 m ρ c))) (Proc.devRef .tc main_v3) = _
  after_results
  rfl

set_option maxHeartbeats 2000000 in
/-- The first stretch leaves the target words in their buffer. -/
theorem W3_v6 : W3 m ρ c (Proc.devRef .tc main_v6) = dstW (m ((c.tc : Thread nD τ).loc main_arg1)) := by
  show StableHlo.after hostOps0_2 (StableHlo.after hostOps0_1 (StableHlo.after hostOps0 (W0 m ρ c))) (Proc.devRef .tc main_v6) = _
  after_results
  rfl

set_option maxHeartbeats 2000000 in
/-- The first stretch's test: which nodes have a positive count. -/
theorem W1_v12 : W1 m ρ c (Proc.devRef .tc main_v12) = cmpf .ogt (degW (m ((c.tc : Thread nD τ).loc main_arg1))) (broadcastInDim S100000 ![] bcast_S_S100000 (constant (F := Ideal) S_ .f32 0x00000000#32)) := by
  show StableHlo.after hostOps0 (W0 m ρ c) (Proc.devRef .tc main_v12) = _
  after_results
  rfl

set_option maxHeartbeats 2000000 in
/-- The first stretch's powers: count ^ (-1/2). -/
theorem W1_v14 : W1 m ρ c (Proc.devRef .tc main_v14)
    = Host.powf (degW (m ((c.tc : Thread nD τ).loc main_arg1))) (broadcastInDim S100000 ![] bcast_S_S100000 (constant (F := Ideal) S_ .f32 0xBF000000#32)) := by
  show StableHlo.after hostOps0 (W0 m ρ c) (Proc.devRef .tc main_v14) = _
  after_results
  rfl

set_option maxHeartbeats 2000000 in
/-- The first stretch's zero. -/
theorem W1_cst_3 : W1 m ρ c (Proc.devRef .tc main_cst_3) = constant (F := Ideal) S_ .f32 0x00000000#32 := by
  show StableHlo.after hostOps0 (W0 m ρ c) (Proc.devRef .tc main_cst_3) = _
  after_results

set_option maxHeartbeats 2000000 in
/-- The selection between the powers and zero, at any float semantics (the inlined function's typed references
    read and write their buffers through casts that are identities). -/
theorem W2_v15_gen {F : FTy → Type} [FloatOps F] (m : (ℓ : Loc nD τ sig) → Buf (Elt F) ℓ) (ρ : Dev nD → PrngReg)
    (c : Dev nD) :
    W2 m ρ c (Proc.devRef .tc main_v15)
    = select (W1 m ρ c (Proc.devRef .tc main_v12)) (W1 m ρ c (Proc.devRef .tc main_v14))
        (broadcastInDim S100000 ![] bcast_S_S100000 (W1 m ρ c (Proc.devRef .tc main_cst_3))) := by
  show StableHlo.after hostOps0_1 (W1 m ρ c) (Proc.devRef .tc main_v15) = _
  after_results
  rfl

/-- The selection between the powers and zero. -/
theorem W2_v15 : W2 m ρ c (Proc.devRef .tc main_v15)
    = select (W1 m ρ c (Proc.devRef .tc main_v12)) (W1 m ρ c (Proc.devRef .tc main_v14))
        (broadcastInDim S100000 ![] bcast_S_S100000 (W1 m ρ c (Proc.devRef .tc main_cst_3))) :=
  W2_v15_gen m ρ c

set_option maxHeartbeats 2000000 in
/-- The weights reshaped to a column. -/
theorem W3_v16_raw : W3 m ρ c (Proc.devRef .tc main_v16) = shapeCast S100000x1 (W2 m ρ c (Proc.devRef .tc main_v15)) shapeCasts_S100000_S100000x1 := by
  show StableHlo.after hostOps0_2 (W2 m ρ c) (Proc.devRef .tc main_v16) = _
  after_results
  rfl

/-- The first stretch leaves the node weights, as a column, in their buffer. -/
theorem W3_v16 : W3 m ρ c (Proc.devRef .tc main_v16) = dvW (m ((c.tc : Thread nD τ).loc main_arg1)) := by
  rw [W3_v16_raw, W2_v15, W1_v12, W1_v14, W1_cst_3]
  rfl

set_option maxHeartbeats 2000000 in
/-- The stretch before this call gathers the previous call's rows by source and sums them by target. -/
theorem W5_v28_raw :
    W5 m ρ c (Proc.devRef .tc main_v28) = aggAt (W4 m ρ c (Proc.devRef .tc main_v3)) (W4 m ρ c (Proc.devRef .tc main_v6)) (W4 m ρ c (Proc.devRef .tc main_v17)) := by
  show StableHlo.after hostOps1 (W4 m ρ c) (Proc.devRef .tc main_v28) = _
  after_results
  rfl

set_option maxHeartbeats 2000000 in
/-- The first layer's bias as a row. -/
theorem W5_v29_raw :
    W5 m ρ c (Proc.devRef .tc main_v29) = rowvec (W4 m ρ c (Proc.devRef .tc main_arg5)) := by
  show StableHlo.after hostOps1 (W4 m ρ c) (Proc.devRef .tc main_v29) = _
  after_results
  rfl

set_option maxHeartbeats 2000000 in
/-- The stretch before this call gathers the previous call's rows by source and sums them by target. -/
theorem W7_v41_raw :
    W7 m ρ c (Proc.devRef .tc main_v41) = aggAt (W6 m ρ c (Proc.devRef .tc main_v3)) (W6 m ρ c (Proc.devRef .tc main_v6)) (W6 m ρ c (Proc.devRef .tc main_v30)) := by
  show StableHlo.after hostOps2 (W6 m ρ c) (Proc.devRef .tc main_v41) = _
  after_results
  rfl

set_option maxHeartbeats 2000000 in
/-- The second layer's bias as a row. -/
theorem W7_v42_raw :
    W7 m ρ c (Proc.devRef .tc main_v42) = rowvec (W6 m ρ c (Proc.devRef .tc main_arg7)) := by
  show StableHlo.after hostOps2 (W6 m ρ c) (Proc.devRef .tc main_v42) = _
  after_results
  rfl

set_option maxHeartbeats 2000000 in
/-- The stretch before this call gathers the previous call's rows by source and sums them by target. -/
theorem W9_v54_raw :
    W9 m ρ c (Proc.devRef .tc main_v54) = aggAt (W8 m ρ c (Proc.devRef .tc main_v3)) (W8 m ρ c (Proc.devRef .tc main_v6)) (W8 m ρ c (Proc.devRef .tc main_v43)) := by
  show StableHlo.after hostOps3 (W8 m ρ c) (Proc.devRef .tc main_v54) = _
  after_results
  rfl

set_option maxHeartbeats 2000000 in
/-- The third layer's bias as a row. -/
theorem W9_v55_raw :
    W9 m ρ c (Proc.devRef .tc main_v55) = rowvec (W8 m ρ c (Proc.devRef .tc main_arg9)) := by
  show StableHlo.after hostOps3 (W8 m ρ c) (Proc.devRef .tc main_v55) = _
  after_results
  rfl

set_option maxHeartbeats 2000000 in
/-- The graph words as a column. -/
theorem W9_v56_raw :
    W9 m ρ c (Proc.devRef .tc main_v56) = colI (W8 m ρ c (Proc.devRef .tc main_arg2)) := by
  show StableHlo.after hostOps3 (W8 m ρ c) (Proc.devRef .tc main_v56) = _
  after_results
  rfl

set_option maxHeartbeats 2000000 in
/-- The last stretch divides the pooled sums by the clipped counts and appends the metadata columns. -/
theorem W11_v63_raw :
    W11 m ρ c (Proc.devRef .tc main_v63) = featW (W10 m ρ c (Proc.devRef .tc main_v57_0)) (W10 m ρ c (Proc.devRef .tc main_v57_1)) (W10 m ρ c (Proc.devRef .tc main_arg3)) := by
  show StableHlo.after hostOps4 (W10 m ρ c) (Proc.devRef .tc main_v63) = _
  after_results
  rfl

set_option maxHeartbeats 2000000 in
/-- The head's first bias as a row. -/
theorem W11_v64_raw :
    W11 m ρ c (Proc.devRef .tc main_v64) = rowvec (W10 m ρ c (Proc.devRef .tc main_arg11)) := by
  show StableHlo.after hostOps4 (W10 m ρ c) (Proc.devRef .tc main_v64) = _
  after_results
  rfl

set_option maxHeartbeats 2000000 in
/-- The head's last bias as a one-by-one array. -/
theorem W11_v65_raw :
    W11 m ρ c (Proc.devRef .tc main_v65) = shapeCast S1x1 (W10 m ρ c (Proc.devRef .tc main_arg13)) shapeCasts_S1_S1x1 := by
  show StableHlo.after hostOps4 (W10 m ρ c) (Proc.devRef .tc main_v65) = _
  after_results
  rfl

/-! ## The calls' results, one after the other

Names for the stages of `KOut`: the node weights, each call's result, each sum over the edges. -/

set_option quotPrecheck false

local notation "eiK" => (m ((c.tc : Thread nD τ).loc main_arg1) : IVec S2x2000000 32)
local notation "dvK" => dvW eiK
local notation "y0K" => K0.G0 (m ((c.tc : Thread nD τ).loc main_arg0)) (m ((c.tc : Thread nD τ).loc main_arg4)) dvK
local notation "a0K" => aggW eiK y0K
local notation "y1K" => K1.G1 a0K dvK (rowvec (m ((c.tc : Thread nD τ).loc main_arg5))) (m ((c.tc : Thread nD τ).loc main_arg6))
local notation "a1K" => aggW eiK y1K
local notation "y2K" => K2.G2 a1K dvK (rowvec (m ((c.tc : Thread nD τ).loc main_arg7))) (m ((c.tc : Thread nD τ).loc main_arg8))
local notation "a2K" => aggW eiK y2K
local notation "btK" => colI (m ((c.tc : Thread nD τ).loc main_arg2))
local notation "fK" => featW (K3.G3s a2K dvK (rowvec (m ((c.tc : Thread nD τ).loc main_arg9))) btK) (K3.G3c btK) (m ((c.tc : Thread nD τ).loc main_arg3))

/-- The first call's result: the projected rows. -/
theorem W4_v17 : W4 m ρ c (Proc.devRef .tc main_v17) = y0K :=
  calc W4 m ρ c (Proc.devRef .tc main_v17)
    _ = (dat0 (V3 m ρ) c).arrAt 3 cfg0.N := W4_arr m ρ c 3
    _ = K0.G0 (W3 m ρ c (Proc.devRef .tc main_arg0)) (W3 m ρ c (Proc.devRef .tc main_arg4)) (W3 m ρ c (Proc.devRef .tc main_v16)) := K0.value0 (V3 m ρ) c
    _ = y0K := by rw [keep_W3_main_arg0, keep_W3_main_arg4, W3_v16]

/-- The sums over the edges of the first call's rows. -/
theorem W5_v28 : W5 m ρ c (Proc.devRef .tc main_v28) = a0K := by
  rw [W5_v28_raw, keep_W4_main_v3, keep_W4_main_v6, W3_v3, W3_v6, W4_v17, ← aggW_eq]

/-- The second call's result. -/
theorem W6_v30 : W6 m ρ c (Proc.devRef .tc main_v30) = y1K :=
  calc W6 m ρ c (Proc.devRef .tc main_v30)
    _ = (dat1 (V5 m ρ) c).arrAt 4 cfg1.N := W6_arr m ρ c 4
    _ = K1.G1 (W5 m ρ c (Proc.devRef .tc main_v28)) (W5 m ρ c (Proc.devRef .tc main_v16)) (W5 m ρ c (Proc.devRef .tc main_v29)) (W5 m ρ c (Proc.devRef .tc main_arg6)) := K1.value1 (V5 m ρ) c
    _ = y1K := by rw [W5_v28, keep_W5_main_v16, W3_v16, W5_v29_raw, keep_W4_main_arg5, keep_W5_main_arg6]

/-- The sums over the edges of the second call's rows. -/
theorem W7_v41 : W7 m ρ c (Proc.devRef .tc main_v41) = a1K := by
  rw [W7_v41_raw, keep_W6_main_v3, keep_W6_main_v6, W3_v3, W3_v6, W6_v30, ← aggW_eq]

/-- The third call's result. -/
theorem W8_v43 : W8 m ρ c (Proc.devRef .tc main_v43) = y2K :=
  calc W8 m ρ c (Proc.devRef .tc main_v43)
    _ = (dat2 (V7 m ρ) c).arrAt 4 cfg2.N := W8_arr m ρ c 4
    _ = K2.G2 (W7 m ρ c (Proc.devRef .tc main_v41)) (W7 m ρ c (Proc.devRef .tc main_v16)) (W7 m ρ c (Proc.devRef .tc main_v42)) (W7 m ρ c (Proc.devRef .tc main_arg8)) := K2.value2 (V7 m ρ) c
    _ = y2K := by rw [W7_v41, keep_W7_main_v16, W3_v16, W7_v42_raw, keep_W6_main_arg7, keep_W7_main_arg8]

/-- The sums over the edges of the third call's rows. -/
theorem W9_v54 : W9 m ρ c (Proc.devRef .tc main_v54) = a2K := by
  rw [W9_v54_raw, keep_W8_main_v3, keep_W8_main_v6, W3_v3, W3_v6, W8_v43, ← aggW_eq]

/-- The pooling call's first result: the sums per graph. -/
theorem W10_v57_0 : W10 m ρ c (Proc.devRef .tc main_v57_0) = K3.G3s a2K dvK (rowvec (m ((c.tc : Thread nD τ).loc main_arg9))) btK :=
  calc W10 m ρ c (Proc.devRef .tc main_v57_0)
    _ = (dat3 (V9 m ρ) c).arrAt 4 cfg3.N := W10_arr m ρ c 4
    _ = K3.G3s (W9 m ρ c (Proc.devRef .tc main_v54)) (W9 m ρ c (Proc.devRef .tc main_v16)) (W9 m ρ c (Proc.devRef .tc main_v55)) (W9 m ρ c (Proc.devRef .tc main_v56)) := K3.value3s (V9 m ρ) c
    _ = K3.G3s a2K dvK (rowvec (m ((c.tc : Thread nD τ).loc main_arg9))) btK := by
      rw [W9_v54, keep_W9_main_v16, W3_v16, W9_v55_raw, keep_W8_main_arg9, W9_v56_raw, keep_W8_main_arg2]

/-- The pooling call's second result: the counts per graph. -/
theorem W10_v57_1 : W10 m ρ c (Proc.devRef .tc main_v57_1) = K3.G3c btK :=
  calc W10 m ρ c (Proc.devRef .tc main_v57_1)
    _ = (dat3 (V9 m ρ) c).arrAt 5 cfg3.N := W10_arr m ρ c 5
    _ = K3.G3c (W9 m ρ c (Proc.devRef .tc main_v56)) := K3.value3c (V9 m ρ) c
    _ = K3.G3c btK := by rw [W9_v56_raw, keep_W8_main_arg2]

/-- The head's feature rows. -/
theorem W11_v63 : W11 m ρ c (Proc.devRef .tc main_v63) = fK := by
  rw [W11_v63_raw, W10_v57_0, W10_v57_1, keep_W10_main_arg3]

end Chain

/-- The last boundary's contents at the result buffer is `KOut`. -/
theorem kernel_value (m : (ℓ : Loc nD τ sig) → Buf (Elt Ideal) ℓ) (ρ : Dev nD → PrngReg) (c : Dev nD) :
    W12 m ρ c (Proc.devRef .tc main_v66) = KOut m c := by
  calc W12 m ρ c (Proc.devRef .tc main_v66)
    _ = (dat4 (V11 m ρ) c).arrAt 5 cfg4.N := W12_arr m ρ c 5
    _ = K4.G4 (W11 m ρ c (Proc.devRef .tc main_v63)) (W11 m ρ c (Proc.devRef .tc main_arg10)) (W11 m ρ c (Proc.devRef .tc main_v64)) (W11 m ρ c (Proc.devRef .tc main_arg12))
          (W11 m ρ c (Proc.devRef .tc main_v65)) := K4.value4 (V11 m ρ) c
    _ = KOut m c := by
      rw [W11_v63, keep_W11_main_arg10, W11_v64_raw, keep_W10_main_arg11, keep_W11_main_arg12, W11_v65_raw,
        keep_W10_main_arg13]
      rfl

end Cert.Gcn.KChain

end
-- ==== Proof.SpecOut.lean ====
/-
  Everything after the three layers, and the readings of arrays as functions of their coordinates.
-/
import proofs.«405875_j14018773254871_2_alg».proof.Proof.Spec

noncomputable section

namespace Cert.Gcn.Spec

open Idealize.ShloMosaic Idealize.ShloMosaic.ValueIdx

/-- A rank-1 array as a function of its coordinate. -/
abbrev cur1 {α : Type} {a : ℕ} (x : (⟨1, ![a]⟩ : Shape).Idx → α) : Fin a → α := fun i => x (ix1 i)

/-- A rank-2 array as a function of its two coordinates. -/
abbrev cur2 {α : Type} {a b : ℕ} (x : (⟨2, ![a, b]⟩ : Shape).Idx → α) : Fin a → Fin b → α := fun i j => x (ix2 i j)

/-- Pool the node rows H per graph (the count a sum of `oneC`, clipped below at `one`), append the metadata
    columns, apply the two dense layers. -/
def out (batch : Fin 100000 → BitVec 32) (oneC one : EReal) (H : Fin 100000 → Fin 64 → EReal)
    (md : Fin 1024 → Fin 4 → EReal) (Wh1 : Fin 68 → Fin 64 → EReal) (bh1 : Fin 64 → EReal)
    (Wh2 : Fin 64 → Fin 1 → EReal) (bh2 : Fin 1 → EReal) : Fin 1024 → Fin 1 → EReal :=
  head (feat (fun g c => Ideal.div (sums batch H g c) (max (cnt batch oneC g) one)) md) Wh1 bh1 Wh2 bh2

end Cert.Gcn.Spec

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibScatterHost.lean ====
/-
  The accumulating row scatter, read at one element, in the host operation's own spelling.

  An accumulating scatter of [e × f] update rows into an [n × f] array by an [e × 1] column of row words leaves at
  (r, c) the array's element plus column c of every update row whose word, read signed, is r. This is the statement
  of the index-map lemma with the operation written as the host program writes it.
-/
import proofs.«405875_j14018773254871_2_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.LibGatherClamp.lean ====
/-
  The one-index gathers read at one element, with the clamp kept.

  A gather whose start indices are an [e × 1] column (the index vector on axis 1, one component, sent to
  operand axis 0, that axis collapsed with a slice of one row) reads, for result row p, the operand row

      min (toNat (idx[p, 0] read as a signed integer)) (n - 1):

  a negative word is sent to row 0 (`Int.toNat` of a negative integer is 0) and a word at or past the
  number of rows n is sent to the last row n - 1.  Nothing is asked of the word.  With a rank-1 operand the
  result element p is that element of the operand; with an [n × f] operand whose second axis is an offset
  axis of full width, result element (p, c) is the operand's element (that row, c).

  Each statement takes the dimension numbers' fields as hypotheses, so it applies to any record with
  those fields; the operand must have at least one row for the clamped row to exist.
-/
import proofs.«405875_j14018773254871_2_alg».proof.Proof.LibIndexMaps

noncomputable section

namespace Cert.LibGatherClamp

open Idealize.ShloMosaic Idealize.ShloMosaic.ValueIdx Cert.Gcn.IndexMaps

/-- The clamped row lies in the operand: `min a (n - 1) < n` once the operand has a row. -/
theorem clamp_lt {n : ℕ} (hn : 0 < n) (a : ℕ) : min a (n - 1) < n :=
  Nat.lt_of_le_of_lt (Nat.min_le_right a (n - 1)) (Nat.sub_lt hn Nat.one_pos)

/-- Rank-1 operand of n ≥ 1 elements, [e × 1] start indices, rank-1 result: result element j is the
    operand's element `min (toNat (the word at (j, 0) read signed)) (n - 1)`, whatever the word is. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx) :
    Host.gather d x idx j
      = x (ix1 (⟨min (idx (ix2 (j 0) (0 : Fin 1))).toInt.toNat (n - 1), clamp_lt hn _⟩ : Fin n)) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0
    = min (idx (ix2 (j 0) (0 : Fin 1))).toInt.toNat (n - 1)
  rw [GatherDims.batchCoord_eq_zero _ _ _ hb, GatherDims.offCoord_eq_zero _ _ _ hkp]
  unfold GatherDims.start
  rw [dif_pos hm, gather_siIdx_rank1 d hivd j _ _ (0 : Fin 1) hi, hsl]
  show min (idx (ix2 (j 0) (0 : Fin 1))).toInt.toNat (n - 1) + 0 + 0
    = min (idx (ix2 (j 0) (0 : Fin 1))).toInt.toNat (n - 1)
  rfl

/-- A gather of a rank-1 operand of n ≥ 1 elements by an [e × 1] column of start indices reads, at result
    element p, operand element `min (toNat (idx[p, 0] read signed)) (n - 1)`: a negative word reads
    element 0, a word past the end reads the last element. -/
theorem gather1_clamp_ix_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p)
      = x (ix1 (⟨min (idx (ix2 p (0 : Fin 1))).toInt.toNat (n - 1), by omega⟩ : Fin n)) :=
  gather1_clamp_apply hn d hcoll hob hsim hivd x idx (ix1 p)

/-- [n × f] operand with n ≥ 1 rows, [e × 1] start indices, [e × f] result, the second axis an offset axis
    of full width: result element j = (p, c) is the operand's element
    (`min (toNat (the word at (p, 0) read signed)) (n - 1)`, c), whatever the word is. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx) :
    Host.gather d x idx j
      = x (ix2 (⟨min (idx (ix2 (j 0) (0 : Fin 1))).toInt.toNat (n - 1), clamp_lt hn _⟩ : Fin n)
            ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨min (idx (ix2 (j 0) (0 : Fin 1))).toInt.toNat (n - 1), clamp_lt hn _⟩ : Fin n)
        (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    show min (idx (ix2 (j 0) (0 : Fin 1))).toInt.toNat (n - 1) + 0 + 0
      = min (idx (ix2 (j 0) (0 : Fin 1))).toInt.toNat (n - 1)
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- A gather of an [n × f] operand with n ≥ 1 rows by an [e × 1] column of start indices, whole rows taken,
    reads at result element (p, c) the operand's element (`min (toNat (idx[p, 0] read signed)) (n - 1)`, c):
    a negative word reads row 0, a word past the end reads the last row. -/
theorem gather2_clamp_ix_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c)
      = x (ix2 (⟨min (idx (ix2 p (0 : Fin 1))).toInt.toNat (n - 1), by omega⟩ : Fin n) c) :=
  gather2_clamp_apply hn d hod hcoll hob hsim hivd x idx (ix2 p c)

end Cert.LibGatherClamp

end
-- ==== Proof.KSpec.lean ====
/-
  The kernel program's result as the specification's function.

  Each host stretch is read at one element.  The accumulating scatter leaves at (v, c) the sum, over the edges
  whose target word reads v, of column c of the gathered row; the gather reads the row its source word
  selects (a negative word has 100000 added, the result is clamped).  A reshape to a column or a row
  changes no value, the transpose of the count row swaps the two coordinates, a broadcast along an axis of
  extent 1 repeats the value, and the concatenation takes columns 0 … 63 from the pooled means and 64 … 67
  from the metadata.  With the five calls' arrays already functions of the specification, the nested
  expression collapses to three layers followed by the pooling head.
-/
import proofs.«405875_j14018773254871_2_alg».proof.Proof.KChain
import proofs.«405875_j14018773254871_2_alg».proof.Proof.SpecOut
import proofs.«405875_j14018773254871_2_alg».proof.Proof.LibScatterHost
import proofs.«405875_j14018773254871_2_alg».proof.Proof.LibGatherClamp
import Idealize.ShloMosaic.Lib.Pipeline.Value
import Idealize.ShloMosaic.Lib.ValueLayout

set_option maxRecDepth 16384

noncomputable section

namespace Cert.Gcn.KSpec

open Cert.KernelIdeal Cert.Gcn Cert.Gcn.Spec Cert.Gcn.KChain
open Idealize.ShloMosaic Idealize.ShloMosaic.TcCoe Idealize.ShloMosaic.ValueIdx Idealize.SL.Sem

/-! ## Layout operations read at one element -/

section Reads
variable {α : Type}

/-- A vector broadcast to a one-column matrix reads, at (e, 0), the vector's element e. -/
theorem bcast_col_apply {n : ℕ} (h : (⟨1, ![n]⟩ : Shape).BroadcastsInDim ⟨2, ![n, 1]⟩ ![0])
    (w : (⟨1, ![n]⟩ : Shape).Idx → α) (e : Fin n) (u : Fin 1) :
    broadcastInDim ⟨2, ![n, 1]⟩ ![0] h w (ix2 e u) = w (ix1 e) := by
  refine broadcastInDim_apply _ h w _ (ix1 e) fun a => ?_
  match a with
  | ⟨0, _⟩ =>
    show e.val = if n = 1 then 0 else e.val
    split
    · next h1 => have := e.isLt; omega
    · rfl

/-- A one-column matrix broadcast along its unit axis reads, at (g, c), the column's element (g, 0). -/
theorem bcast_cols_apply {n f : ℕ} (hn : n ≠ 1) (h : (⟨2, ![n, 1]⟩ : Shape).BroadcastsInDim ⟨2, ![n, f]⟩ ![0, 1])
    (x : (⟨2, ![n, 1]⟩ : Shape).Idx → α) (g : Fin n) (c : Fin f) :
    broadcastInDim ⟨2, ![n, f]⟩ ![0, 1] h x (ix2 g c) = x (ix2 g (0 : Fin 1)) := by
  refine broadcastInDim_apply _ h x _ (ix2 g (0 : Fin 1)) fun a => ?_
  match a with
  | ⟨0, _⟩ =>
    show g.val = if n = 1 then 0 else g.val
    rw [if_neg hn]
  | ⟨1, _⟩ => rfl

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Reads

/-! ## The gather by source and the sum by target -/

section HostReads
open Cert.KernelIdeal.Gen

/-- A float constant broadcast to any shape reads the constant's value everywhere. -/
theorem splat_apply {T : Shape} (h : S_.BroadcastsInDim T ![]) (b : BitVec 32) (j : T.Idx) :
    broadcastInDim T ![] h (constant (F := Ideal) S_ .f32 b) j = Ideal.ofBits .f32 b :=
  (broadcastInDim_apply _ h _ j ix0 (fun a => a.elim0)).trans (constant_apply (s := S_) (φ := .f32) b ix0)

/-- The source word with 100000 added where it is negative, at edge e. -/
theorem srcSel_apply (w : IVec S2100000 32) (e : Fin 2100000) :
    select (cmpi .slt w (broadcastInDim S2100000 ![] bcast_S_S2100000 (constantI S_ 32 0#32)))
        (addi w (broadcastInDim S2100000 ![] bcast_S_S2100000 (constantI S_ 32 100000#32))) w (ix1 e)
      = if (w (ix1 e)).slt 0#32 then w (ix1 e) + 100000#32 else w (ix1 e) := by
  show (if BitVec.ofBool ((w (ix1 e)).slt 0#32) = 1 then w (ix1 e) + 100000#32 else w (ix1 e)) = _
  rcases Bool.eq_false_or_eq_true ((w (ix1 e)).slt 0#32) with hb | hb <;> rw [hb] <;> rfl

/-- The gathered row of edge p is row `Spec.row` of its source word. -/
theorem gathered_apply (w : IVec S2100000 32) (y : FVec Ideal S100000x64 .bf16) (p : Fin 2100000) (c : Fin 64) :
    extf .f32
        (Host.gather gather_S100000x64_S2100000x1_S2100000x64_1_0_n_n_0_1_164 y
          (broadcastInDim S2100000x1 ![0] bcast_S2100000_S2100000x1_0
            (select (cmpi .slt w (broadcastInDim S2100000 ![] bcast_S_S2100000 (constantI S_ 32 0#32)))
              (addi w (broadcastInDim S2100000 ![] bcast_S_S2100000 (constantI S_ 32 100000#32))) w)))
        bitsLt_bf16_f32 (ix2 p c)
      = y (ix2 (Spec.row (w (ix1 p))) c) := by
  rw [extf_apply,
    Cert.LibGatherClamp.gather2_clamp_ix_apply (by decide : 0 < 100000)
      gather_S100000x64_S2100000x1_S2100000x64_1_0_n_n_0_1_164 rfl rfl rfl rfl rfl]
  refine congrArg (fun r => y (ix2 r c)) (Fin.ext ?_)
  show min _ (100000 - 1) = min _ 99999
  rw [bcast_col_apply, srcSel_apply]

/-- The sum by target of the rows gathered by source, at (v, c). -/
theorem aggW_apply (ei : IVec S2x2000000 32) (y : FVec Ideal S100000x64 .bf16) (v : Fin 100000) (c : Fin 64) :
    aggW ei y (ix2 v c) = Spec.aggK (cur1 (srcW ei)) (cur1 (dstW ei)) (fun n c => y (ix2 n c)) v c := by
  unfold aggW Spec.aggK
  rw [Cert.LibScatterHost.scatterAdd2_apply scatter_S100000x64_S2100000x1_S2100000x64_1_0_0_1 rfl rfl rfl rfl]
  refine congrArg₂ (· + ·) ?_ ?_
  · rw [splat_apply]; exact Ideal.ofBits_zero_f32
  · refine Finset.sum_congr rfl fun p _ => ?_
    rw [bcast_col_apply, gathered_apply]

end HostReads

/-! ## The pooled means with the metadata appended -/

section Feat
open Cert.KernelIdeal.Gen

/-- Column j of the feature row of graph g: the pooled mean for j < 64, metadata column j - 64 otherwise. -/
theorem featW_apply (sums : FVec Ideal S1024x64 .f32) (counts : FVec Ideal S1x1024 .f32) (md : FVec Ideal S1024x4 .f32)
    (g : Fin 1024) (j : Fin 68) :
    featW sums counts md (ix2 g j)
      = Spec.feat (fun g c => Ideal.div (sums (ix2 g c))
          (max (counts (ix2 (0 : Fin 1) g)) (Ideal.ofBits .f32 0x3F800000#32))) (cur2 md) g j := by
  unfold featW Spec.feat
  by_cases hj : j.val < 64
  · rw [dif_pos hj]
    refine (concatenate_pair_apply_left (t := S1024x68) (s₁ := S1024x64) (s₂ := S1024x4) 1 _ _ _ (ix2 g j) rfl (ix2 g (⟨j.val, hj⟩ : Fin 64))
      (fun b => match b with | ⟨0, _⟩ => rfl | ⟨1, _⟩ => rfl)).trans ?_
    show Ideal.div (sums (ix2 g ⟨j.val, hj⟩)) _ = Ideal.div (sums (ix2 g ⟨j.val, hj⟩)) _
    refine congrArg (Ideal.div (sums (ix2 g ⟨j.val, hj⟩))) ?_
    rw [bcast_cols_apply (by decide), maximumf_apply, splat_apply, transpose_ix2_apply]
  · rw [dif_neg hj]
    have hj' : j.val - 64 < 4 := by have := j.isLt; omega
    refine concatenate_pair_apply_right (t := S1024x68) (s₁ := S1024x64) (s₂ := S1024x4) 1 _ _ _ (ix2 g j) rfl rfl (ix2 g (⟨j.val - 64, hj'⟩ : Fin 4))
      (fun b hb => match b, hb with
        | ⟨0, _⟩, _ => rfl
        | ⟨1, _⟩, hb => absurd rfl hb) ?_
    show j.val - 64 + 64 = j.val
    omega

end Feat

/-! ## The reshapes of the program's own arrays -/

section Assembly
open Cert.KernelIdeal.Gen

/-- The weight column at (n, 0) is the weight of node n. -/
theorem dvW_apply (ei : IVec S2x2000000 32) (n : Fin 100000) (u : Fin 1) :
    dvW ei (ix2 n u) = dinvW ei (ix1 n) :=
  shapeCast_a_a1_apply _ _ n u

/-- A bias as a one-row array at (0, k) is the bias at k. -/
theorem rowvec_apply (b : FVec Ideal S64 .f32) (u : Fin 1) (k : Fin 64) : rowvec b (ix2 u k) = b (ix1 k) :=
  shapeCast_a_1a_apply _ _ u k

/-- The graph words as a column at (n, 0) are the word of node n. -/
theorem colI_apply (bt : IVec S100000 32) (n : Fin 100000) (u : Fin 1) : colI bt (ix2 n u) = bt (ix1 n) :=
  shapeCast_a_a1_apply _ _ n u

/-- The one-element bias as a 1 × 1 array. -/
theorem cast11_apply (b : FVec Ideal S1 .f32) (u o : Fin 1) :
    shapeCast S1x1 b shapeCasts_S1_S1x1 (ix2 u o) = b (ix1 o) :=
  shapeCast_a_1a_apply _ _ u o

/-! ## The five calls' arrays and the host stretches as functions of coordinates -/

/-- The sum by target of the rows gathered by source, as a function of (node, channel). -/
theorem agg_eq (ei : IVec S2x2000000 32) (y : FVec Ideal S100000x64 .bf16) :
    cur2 (aggW ei y) = Spec.aggK (cur1 (srcW ei)) (cur1 (dstW ei)) (cur2 y) := by
  funext v c
  exact aggW_apply ei y v c

/-- The first call's array: the weighted projection of the node features. -/
theorem G0_eq (ei : IVec S2x2000000 32) (x : S100000x9.Idx → EReal) (w : S9x64.Idx → EReal) :
    cur2 (K0.G0 x w (dvW ei)) = Spec.projK (cur1 (dinvW ei)) (cur2 x) (cur2 w) := by
  funext n c
  unfold K0.G0
  simp only [dvW_apply]

/-- The second call's array: the weighted projection of the activated sums. -/
theorem G1_eq (ei : IVec S2x2000000 32) (a : S100000x64.Idx → EReal) (b : FVec Ideal S64 .f32) (w : S64x64.Idx → EReal) :
    cur2 (K1.G1 a (dvW ei) (rowvec b) w)
      = Spec.projK (cur1 (dinvW ei)) (Spec.actK (cur1 (dinvW ei)) (cur2 a) (cur1 b)) (cur2 w) := by
  funext n c
  unfold K1.G1
  simp only [dvW_apply, rowvec_apply]

/-- The third call's array: the same one layer later. -/
theorem G2_eq (ei : IVec S2x2000000 32) (a : S100000x64.Idx → EReal) (b : FVec Ideal S64 .f32) (w : S64x64.Idx → EReal) :
    cur2 (K2.G2 a (dvW ei) (rowvec b) w)
      = Spec.projK (cur1 (dinvW ei)) (Spec.actK (cur1 (dinvW ei)) (cur2 a) (cur1 b)) (cur2 w) := by
  funext n c
  unfold K2.G2
  simp only [dvW_apply, rowvec_apply]

/-- The fourth call's first array at (g, c): the activations summed over the nodes of graph g. -/
theorem G3s_apply (a : S100000x64.Idx → EReal) (dv : S100000x1.Idx → EReal) (b : S1x64.Idx → EReal)
    (bt : S100000x1.Idx → BitVec 32) (g : Fin 1024) (c : Fin 64) :
    K3.G3s a dv b bt (ix2 g c)
      = Spec.sums (fun n => bt (ix2 n (0 : Fin 1)))
          (Spec.actK (fun n => dv (ix2 n (0 : Fin 1))) (fun n k => a (ix2 n k)) (fun k => b (ix2 (0 : Fin 1) k))) g c := rfl

/-- The fourth call's second array at (0, g): the number of nodes of graph g, as a sum of ones. -/
theorem G3c_apply (bt : S100000x1.Idx → BitVec 32) (u : Fin 1) (g : Fin 1024) :
    K3.G3c bt (ix2 u g) = Spec.cnt (fun n => bt (ix2 n (0 : Fin 1))) 1 g := rfl

/-- The feature rows: pooled means of the last layer's activations over clipped counts, then the metadata. -/
theorem feat_eq (ei : IVec S2x2000000 32) (a : S100000x64.Idx → EReal) (b : FVec Ideal S64 .f32) (bt : IVec S100000 32)
    (md : FVec Ideal S1024x4 .f32) :
    cur2 (featW (K3.G3s a (dvW ei) (rowvec b) (colI bt)) (K3.G3c (colI bt)) md)
      = Spec.feat (fun g c => Ideal.div
            (Spec.sums (cur1 bt) (Spec.actK (cur1 (dinvW ei)) (cur2 a) (cur1 b)) g c)
            (max (Spec.cnt (cur1 bt) 1 g) (Ideal.ofBits .f32 0x3F800000#32))) (cur2 md) := by
  funext g j
  show featW _ _ md (ix2 g j) = _
  rw [featW_apply]
  refine congrArg (fun P => Spec.feat P (cur2 md) g j) ?_
  funext g c
  refine congrArg₂ (fun s n => Ideal.div s (max n (Ideal.ofBits .f32 0x3F800000#32))) ?_ ?_
  · rw [G3s_apply]
    simp only [dvW_apply, rowvec_apply, colI_apply]
  · rw [G3c_apply]
    simp only [colI_apply]

/-- The last call's array: the two dense layers of the head. -/
theorem G4_eq (z : S1024x68.Idx → EReal) (w1 : S68x64.Idx → EReal) (b1 : FVec Ideal S64 .f32) (w2 : S64x1.Idx → EReal)
    (b2 : FVec Ideal S1 .f32) :
    K4.G4 z w1 (rowvec b1) w2 (shapeCast S1x1 b2 shapeCasts_S1_S1x1)
      = fun i => Spec.head (cur2 z) (cur2 w1) (cur1 b1) (cur2 w2) (cur1 b2) (i 0) (i 1) := by
  funext i
  unfold K4.G4
  simp only [rowvec_apply, cast11_apply]

end Assembly

/-- The kernel program's result is three split-weight layers followed by the pooling head, read off the
    argument arrays. -/
theorem kout_spec (m : (ℓ : Loc nD τ sig) → Buf (Elt Ideal) ℓ) (c : Dev nD) :
    KOut m c = fun i =>
      Spec.out (cur1 (m ((c.tc : Thread nD τ).loc main_arg2))) 1 (Ideal.ofBits .f32 0x3F800000#32)
        (Spec.netK (cur1 (srcW (m ((c.tc : Thread nD τ).loc main_arg1))))
          (cur1 (dstW (m ((c.tc : Thread nD τ).loc main_arg1))))
          (cur1 (dinvW (m ((c.tc : Thread nD τ).loc main_arg1))))
          (cur2 (m ((c.tc : Thread nD τ).loc main_arg0))) (cur2 (m ((c.tc : Thread nD τ).loc main_arg4)))
          (cur1 (m ((c.tc : Thread nD τ).loc main_arg5))) (cur2 (m ((c.tc : Thread nD τ).loc main_arg6)))
          (cur1 (m ((c.tc : Thread nD τ).loc main_arg7))) (cur2 (m ((c.tc : Thread nD τ).loc main_arg8)))
          (cur1 (m ((c.tc : Thread nD τ).loc main_arg9))))
        (cur2 (m ((c.tc : Thread nD τ).loc main_arg3))) (cur2 (m ((c.tc : Thread nD τ).loc main_arg10)))
        (cur1 (m ((c.tc : Thread nD τ).loc main_arg11))) (cur2 (m ((c.tc : Thread nD τ).loc main_arg12)))
        (cur1 (m ((c.tc : Thread nD τ).loc main_arg13))) (i 0) (i 1) := by
  unfold KOut
  dsimp only
  rw [G4_eq, feat_eq, agg_eq, G2_eq, agg_eq, G1_eq, agg_eq, G0_eq]
  rfl

end Cert.Gcn.KSpec

end
-- ==== Proof.RefLayers.lean ====
/-
  The reference's three layers as the specification's function.

  Each operation of the reference is read at one element.  The products X W are sums over the channel axis;
  the edge weight is the product of the two gathered node weights; the accumulating scatter leaves at (v, c)
  the sum, over the edges whose target word reads v, of the weighted gathered row's column c; the bias is
  broadcast along the node axis and the result clipped below at zero.
-/
import proofs.«405875_j14018773254871_2_alg».proof.Proof.RefRead
import proofs.«405875_j14018773254871_2_alg».proof.Proof.SpecOut
import proofs.«405875_j14018773254871_2_alg».proof.Proof.LibScatterHost
import proofs.«405875_j14018773254871_2_alg».proof.Proof.LibGatherClamp
import Idealize.ShloMosaic.Lib.Pipeline.Value
import Idealize.ShloMosaic.Lib.ValueLayout

set_option maxRecDepth 16384

noncomputable section

namespace Cert.Gcn.RefLayers

open Cert.ReferenceIdeal Cert.ReferenceIdeal.ReadP Cert.Gcn Cert.Gcn.Spec
open Idealize.ShloMosaic Idealize.ShloMosaic.TcCoe Idealize.ShloMosaic.ValueIdx

/-! ## The word a row is read by -/

/-- The word the program forms from an index word w: w + 100000 where w is negative, else w. -/
def selWord (w : BitVec 32) : BitVec 32 :=
  Scalar.select (IntOp.cmpi .slt w 0#32) (IntOp.addi w 100000#32) w

/-- The program's select on the signed comparison is the choice on `BitVec.slt`. -/
theorem selWord_eq (w : BitVec 32) : selWord w = if w.slt 0#32 then w + 100000#32 else w := by
  have hc : IntOp.cmpi .slt w 0#32 = BitVec.ofBool (w.slt 0#32) := rfl
  unfold selWord Scalar.select IntOp.addi
  rw [hc]
  cases w.slt 0#32
  · rw [if_neg (by decide), if_neg (by decide)]
  · rw [if_pos (by decide), if_pos rfl]

/-- That word, read signed and clamped into the table, is the row the specification names. -/
theorem selWord_row (w : BitVec 32) (h : min (selWord w).toInt.toNat (100000 - 1) < 100000) :
    (⟨min (selWord w).toInt.toNat (100000 - 1), h⟩ : Fin 100000) = Spec.row w := by
  apply Fin.ext
  show min (selWord w).toInt.toNat (100000 - 1)
    = min ((if w.slt 0#32 then w + 100000#32 else w).toInt.toNat) 99999
  rw [selWord_eq]

/-! ## The program's gathers and its scatter, read at one element -/

/-- The gather of node weights by a column of words reads the clamped row. -/
theorem gatherW_apply (x : FVec Ideal S100000 .f32) (idx : IVec S2100000x1 32) (e : Fin 2100000) :
    Host.gather gather_S100000_S2100000x1_S2100000_n_0_n_n_0_1_1 x idx (ix1 e)
      = x (ix1 (⟨min (idx (ix2 e (0 : Fin 1))).toInt.toNat (100000 - 1), by omega⟩ : Fin 100000)) :=
  Cert.LibGatherClamp.gather1_clamp_ix_apply (n := 100000) (e := 2100000) (by norm_num)
    gather_S100000_S2100000x1_S2100000_n_0_n_n_0_1_1 rfl rfl rfl rfl x idx e

/-- The gather of feature rows by a column of words reads the clamped row, column by column. -/
theorem gatherY_apply (x : FVec Ideal S100000x64 .f32) (idx : IVec S2100000x1 32) (e : Fin 2100000) (c : Fin 64) :
    Host.gather gather_S100000x64_S2100000x1_S2100000x64_1_0_n_n_0_1_164 x idx (ix2 e c)
      = x (ix2 (⟨min (idx (ix2 e (0 : Fin 1))).toInt.toNat (100000 - 1), by omega⟩ : Fin 100000) c) :=
  Cert.LibGatherClamp.gather2_clamp_ix_apply (n := 100000) (f := 64) (e := 2100000) (by norm_num)
    gather_S100000x64_S2100000x1_S2100000x64_1_0_n_n_0_1_164 rfl rfl rfl rfl rfl x idx e c

/-- The accumulating scatter leaves at (v, c) the operand plus the update rows whose word reads v. -/
theorem scatter_apply (x : FVec Ideal S100000x64 .f32) (idx : IVec S2100000x1 32) (upd : FVec Ideal S2100000x64 .f32)
    (v : Fin 100000) (c : Fin 64) :
    Host.scatterAdd (F := Ideal) scatter_S100000x64_S2100000x1_S2100000x64_1_0_0_1 x idx upd (ix2 v c)
      = x (ix2 v c) + ∑ p : Fin 2100000,
          if (idx (ix2 p (0 : Fin 1))).toInt = ((v.val : ℕ) : Int) then upd (ix2 p c) else 0 :=
  Cert.LibScatterHost.scatterAdd2_apply (n := 100000) (f := 64) (e := 2100000)
    scatter_S100000x64_S2100000x1_S2100000x64_1_0_0_1 rfl rfl rfl rfl x idx upd v c

/-! ## The shared pieces of a layer, read at an edge -/

/-- The source column at edge e holds the program's word for the source word of e. -/
theorem srcCol_apply (x1 : IVec S2x2000000 32) (e : Fin 2100000) :
    val_main_v37 (F := Ideal) x1 (ix2 e 0) = selWord (val_main_v3 (F := Ideal) x1 (ix1 e)) := by
  have hi : idx_main_v37 (ix2 e (0 : Fin 1)) = ix1 e := funext fun a => match a with | ⟨0, _⟩ => rfl
  rw [val_main_v37_apply, val_main_v36_apply, val_main_v33_apply, val_main_v35_apply, val_main_v32_apply,
    val_main_v34_apply, val_main_c_7_apply, val_main_c_8_apply, hi]
  rfl

/-- The target column of the edge weights at edge e holds the program's word for the target word of e. -/
theorem dstCol_apply (x1 : IVec S2x2000000 32) (e : Fin 2100000) :
    val_main_v28 (F := Ideal) x1 (ix2 e 0) = selWord (val_main_v6 (F := Ideal) x1 (ix1 e)) := by
  have hi : idx_main_v28 (ix2 e (0 : Fin 1)) = ix1 e := funext fun a => match a with | ⟨0, _⟩ => rfl
  rw [val_main_v28_apply, val_main_v27_apply, val_main_v24_apply, val_main_v26_apply, val_main_v23_apply,
    val_main_v25_apply, val_main_c_5_apply, val_main_c_6_apply, hi]
  rfl

/-- The row the source column selects at edge e. -/
theorem srcRow_eq (x1 : IVec S2x2000000 32) (e : Fin 2100000)
    (h : min (val_main_v37 (F := Ideal) x1 (ix2 e (0 : Fin 1))).toInt.toNat (100000 - 1) < 100000) :
    (⟨min (val_main_v37 (F := Ideal) x1 (ix2 e (0 : Fin 1))).toInt.toNat (100000 - 1), h⟩ : Fin 100000)
      = Spec.row (val_main_v3 (F := Ideal) x1 (ix1 e)) := by
  refine Eq.trans (Fin.ext ?_) (selWord_row _ (by omega))
  show min (val_main_v37 (F := Ideal) x1 (ix2 e 0)).toInt.toNat (100000 - 1) = _
  rw [srcCol_apply]

/-- The row the weights' target column selects at edge e. -/
theorem dstRow_eq (x1 : IVec S2x2000000 32) (e : Fin 2100000)
    (h : min (val_main_v28 (F := Ideal) x1 (ix2 e (0 : Fin 1))).toInt.toNat (100000 - 1) < 100000) :
    (⟨min (val_main_v28 (F := Ideal) x1 (ix2 e (0 : Fin 1))).toInt.toNat (100000 - 1), h⟩ : Fin 100000)
      = Spec.row (val_main_v6 (F := Ideal) x1 (ix1 e)) := by
  refine Eq.trans (Fin.ext ?_) (selWord_row _ (by omega))
  show min (val_main_v28 (F := Ideal) x1 (ix2 e 0)).toInt.toNat (100000 - 1) = _
  rw [dstCol_apply]

/-- The scatter's target column at edge e is the target word of e itself. -/
theorem tgtCol_apply (x1 : IVec S2x2000000 32) (e : Fin 2100000) :
    val_main_v43 (F := Ideal) x1 (ix2 e 0) = val_main_v6 (F := Ideal) x1 (ix1 e) := by
  have hi : idx_main_v43 (ix2 e (0 : Fin 1)) = ix1 e := funext fun a => match a with | ⟨0, _⟩ => rfl
  rw [val_main_v43_apply, hi]

/-- The edge weight: the node weight of the source row times the node weight of the target row. -/
theorem weight_apply (x1 : IVec S2x2000000 32) (e : Fin 2100000) :
    val_main_v30 (F := Ideal) x1 (ix1 e)
      = val_main_v15 (F := Ideal) x1 (ix1 (Spec.row (val_main_v3 (F := Ideal) x1 (ix1 e))))
        * val_main_v15 (F := Ideal) x1 (ix1 (Spec.row (val_main_v6 (F := Ideal) x1 (ix1 e)))) := by
  have h22 : val_main_v22 (F := Ideal) x1 (ix1 e)
      = val_main_v15 (F := Ideal) x1 (ix1 (Spec.row (val_main_v3 (F := Ideal) x1 (ix1 e)))) := by
    show Host.gather gather_S100000_S2100000x1_S2100000_n_0_n_n_0_1_1 (val_main_v15 (F := Ideal) x1)
      (val_main_v37 (F := Ideal) x1) (ix1 e) = _
    rw [gatherW_apply, srcRow_eq]
  have h29 : val_main_v29 (F := Ideal) x1 (ix1 e)
      = val_main_v15 (F := Ideal) x1 (ix1 (Spec.row (val_main_v6 (F := Ideal) x1 (ix1 e)))) := by
    show Host.gather gather_S100000_S2100000x1_S2100000_n_0_n_n_0_1_1 (val_main_v15 (F := Ideal) x1)
      (val_main_v28 (F := Ideal) x1) (ix1 e) = _
    rw [gatherW_apply, dstRow_eq]
  rw [val_main_v30_apply, Ideal.mulf_def, h22, h29]

/-- The weights broadcast along the channel axis, at (e, c). -/
theorem wcol_apply (x1 : IVec S2x2000000 32) (e : Fin 2100000) (c : Fin 64) :
    val_main_v40 (F := Ideal) x1 (ix2 e c) = val_main_v30 (F := Ideal) x1 (ix1 e) := by
  have hi : idx_main_v39 (idx_main_v40 (ix2 e c)) = ix1 e := funext fun a => match a with | ⟨0, _⟩ => rfl
  rw [val_main_v40_apply, val_main_v39_apply, hi]

/-- The array the scatter accumulates into is zero everywhere. -/
theorem zero_apply (i : S100000x64.Idx) : val_main_v42 (F := Ideal) i = 0 := by
  rw [val_main_v42_apply, val_main_cst_9_apply, Ideal.ofBits_def, Ideal.ofBits_zero_f32]

/-- The bias broadcast along the node axis, at (v, c). -/
theorem bias_apply (b : FVec Ideal S64 .f32) (v : Fin 100000) (c : Fin 64) :
    val_main_v46 (F := Ideal) b (ix2 v c) = b (ix1 c) := by
  have hi : idx_main_v45 (idx_main_v46 (ix2 v c)) = ix1 c := funext fun a => match a with | ⟨0, _⟩ => rfl
  rw [val_main_v46_apply, val_main_v45_apply, hi]

/-! ## One layer over any projected features -/

/-- The operations of one layer after the projection: gather the source rows of Y, weight them, accumulate them by
    target word into zeros, add the bias, clip below at zero. -/
def stage (Y : FVec Ideal S100000x64 .f32) (x1 : IVec S2x2000000 32) (b : FVec Ideal S64 .f32) :
    FVec Ideal S100000x64 .f32 :=
  maximumf (addf (Host.scatterAdd (F := Ideal) scatter_S100000x64_S2100000x1_S2100000x64_1_0_0_1
      (val_main_v42 (F := Ideal)) (val_main_v43 (F := Ideal) x1)
      (mulf (Host.gather gather_S100000x64_S2100000x1_S2100000x64_1_0_n_n_0_1_164 Y (val_main_v37 (F := Ideal) x1))
        (val_main_v40 (F := Ideal) x1)))
    (val_main_v46 (F := Ideal) b)) (val_main_v42 (F := Ideal))

/-- Read at (v, c), those operations are the specification's weighted sum over the edges that end at v, plus the bias,
    clipped. -/
theorem stage_apply (Y : FVec Ideal S100000x64 .f32) (x1 : IVec S2x2000000 32) (b : FVec Ideal S64 .f32)
    (v : Fin 100000) (c : Fin 64) :
    stage Y x1 b (ix2 v c)
      = Spec.actR (Spec.aggR (cur1 (val_main_v3 (F := Ideal) x1)) (cur1 (val_main_v6 (F := Ideal) x1))
          (cur1 (val_main_v15 (F := Ideal) x1)) (cur2 Y)) (cur1 b) v c := by
  unfold stage
  rw [maximumf_apply, addf_apply, zero_apply, bias_apply, scatter_apply, zero_apply]
  unfold Spec.actR Spec.aggR
  refine congrArg (fun t => max (t + b (ix1 c)) 0) ?_
  refine congrArg (fun t => 0 + t) (Finset.sum_congr rfl fun e _ => ?_)
  rw [tgtCol_apply, mulf_apply, gatherY_apply, wcol_apply, weight_apply, srcRow_eq]

/-! ## The projections, and the three layers -/

/-- A product of a feature array with a square weight matrix, read at (v, c), given its sum form. -/
theorem lin_of_apply {k : ℕ} (P : FVec Ideal S100000x64 .f32) (X : FVec Ideal ⟨2, ![100000, k]⟩ .f32)
    (W : FVec Ideal ⟨2, ![k, 64]⟩ .f32)
    (h : ∀ (v : Fin 100000) (c : Fin 64), P (ix2 v c) = ∑ j : Fin k, X (ix2 v j) * W (ix2 j c)) :
    cur2 P = Spec.lin (cur2 X) (cur2 W) := by
  funext v c
  exact h v c

/-- The first projection is X W. -/
theorem proj1 (x0 : FVec Ideal S100000x9 .f32) (x4 : FVec Ideal S9x64 .f32) :
    cur2 (val_main_v31 (F := Ideal) x0 x4) = Spec.lin (cur2 x0) (cur2 x4) := by
  refine lin_of_apply _ x0 x4 fun v c => ?_
  rw [val_main_v31_apply]
  refine Finset.sum_congr rfl fun k _ => ?_
  have hl : lidx_main_v31 (ix2 v c) k = ix2 v k := funext fun a => match a with | ⟨0, _⟩ => rfl | ⟨1, _⟩ => rfl
  have hr : ridx_main_v31 (ix2 v c) k = ix2 k c := funext fun a => match a with | ⟨0, _⟩ => rfl | ⟨1, _⟩ => rfl
  rw [hl, hr]

/-- The second projection is (first layer) W1. -/
theorem proj2 (x0 : FVec Ideal S100000x9 .f32) (x1 : IVec S2x2000000 32) (x4 : FVec Ideal S9x64 .f32)
    (x5 : FVec Ideal S64 .f32) (x6 : FVec Ideal S64x64 .f32) :
    cur2 (val_main_v49 (F := Ideal) x0 x1 x4 x5 x6)
      = Spec.lin (cur2 (val_main_v48 (F := Ideal) x0 x1 x4 x5)) (cur2 x6) := by
  refine lin_of_apply _ (val_main_v48 (F := Ideal) x0 x1 x4 x5) x6 fun v c => ?_
  rw [val_main_v49_apply]
  refine Finset.sum_congr rfl fun k _ => ?_
  have hl : lidx_main_v49 (ix2 v c) k = ix2 v k := funext fun a => match a with | ⟨0, _⟩ => rfl | ⟨1, _⟩ => rfl
  have hr : ridx_main_v49 (ix2 v c) k = ix2 k c := funext fun a => match a with | ⟨0, _⟩ => rfl | ⟨1, _⟩ => rfl
  rw [hl, hr]

/-- The third projection is (second layer) W2. -/
theorem proj3 (x0 : FVec Ideal S100000x9 .f32) (x1 : IVec S2x2000000 32) (x4 : FVec Ideal S9x64 .f32)
    (x5 : FVec Ideal S64 .f32) (x6 : FVec Ideal S64x64 .f32) (x7 : FVec Ideal S64 .f32) (x8 : FVec Ideal S64x64 .f32) :
    cur2 (val_main_v67 (F := Ideal) x0 x1 x4 x5 x6 x7 x8)
      = Spec.lin (cur2 (val_main_v66 (F := Ideal) x0 x1 x4 x5 x6 x7)) (cur2 x8) := by
  refine lin_of_apply _ (val_main_v66 (F := Ideal) x0 x1 x4 x5 x6 x7) x8 fun v c => ?_
  rw [val_main_v67_apply]
  refine Finset.sum_congr rfl fun k _ => ?_
  have hl : lidx_main_v67 (ix2 v c) k = ix2 v k := funext fun a => match a with | ⟨0, _⟩ => rfl | ⟨1, _⟩ => rfl
  have hr : ridx_main_v67 (ix2 v c) k = ix2 k c := funext fun a => match a with | ⟨0, _⟩ => rfl | ⟨1, _⟩ => rfl
  rw [hl, hr]

/-- A layer's operations over the projection Y = X W are the specification's layer over X. -/
theorem stage_layer {k : ℕ} (Y : FVec Ideal S100000x64 .f32) (x1 : IVec S2x2000000 32) (b : FVec Ideal S64 .f32)
    (X : Fin 100000 → Fin k → EReal) (W : Fin k → Fin 64 → EReal) (hY : cur2 Y = Spec.lin X W) :
    cur2 (stage Y x1 b)
      = Spec.layerR (cur1 (val_main_v3 (F := Ideal) x1)) (cur1 (val_main_v6 (F := Ideal) x1))
          (cur1 (val_main_v15 (F := Ideal) x1)) X W (cur1 b) := by
  funext v c
  show stage Y x1 b (ix2 v c) = _
  rw [stage_apply, hY]
  rfl

/-- The three stages are the layer's operations over their projections. -/
theorem v48_eq (x0 : FVec Ideal S100000x9 .f32) (x1 : IVec S2x2000000 32) (x4 : FVec Ideal S9x64 .f32)
    (x5 : FVec Ideal S64 .f32) :
    val_main_v48 (F := Ideal) x0 x1 x4 x5 = stage (val_main_v31 (F := Ideal) x0 x4) x1 x5 := rfl

theorem v66_eq (x0 : FVec Ideal S100000x9 .f32) (x1 : IVec S2x2000000 32) (x4 : FVec Ideal S9x64 .f32)
    (x5 : FVec Ideal S64 .f32) (x6 : FVec Ideal S64x64 .f32) (x7 : FVec Ideal S64 .f32) :
    val_main_v66 (F := Ideal) x0 x1 x4 x5 x6 x7 = stage (val_main_v49 (F := Ideal) x0 x1 x4 x5 x6) x1 x7 := rfl

theorem v84_eq (x0 : FVec Ideal S100000x9 .f32) (x1 : IVec S2x2000000 32) (x4 : FVec Ideal S9x64 .f32)
    (x5 : FVec Ideal S64 .f32) (x6 : FVec Ideal S64x64 .f32) (x7 : FVec Ideal S64 .f32)
    (x8 : FVec Ideal S64x64 .f32) (x9 : FVec Ideal S64 .f32) :
    val_main_v84 (F := Ideal) x0 x1 x4 x5 x6 x7 x8 x9
      = stage (val_main_v67 (F := Ideal) x0 x1 x4 x5 x6 x7 x8) x1 x9 := rfl

/-- The reference's node activations after its three layers are three per-edge-weight layers read off the
    argument arrays. -/
theorem layers_spec (x0 : FVec Ideal S100000x9 .f32) (x1 : IVec S2x2000000 32) (x4 : FVec Ideal S9x64 .f32)
    (x5 : FVec Ideal S64 .f32) (x6 : FVec Ideal S64x64 .f32) (x7 : FVec Ideal S64 .f32)
    (x8 : FVec Ideal S64x64 .f32) (x9 : FVec Ideal S64 .f32) :
    val_main_v84 (F := Ideal) x0 x1 x4 x5 x6 x7 x8 x9 = fun i =>
      Spec.netR (cur1 (val_main_v3 (F := Ideal) x1)) (cur1 (val_main_v6 (F := Ideal) x1))
        (cur1 (val_main_v15 (F := Ideal) x1)) (cur2 x0) (cur2 x4) (cur1 x5) (cur2 x6) (cur1 x7) (cur2 x8) (cur1 x9)
        (i 0) (i 1) := by
  -- layer by layer: each stage is the layer's operations over its projection
  have h1 := stage_layer (val_main_v31 (F := Ideal) x0 x4) x1 x5 (cur2 x0) (cur2 x4) (proj1 x0 x4)
  rw [← v48_eq] at h1
  have h2 := stage_layer (val_main_v49 (F := Ideal) x0 x1 x4 x5 x6) x1 x7 _ (cur2 x6) (proj2 x0 x1 x4 x5 x6)
  rw [← v66_eq, h1] at h2
  have h3 := stage_layer (val_main_v67 (F := Ideal) x0 x1 x4 x5 x6 x7 x8) x1 x9 _ (cur2 x8)
    (proj3 x0 x1 x4 x5 x6 x7 x8)
  rw [← v84_eq, h2] at h3
  funext i
  obtain ⟨v, c, rfl⟩ : ∃ (v : Fin 100000) (c : Fin 64), i = ix2 v c := ⟨i 0, i 1, eq_ix2 i⟩
  exact congrFun (congrFun h3 v) c

end Cert.Gcn.RefLayers

end
-- ==== Proof.RefHead.lean ====
/-
  The reference's pooling and head as the specification's function.

  The accumulating scatter by graph word leaves at (g, c) the sum of column c of the rows whose word reads g,
  and, of a vector of ones, the number of such rows; the mean divides by the count clipped below at 1; the
  concatenation takes columns 0 … 63 from the means and 64 … 67 from the metadata; the two dense layers are
  sums over 68 and over 64 columns.
-/
import proofs.«405875_j14018773254871_2_alg».proof.Proof.RefLayers

set_option maxRecDepth 16384

noncomputable section

namespace Cert.Gcn.RefHead

open Cert.ReferenceIdeal Cert.ReferenceIdeal.ReadP Cert.Gcn Cert.Gcn.Spec
open Idealize.ShloMosaic Idealize.ShloMosaic.TcCoe Idealize.ShloMosaic.ValueIdx

/-- The column of graph words read at row n is the word of node n. -/
theorem word_col (x2 : IVec S100000 32) (n : Fin 100000) :
    val_main_v86 (F := Ideal) x2 (ix2 n (0 : Fin 1)) = x2 (ix1 n) := by
  rw [val_main_v86_apply]
  exact congrArg x2 (funext fun a => match a with | ⟨0, _⟩ => rfl)

/-- The accumulating scatter of the rows of H by graph word into zeros: at (g, c) the sum of column c of the
    rows whose word reads g. -/
theorem sums_apply (x2 : IVec S100000 32) (H : FVec Ideal S100000x64 .f32) (g : Fin 1024) (c : Fin 64) :
    Host.scatterAdd (F := Ideal) scatter_S1024x64_S100000x1_S100000x64_1_0_0_1 (val_main_v85 (F := Ideal))
        (val_main_v86 (F := Ideal) x2) H (ix2 g c)
      = Spec.sums (cur1 x2) (cur2 H) g c := by
  refine (Cert.LibScatterHost.scatterAdd2_apply scatter_S1024x64_S100000x1_S100000x64_1_0_0_1 rfl rfl rfl rfl
    _ _ H g c).trans ?_
  rw [val_main_v85_apply, val_main_cst_16_apply, Ideal.ofBits_def, Ideal.ofBits_zero_f32]
  unfold Spec.sums
  refine congrArg (fun t => 0 + t) (Finset.sum_congr rfl fun n _ => ?_)
  rw [word_col]

/-- The second column of graph words (the count's) read at row n is the word of node n. -/
theorem word_col' (x2 : IVec S100000 32) (n : Fin 100000) :
    val_main_v90 (F := Ideal) x2 (ix2 n (0 : Fin 1)) = x2 (ix1 n) := by
  rw [val_main_v90_apply]
  exact congrArg x2 (funext fun a => match a with | ⟨0, _⟩ => rfl)

/-- The accumulating scatter of a vector of ones by graph word into zeros: at g the sum of one unit per node
    whose word reads g. -/
theorem cnt_apply (x2 : IVec S100000 32) (g : Fin 1024) :
    val_main_v91 (F := Ideal) x2 (ix1 g) = Spec.cnt (cur1 x2) (Ideal.ofBits .f32 0x3F800000#32) g := by
  unfold val_main_v91
  refine (Cert.Gcn.IndexMaps.hostScatterAdd1_apply scatter_S1024_S100000x1_S100000_n_0_0_1 rfl rfl rfl rfl
    _ _ _ g).trans ?_
  rw [val_main_v89_apply, val_main_cst_18_apply, Ideal.ofBits_def, Ideal.ofBits_zero_f32]
  unfold Spec.cnt
  refine congrArg (fun t => 0 + t) (Finset.sum_congr rfl fun n _ => ?_)
  rw [word_col', val_main_v88_apply, val_main_cst_17_apply, Ideal.ofBits_def]

/-- The mean per graph: the sum divided by the count clipped below at one. -/
theorem pooled_apply (x0 : FVec Ideal S100000x9 .f32) (x1 : IVec S2x2000000 32) (x2 : IVec S100000 32)
    (x4 : FVec Ideal S9x64 .f32) (x5 : FVec Ideal S64 .f32) (x6 : FVec Ideal S64x64 .f32)
    (x7 : FVec Ideal S64 .f32) (x8 : FVec Ideal S64x64 .f32) (x9 : FVec Ideal S64 .f32)
    (g : Fin 1024) (c : Fin 64) :
    val_main_v96 (F := Ideal) x0 x1 x2 x4 x5 x6 x7 x8 x9 (ix2 g c)
      = Ideal.div (Spec.sums (cur1 x2) (cur2 (val_main_v84 (F := Ideal) x0 x1 x4 x5 x6 x7 x8 x9)) g c)
          (max (Spec.cnt (cur1 x2) (Ideal.ofBits .f32 0x3F800000#32) g) (Ideal.ofBits .f32 0x3F800000#32)) := by
  have e : idx_main_v94 (idx_main_v95 (ix2 g c)) = ix1 g := funext fun a => match a with | ⟨0, _⟩ => rfl
  rw [val_main_v96_apply, Ideal.hostDivf_def, val_main_v95_apply, val_main_v94_apply, e, val_main_v93_apply,
    Ideal.maximumf_def, cnt_apply, val_main_v92_apply, val_main_cst_19_apply, Ideal.ofBits_def]
  unfold val_main_v87
  rw [sums_apply]

/-- The concatenation along the columns, read at (g, j): the first array's column j for j < 64, the second's
    column j − 64 otherwise. -/
theorem feat_apply (a : FVec Ideal S1024x64 .f32) (b : FVec Ideal S1024x4 .f32)
    (h : Shape.Concatenates [S1024x64, S1024x4] S1024x68 1) (g : Fin 1024) (j : Fin 68) :
    concatenate S1024x68 1 [⟨S1024x64, a⟩, ⟨S1024x4, b⟩] h (ix2 g j) = Spec.feat (cur2 a) (cur2 b) g j := by
  unfold Spec.feat
  by_cases hj : j.val < 64
  · rw [dif_pos hj]
    exact concatenate_pair_apply_left (1 : Fin 2) a b h (ix2 g j) rfl (ix2 g ⟨j.val, hj⟩)
      (fun d => match d with | ⟨0, _⟩ => rfl | ⟨1, _⟩ => rfl)
  · rw [dif_neg hj]
    exact concatenate_pair_apply_right (1 : Fin 2) a b h (ix2 g j) rfl rfl (ix2 g ⟨j.val - 64, by omega⟩)
      (fun d hd => match d, hd with | ⟨0, _⟩, _ => rfl | ⟨1, _⟩, hd => absurd rfl hd)
      (by show (j.val - 64) + 64 = j.val; omega)

/-- The two dense layers read at (g, o): a sum over the 64 hidden columns of the clipped affine image of the 68
    feature columns, plus the last bias. -/
theorem head_apply (x0 : FVec Ideal S100000x9 .f32) (x1 : IVec S2x2000000 32) (x2 : IVec S100000 32)
    (x3 : FVec Ideal S1024x4 .f32) (x4 : FVec Ideal S9x64 .f32) (x5 : FVec Ideal S64 .f32)
    (x6 : FVec Ideal S64x64 .f32) (x7 : FVec Ideal S64 .f32) (x8 : FVec Ideal S64x64 .f32)
    (x9 : FVec Ideal S64 .f32) (x10 : FVec Ideal S68x64 .f32) (x11 : FVec Ideal S64 .f32)
    (x12 : FVec Ideal S64x1 .f32) (x13 : FVec Ideal S1 .f32) (g : Fin 1024) (o : Fin 1) :
    val_main_v106 (F := Ideal) x0 x1 x2 x3 x4 x5 x6 x7 x8 x9 x10 x11 x12 x13 (ix2 g o)
      = Spec.head (cur2 (val_main_v97 (F := Ideal) x0 x1 x2 x3 x4 x5 x6 x7 x8 x9)) (cur2 x10) (cur1 x11)
          (cur2 x12) (cur1 x13) g o := by
  have e105 : idx_main_v104 (idx_main_v105 (ix2 g o)) = ix1 o := funext fun a => match a with
    | ⟨0, _⟩ => Fin.ext (by have := o.isLt; show 0 = o.val; omega)
  rw [val_main_v106_apply, Ideal.addf_def, val_main_v103_apply, val_main_v105_apply, val_main_v104_apply, e105]
  unfold Spec.head
  refine congrArg (fun t => t + x13 (ix1 o)) (Finset.sum_congr rfl fun k _ => ?_)
  have el : lidx_main_v103 (ix2 g o) k = ix2 g k := funext fun a => match a with
    | ⟨0, _⟩ => rfl
    | ⟨1, _⟩ => rfl
  have er : ridx_main_v103 (ix2 g o) k = ix2 k o := funext fun a => match a with
    | ⟨0, _⟩ => rfl
    | ⟨1, _⟩ => rfl
  have eb : idx_main_v99 (idx_main_v100 (ix2 g k)) = ix1 k := funext fun a => match a with
    | ⟨0, _⟩ => rfl
  rw [el, er, val_main_v102_apply, Ideal.maximumf_def, val_main_v101_apply, Ideal.addf_def, val_main_v98_apply,
    val_main_v100_apply, val_main_v99_apply, eb, val_main_call4_v0_apply, val_main_call4_cst_apply,
    Ideal.ofBits_def, Ideal.ofBits_zero_f32]
  refine congrArg (fun t => max (t + x11 (ix1 k)) 0 * x12 (ix2 k o)) (Finset.sum_congr rfl fun j _ => ?_)
  have el' : lidx_main_v98 (ix2 g k) j = ix2 g j := funext fun a => match a with
    | ⟨0, _⟩ => rfl
    | ⟨1, _⟩ => rfl
  have er' : ridx_main_v98 (ix2 g k) j = ix2 j k := funext fun a => match a with
    | ⟨0, _⟩ => rfl
    | ⟨1, _⟩ => rfl
  rw [el', er']

/-- The reference's result is three per-edge-weight layers followed by the pooling head, read off the argument
    arrays. -/
theorem ref_spec (x0 : FVec Ideal S100000x9 .f32) (x1 : IVec S2x2000000 32) (x2 : IVec S100000 32)
    (x3 : FVec Ideal S1024x4 .f32) (x4 : FVec Ideal S9x64 .f32) (x5 : FVec Ideal S64 .f32)
    (x6 : FVec Ideal S64x64 .f32) (x7 : FVec Ideal S64 .f32) (x8 : FVec Ideal S64x64 .f32)
    (x9 : FVec Ideal S64 .f32) (x10 : FVec Ideal S68x64 .f32) (x11 : FVec Ideal S64 .f32)
    (x12 : FVec Ideal S64x1 .f32) (x13 : FVec Ideal S1 .f32) :
    val_main_v106 (F := Ideal) x0 x1 x2 x3 x4 x5 x6 x7 x8 x9 x10 x11 x12 x13 = fun i =>
      Spec.out (cur1 x2) (Ideal.ofBits .f32 0x3F800000#32) (Ideal.ofBits .f32 0x3F800000#32)
        (Spec.netR (cur1 (val_main_v3 (F := Ideal) x1)) (cur1 (val_main_v6 (F := Ideal) x1))
          (cur1 (val_main_v15 (F := Ideal) x1)) (cur2 x0) (cur2 x4) (cur1 x5) (cur2 x6) (cur1 x7) (cur2 x8) (cur1 x9))
        (cur2 x3) (cur2 x10) (cur1 x11) (cur2 x12) (cur1 x13) (i 0) (i 1) := by
  funext i
  obtain ⟨g, o, rfl⟩ : ∃ (g : Fin 1024) (o : Fin 1), i = ix2 g o := ⟨i 0, i 1, eq_ix2 i⟩
  rw [head_apply]
  unfold Spec.out
  refine congrArg (fun Z => Spec.head Z (cur2 x10) (cur1 x11) (cur2 x12) (cur1 x13) g o) ?_
  -- the features: the concatenation of the means and the metadata
  funext g' j
  show val_main_v97 (F := Ideal) x0 x1 x2 x3 x4 x5 x6 x7 x8 x9 (ix2 g' j) = _
  unfold val_main_v97
  rw [feat_apply]
  refine congrArg (fun P => Spec.feat P (cur2 x3) g' j) ?_
  -- the means, over the node activations the three layers leave
  funext g'' c
  show val_main_v96 (F := Ideal) x0 x1 x2 x4 x5 x6 x7 x8 x9 (ix2 g'' c) = _
  rw [pooled_apply, RefLayers.layers_spec]

end Cert.Gcn.RefHead

end
-- ==== Proof.Consts.lean ====
/-
  The float constants the two programs spell, as the extended reals their patterns denote, and the node
  weight as a non-negative real.

  `0x3F800000` is 1 and `0xBF000000` is -1/2 (sign set, exponent field 126, no fraction bits:
  -(2 ^ 23) * 2 ^ (126 - 127 - 23) = -1/2).  The weight of a node of degree x is x ^ (-1/2) where x > 0 and 0
  elsewhere.  Whatever extended real x is, that value is a non-negative real: where x is not above 0 the
  value is 0; where x = ⊤ the power with a negative exponent is 0; and where x is a positive real the
  power is the real power x ^ (-1/2), which is non-negative.
-/
import Idealize.ShloMosaic.PureOps.Ideal
import Idealize.ShloMosaic.PureOps.Ideal.Laws
import Idealize.ShloMosaic.Lib.ValueIdx
import proofs.«405875_j14018773254871_2_alg».proof.Proof.Spec

noncomputable section

namespace Cert.Gcn.Consts

open Idealize.ShloMosaic

/-- The pattern `0x3F800000` (exponent field 127, no fraction bits) denotes 1. -/
theorem one_eq : Ideal.ofBits .f32 0x3F800000#32 = (1 : EReal) := by
  simp [Ideal.ofBits, Ideal.ieee, -EReal.coe_mul]; norm_num

/-- The pattern `0xBF000000` (sign set, exponent field 126, no fraction bits) denotes -1/2. -/
theorem neg_half_eq : Ideal.ofBits .f32 0xBF000000#32 = (((-1 / 2 : ℝ)) : EReal) := by
  simp [Ideal.ofBits, Ideal.ieee, -EReal.coe_mul]; norm_num

/-- -1/2 is not above zero on the extended reals. -/
theorem neg_half_not_pos : ¬ (0 : EReal) < ((-1 / 2 : ℝ) : EReal) := by
  rw [← EReal.coe_zero, EReal.coe_lt_coe_iff]; norm_num

/-- -1/2 is not zero on the extended reals. -/
theorem neg_half_ne_zero : ((-1 / 2 : ℝ) : EReal) ≠ 0 := by
  rw [← EReal.coe_zero, Ne, EReal.coe_eq_coe_iff]; norm_num

/-- The node weight: deg ^ (-1/2) where deg > 0, else 0, is a non-negative real whatever extended real deg is. -/
theorem weight_real (x : EReal) : ∃ d : ℝ, 0 ≤ d ∧ Scalar.select (FloatOps.cmpf (F := Ideal) (φ := .f32) .ogt x (Ideal.ofBits .f32 0x00000000#32)) (FloatOps.hostPowf (F := Ideal) (φ := .f32) x (Ideal.ofBits .f32 0xBF000000#32)) (Ideal.ofBits .f32 0x00000000#32) = (d : EReal) := by
  rw [Ideal.cmpf_def, Ideal.hostPowf_def, Ideal.ofBits_zero_f32, neg_half_eq]
  by_cases hx : (0 : EReal) < x
  · -- above zero: the power is taken
    have hc : Ideal.cmp .ogt x 0 = 1#1 := by
      show BitVec.ofBool (decide ((0 : EReal) < x)) = 1#1
      rw [decide_eq_true hx]; rfl
    rw [hc, ValueIdx.select_one]
    induction x using EReal.rec with
    | bot => exact absurd hx (not_lt_bot)
    | top =>
      refine ⟨0, le_rfl, ?_⟩
      rw [Ideal.pow_top, if_neg neg_half_not_pos, if_neg neg_half_ne_zero, EReal.coe_zero]
    | coe r =>
      have hr : 0 ≤ r := le_of_lt (EReal.coe_pos.1 hx)
      exact ⟨Real.rpow r (-1 / 2), Real.rpow_nonneg hr _, rfl⟩
  · -- not above zero: the weight is 0
    have hc : Ideal.cmp .ogt x 0 = 0#1 := by
      show BitVec.ofBool (decide ((0 : EReal) < x)) = 0#1
      rw [decide_eq_false hx]; rfl
    rw [hc, ValueIdx.select_zero]
    exact ⟨0, le_rfl, EReal.coe_zero.symm⟩

end Cert.Gcn.Consts

end
-- ==== Proof.Join.lean ====
/-
  The two results are one function.

  Both programs build the edge lists and the node weights by the same host operations, so the source words,
  the target words and the weights are the same arrays on both sides.  Every weight is count ^ (-1/2) where
  the count is positive and 0 elsewhere: a non-negative real whatever the count, so the split-weight
  layers equal the per-edge-weight layers.  The kernel counts a graph's nodes by adding the exact integer
  1, the reference by adding the float pattern of 1.0, which denotes 1.
-/
import proofs.«405875_j14018773254871_2_alg».proof.Proof.KSpec
import proofs.«405875_j14018773254871_2_alg».proof.Proof.RefHead
import proofs.«405875_j14018773254871_2_alg».proof.Proof.Consts

set_option maxRecDepth 16384

noncomputable section

namespace Cert.Gcn.Join

open Cert.Gcn Cert.Gcn.Spec
open Idealize.ShloMosaic Idealize.ShloMosaic.TcCoe Idealize.ShloMosaic.ValueIdx

/-- The source words are built by the same operations in both programs. -/
theorem src_eq (ei : IVec Cert.KernelIdeal.S2x2000000 32) :
    KChain.srcW ei = Cert.ReferenceIdeal.ReadP.val_main_v3 (F := Ideal) ei := rfl

/-- The target words are built by the same operations in both programs. -/
theorem dst_eq (ei : IVec Cert.KernelIdeal.S2x2000000 32) :
    KChain.dstW ei = Cert.ReferenceIdeal.ReadP.val_main_v6 (F := Ideal) ei := rfl

/-- The node weights are built by the same operations in both programs. -/
theorem dinv_eq (ei : IVec Cert.KernelIdeal.S2x2000000 32) :
    KChain.dinvW ei = Cert.ReferenceIdeal.ReadP.val_main_v15 (F := Ideal) ei := rfl

open Cert.KernelIdeal Cert.KernelIdeal.Gen in
/-- Whatever the counts are, the weight at a node is a non-negative real. -/
theorem weight_at (D : FVec Ideal Cert.KernelIdeal.S100000 .f32) (i : Cert.KernelIdeal.S100000.Idx) :
    ∃ d : ℝ, 0 ≤ d ∧
      select (cmpf .ogt D (broadcastInDim S100000 ![] bcast_S_S100000 (constant (F := Ideal) S_ .f32 0x00000000#32)))
        (Host.powf D (broadcastInDim S100000 ![] bcast_S_S100000 (constant (F := Ideal) S_ .f32 0xBF000000#32)))
        (broadcastInDim S100000 ![] bcast_S_S100000 (constant (F := Ideal) S_ .f32 0x00000000#32)) i = (d : EReal) := by
  obtain ⟨d, hd, he⟩ := Consts.weight_real (D i)
  exact ⟨d, hd, he⟩

/-- Every node weight is a non-negative real. -/
theorem dinv_real (ei : IVec Cert.KernelIdeal.S2x2000000 32) (n : Fin 100000) :
    ∃ d : ℝ, 0 ≤ d ∧ cur1 (KChain.dinvW ei) n = (d : EReal) :=
  weight_at (KChain.degW ei) (ix1 n)

/-- The kernel program's result, read off the argument arrays, is the reference's result read off the same arrays. -/
theorem result_eq (m : (ℓ : Loc Cert.KernelIdeal.nD Cert.KernelIdeal.τ Cert.KernelIdeal.sig) → Buf (Elt Ideal) ℓ)
    (c : Dev Cert.KernelIdeal.nD) :
    KChain.KOut m c
      = Cert.ReferenceIdeal.ReadP.val_main_v106 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13)) := by
  rw [KSpec.kout_spec, RefHead.ref_spec]
  funext i
  rw [← src_eq, ← dst_eq, ← dinv_eq, Consts.one_eq]
  rw [Spec.net_eq _ _ _ (fun v => dinv_real _ v)]

end Cert.Gcn.Join

end
-- ==== Proof.lean ====
/-
  The certificate: a three-layer graph convolution, mean pooling and a two-layer head, in five TensorCore
  calls among host stretches, against the same network written with plain array operations.

  The three frames.  The word-level and the idealized kernel programs run to the end without a fault and
  leave their arguments as launched: the generated frame certificates over the five calls.  The reference has
  no call: it is a list of host operations, and its run is the fold of those operations over the launch
  memory.

  The value claim, at the exact (extended-real) reading of both programs.  The kernel program's result buffer
  ends at one nested expression in its argument arrays: each call's output array is one array-wide function
  of the call's input arrays, and each host stretch between calls is a fixed function of what it reads.  Read
  element by element that expression is: three layers in which row n of X W is scaled by the node weight
  before the rows are gathered by source and summed by target, and the summed row v is scaled by the
  weight of v after; then a mean per graph and two dense layers.  The reference's result, read the same
  way, multiplies every gathered row by the product of its edge's two weights instead.  A node weight is
  count ^ (-1/2) for a positive count and 0 otherwise, a non-negative real, and multiplication by a
  non-negative real distributes over every sum of extended reals; an edge summed at v has target row v.  So
  the two results are the same function of the same arguments, with no appeal to the inputs' finiteness.

  Nothing was rewritten when the kernel program was idealized, so that conjunct is trivial.
-/
import proofs.«405875_j14018773254871_2_alg».proof.Defs
import proofs.«405875_j14018773254871_2_alg».proof.Proof.Gen.Kernel
import proofs.«405875_j14018773254871_2_alg».proof.Proof.Gen.Kernel.Skeleton
import proofs.«405875_j14018773254871_2_alg».proof.Proof.Gen.Kernel.Launch
import proofs.«405875_j14018773254871_2_alg».proof.Proof.Gen.Kernel.Points
import proofs.«405875_j14018773254871_2_alg».proof.Proof.Gen.Kernel.Frame
import proofs.«405875_j14018773254871_2_alg».proof.Proof.Gen.KernelIdeal
import proofs.«405875_j14018773254871_2_alg».proof.Proof.Gen.KernelIdeal.Skeleton
import proofs.«405875_j14018773254871_2_alg».proof.Proof.Gen.KernelIdeal.Launch
import proofs.«405875_j14018773254871_2_alg».proof.Proof.Gen.KernelIdeal.Points
import proofs.«405875_j14018773254871_2_alg».proof.Proof.Gen.KernelIdeal.Frame
import proofs.«405875_j14018773254871_2_alg».proof.Proof.Gen.ReferenceIdeal
import proofs.«405875_j14018773254871_2_alg».proof.Proof.Gen.Pre_finite_inputs
import proofs.«405875_j14018773254871_2_alg».proof.Proof.KRun
import proofs.«405875_j14018773254871_2_alg».proof.Proof.RefRun
import proofs.«405875_j14018773254871_2_alg».proof.Proof.RefRead
import proofs.«405875_j14018773254871_2_alg».proof.Proof.Join
import Idealize.ShloMosaic.Adequacy
import Idealize.ShloMosaic.Init

noncomputable section

namespace Cert.Proof

open Idealize.ShloMosaic Idealize.SL.Sem Cert.Kernel

/-- The word-level kernel program runs to the end and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs to the end and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs to the end and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From memories agreeing on the arguments both idealized programs end with the same result: the kernel
    program's at its nested expression, the reference's at its composed term, and the two are one function of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.KChain.KOut m c, ?_, ?_⟩
  · exact (θ_run Cert.KernelIdeal.defs _ _).mono
      (fun r h c => ⟨(h c).1.trans (Cert.Gcn.KChain.kernel_value m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13⟩ := hagree c
    rw [Cert.ReferenceIdeal.ReadP.val_main_v106_eq, h0, h1, h2, h3, h4, h5, h6, h7, h8, h9, h10, h11, h12, h13]
    exact (Cert.Gcn.Join.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
